-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2048x4096 .f32) (main_arg1 : IVec S4096x1376 32) (main_arg2 : IVec S32x1376 32) (main_arg3 : FVec F S32x11008 .f32) (main_arg4 : FVec F S11008 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S_ : Shape := ⟨0, ![]⟩
abbrev S4096x1408 : Shape := ⟨2, ![4096, 1408]⟩
abbrev S32x1408 : Shape := ⟨2, ![32, 1408]⟩
abbrev S32x1x1408 : Shape := ⟨3, ![32, 1, 1408]⟩
abbrev S32x11264 : Shape := ⟨2, ![32, 11264]⟩
abbrev S32x11x128x8 : Shape := ⟨4, ![32, 11, 128, 8]⟩
abbrev S32x11x8x128 : Shape := ⟨4, ![32, 11, 8, 128]⟩
abbrev S32x1x11264 : Shape := ⟨3, ![32, 1, 11264]⟩
abbrev S11264 : Shape := ⟨1, ![11264]⟩
abbrev S11x128x8 : Shape := ⟨3, ![11, 128, 8]⟩
abbrev S11x8x128 : Shape := ⟨3, ![11, 8, 128]⟩
abbrev S1x11264 : Shape := ⟨2, ![1, 11264]⟩
abbrev S2048x11264 : Shape := ⟨2, ![2048, 11264]⟩
abbrev S512x1024 : Shape := ⟨2, ![512, 1024]⟩
abbrev S1024x128 : Shape := ⟨2, ![1024, 128]⟩
abbrev S8x1x128 : Shape := ⟨3, ![8, 1, 128]⟩
abbrev S8x1x1024 : Shape := ⟨3, ![8, 1, 1024]⟩
abbrev S1x1024 : Shape := ⟨2, ![1, 1024]⟩
abbrev S1024x1024 : Shape := ⟨2, ![1024, 1024]⟩
abbrev S128x128 : Shape := ⟨2, ![128, 128]⟩
abbrev S1x1x128 : Shape := ⟨3, ![1, 1, 128]⟩
abbrev S1x128 : Shape := ⟨2, ![1, 128]⟩
abbrev S1x1x1024 : Shape := ⟨3, ![1, 1, 1024]⟩
abbrev S2048x11x8x128 : Shape := ⟨4, ![2048, 11, 8, 128]⟩
abbrev S2048x11x128x8 : Shape := ⟨4, ![2048, 11, 128, 8]⟩
abbrev S2048x11008 : Shape := ⟨2, ![2048, 11008]⟩

abbrev nBuf : Space → Nat
  | .hbm => 31
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S_, .i32⟩
  | .hbm, ⟨7, _⟩ => ⟨S4096x1408, .i32⟩
  | .hbm, ⟨8, _⟩ => ⟨S_, .i32⟩
  | .hbm, ⟨9, _⟩ => ⟨S_, .i32⟩
  | .hbm, ⟨10, _⟩ => ⟨S32x1408, .i32⟩
  | .hbm, ⟨11, _⟩ => ⟨S32x1x1408, .i32⟩
  | .hbm, ⟨12, _⟩ => ⟨S_, .i32⟩
  | .hbm, ⟨13, _⟩ => ⟨S_, .f32⟩
  | .hbm, ⟨14, _⟩ => ⟨S32x11264, .f32⟩
  | .hbm, ⟨15, _⟩ => ⟨S32x11x128x8, .f32⟩
  | .hbm, ⟨16, _⟩ => ⟨S32x11x8x128, .f32⟩
  | .hbm, ⟨17, _⟩ => ⟨S32x11264, .f32⟩
  | .hbm, ⟨18, _⟩ => ⟨S32x1x11264, .f32⟩
  | .hbm, ⟨19, _⟩ => ⟨S_, .i32⟩
  | .hbm, ⟨20, _⟩ => ⟨S_, .f32⟩
  | .hbm, ⟨21, _⟩ => ⟨S11264, .f32⟩
  | .hbm, ⟨22, _⟩ => ⟨S11x128x8, .f32⟩
  | .hbm, ⟨23, _⟩ => ⟨S11x8x128, .f32⟩
  | .hbm, ⟨24, _⟩ => ⟨S11264, .f32⟩
  | .hbm, ⟨25, _⟩ => ⟨S1x11264, .f32⟩
  | .hbm, ⟨26, _⟩ => ⟨S2048x11264, .f32⟩
  | .hbm, ⟨27, _⟩ => ⟨S2048x11x8x128, .f32⟩
  | .hbm, ⟨28, _⟩ => ⟨S2048x11x128x8, .f32⟩
  | .hbm, ⟨29, _⟩ => ⟨S2048x11264, .f32⟩
  | .hbm, ⟨30, _⟩ => ⟨S2048x11008, .f32⟩
  | .local _ .vmem, ⟨0, _⟩ => ⟨S512x1024, .f32⟩
  | .local _ .vmem, ⟨1, _⟩ => ⟨S512x1024, .f32⟩
  | .local _ .vmem, ⟨2, _⟩ => ⟨S1024x128, .i32⟩
  | .local _ .vmem, ⟨3, _⟩ => ⟨S1024x128, .i32⟩
  | .local _ .vmem, ⟨4, _⟩ => ⟨S8x1x128, .i32⟩
  | .local _ .vmem, ⟨5, _⟩ => ⟨S8x1x128, .i32⟩
  | .local _ .vmem, ⟨6, _⟩ => ⟨S8x1x1024, .f32⟩
  | .local _ .vmem, ⟨7, _⟩ => ⟨S8x1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 4], ![false, false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  v16
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v18 : Index := Scalar.indexCast v17
  let c0_11 : Index := 0#32
  ![v18.toNat, 0]
def k0_off2 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v21 : Index := Scalar.indexCast arg11
  let c0_12 : Index := 0#32
  let c0_13 : Index := 0#32
  ![v21.toNat, 0, 0]
def k0_off3 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v24 : Index := Scalar.indexCast arg11
  let c0_14 : Index := 0#32
  let c0_15 : Index := 0#32
  ![v24.toNat, 0, 0]
def k0_off4 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v43 : Index := Scalar.indexCast v17
  let c0_19 : Index := 0#32
  ![v43.toNat, 0]
def k0_off5 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v63 : Index := Scalar.indexCast v17
  let c128 : Index := 128#32
  ![v63.toNat, 128]
def k0_off6 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v83 : Index := Scalar.indexCast v17
  let c256 : Index := 256#32
  ![v83.toNat, 256]
def k0_off7 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v103 : Index := Scalar.indexCast v17
  let c384 : Index := 384#32
  ![v103.toNat, 384]
def k0_off8 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v123 : Index := Scalar.indexCast v17
  let c512 : Index := 512#32
  ![v123.toNat, 512]
def k0_off9 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v143 : Index := Scalar.indexCast v17
  let c640 : Index := 640#32
  ![v143.toNat, 640]
def k0_off10 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v163 : Index := Scalar.indexCast v17
  let c768 : Index := 768#32
  ![v163.toNat, 768]
def k0_off11 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v16 : BitVec 32 := Scalar.muli arg11 c128_i32
  let v17 : BitVec 32 := v16
  let v183 : Index := Scalar.indexCast v17
  let c896 : Index := 896#32
  ![v183.toNat, 896]
def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  pads_S4096x1376_S4096x1408_000_0320 : S4096x1376.Pads (![0, 0] : Fin 2 → Nat) ![0, 32] ![0, 0] S4096x1408
  h_S_ : 0 < S_.numel
  pads_S32x1376_S32x1408_000_0320 : S32x1376.Pads (![0, 0] : Fin 2 → Nat) ![0, 32] ![0, 0] S32x1408
  shapeCasts_S32x1408_S32x1x1408 : S32x1408.ShapeCasts S32x1x1408
  pads_S32x11008_S32x11264_000_02560 : S32x11008.Pads (![0, 0] : Fin 2 → Nat) ![0, 256] ![0, 0] S32x11264
  shapeCasts_S32x11264_S32x11x128x8 : S32x11264.ShapeCasts S32x11x128x8
  transposes_S32x11x128x8_S32x11x8x128_0_1_3_2 : S32x11x128x8.Transposes [0, 1, 3, 2] S32x11x8x128
  shapeCasts_S32x11x8x128_S32x11264 : S32x11x8x128.ShapeCasts S32x11264
  shapeCasts_S32x11264_S32x1x11264 : S32x11264.ShapeCasts S32x1x11264
  pads_S11008_S11264_02560 : S11008.Pads (![0] : Fin 1 → Nat) ![256] ![0] S11264
  shapeCasts_S11264_S11x128x8 : S11264.ShapeCasts S11x128x8
  transposes_S11x128x8_S11x8x128_0_2_1 : S11x128x8.Transposes [0, 2, 1] S11x8x128
  shapeCasts_S11x8x128_S11264 : S11x8x128.ShapeCasts S11264
  shapeCasts_S11264_S1x11264 : S11264.ShapeCasts S1x11264
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S128x128 : 0 < S128x128.numel
  shapeCasts_S128x128_S128x128 : S128x128.ShapeCasts S128x128
  h_S1x1x128 : 0 < S1x1x128.numel
  shapeCasts_S1x1x128_S1x128 : S1x1x128.ShapeCasts S1x128
  h_S1x1x1024 : 0 < S1x1x1024.numel
  shapeCasts_S1x1x1024_S1x1024 : S1x1x1024.ShapeCasts S1x1024
  slices_S1x1024_o0_0_S1x128 : S1x1024.Slices ![0, 0] S1x128
  broadcasts_S1x128_S128x128 : S1x128.Broadcasts S128x128
  bitsLt_bf16_f32 : FTy.bits .bf16 < FTy.bits .f32
  slices_S1x1024_o0_128_S1x128 : S1x1024.Slices ![0, 128] S1x128
  slices_S1x1024_o0_256_S1x128 : S1x1024.Slices ![0, 256] S1x128
  slices_S1x1024_o0_384_S1x128 : S1x1024.Slices ![0, 384] S1x128
  slices_S1x1024_o0_512_S1x128 : S1x1024.Slices ![0, 512] S1x128
  slices_S1x1024_o0_640_S1x128 : S1x1024.Slices ![0, 640] S1x128
  slices_S1x1024_o0_768_S1x128 : S1x1024.Slices ![0, 768] S1x128
  slices_S1x1024_o0_896_S1x128 : S1x1024.Slices ![0, 896] S1x128
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S2048x11264_S2048x11x8x128 : S2048x11264.ShapeCasts S2048x11x8x128
  transposes_S2048x11x8x128_S2048x11x128x8_0_1_3_2 : S2048x11x8x128.Transposes [0, 1, 3, 2] S2048x11x128x8
  shapeCasts_S2048x11x128x8_S2048x11264 : S2048x11x128x8.ShapeCasts S2048x11264
  slices_S2048x11264_S2048x11008_0_0 : S2048x11264.Slices ![0, 0] S2048x11008
  dot_S512x1024_S1024x1024_S512x1024_1_0_0_1_n_n_wf : DotDims.WF S512x1024 S1024x1024 S512x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S1024x128.size a
  k0_off2_inb : ∀ k0_t1 : Fin k0_t1_loop.trips, ∀ a, (k0_off2 k0_t1) a + S1x1x128.size a ≤ S8x1x128.size a
  k0_off3_inb : ∀ k0_t1 : Fin k0_t1_loop.trips, ∀ a, (k0_off3 k0_t1) a + S1x1x1024.size a ≤ S8x1x1024.size a
  k0_off4_inb : ∀ k0_t1 : Fin k0_t1_loop.trips, ∀ a, (k0_off4 k0_t1) a + S128x128.size a ≤ S1024x1024.size a
  k0_off4_packedbf16 : ∀ k0_t1 : Fin k0_t1_loop.trips, (Rect.unit (s := S1024x1024) (k0_off4 k0_t1) S128x128.size (k0_off4_inb k0_t1)).PackedRows (EltTy.packing .bf16)
  k0_off5_inb : ∀ k0_t1 : Fin k0_t1_loop.trips, ∀ a, (k0_off5 k0_t1) a + S128x128.size a ≤ S1024x1024.size a
  k0_off5_packedbf16 : ∀ k0_t1 : Fin k0_t1_loop.trips, (Rect.unit (s := S1024x1024) (k0_off5 k0_t1) S128x128.size (k0_off5_inb k0_t1)).PackedRows (EltTy.packing .bf16)
  k0_off6_inb : ∀ k0_t1 : Fin k0_t1_loop.trips, ∀ a, (k0_off6 k0_t1) a + S128x128.size a ≤ S1024x1024.size a
  k0_off6_packedbf16 : ∀ k0_t1 : Fin k0_t1_loop.trips, (Rect.unit (s := S1024x1024) (k0_off6 k0_t1) S128x128.size (k0_off6_inb k0_t1)).PackedRows (EltTy.packing .bf16)
  k0_off7_inb : ∀ k0_t1 : Fin k0_t1_loop.trips, ∀ a, (k0_off7 k0_t1) a + S128x128.size a ≤ S1024x1024.size a
  k0_off7_packedbf16 : ∀ k0_t1 : Fin k0_t1_loop.trips, (Rect.unit (s := S1024x1024) (k0_off7 k0_t1) S128x128.size (k0_off7_inb k0_t1)).PackedRows (EltTy.packing .bf16)
  k0_off8_inb : ∀ k0_t1 : Fin k0_t1_loop.trips, ∀ a, (k0_off8 k0_t1) a + S128x128.size a ≤ S1024x1024.size a
  k0_off8_packedbf16 : ∀ k0_t1 : Fin k0_t1_loop.trips, (Rect.unit (s := S1024x1024) (k0_off8 k0_t1) S128x128.size (k0_off8_inb k0_t1)).PackedRows (EltTy.packing .bf16)
  k0_off9_inb : ∀ k0_t1 : Fin k0_t1_loop.trips, ∀ a, (k0_off9 k0_t1) a + S128x128.size a ≤ S1024x1024.size a
  k0_off9_packedbf16 : ∀ k0_t1 : Fin k0_t1_loop.trips, (Rect.unit (s := S1024x1024) (k0_off9 k0_t1) S128x128.size (k0_off9_inb k0_t1)).PackedRows (EltTy.packing .bf16)
  k0_off10_inb : ∀ k0_t1 : Fin k0_t1_loop.trips, ∀ a, (k0_off10 k0_t1) a + S128x128.size a ≤ S1024x1024.size a
  k0_off10_packedbf16 : ∀ k0_t1 : Fin k0_t1_loop.trips, (Rect.unit (s := S1024x1024) (k0_off10 k0_t1) S128x128.size (k0_off10_inb k0_t1)).PackedRows (EltTy.packing .bf16)
  k0_off11_inb : ∀ k0_t1 : Fin k0_t1_loop.trips, ∀ a, (k0_off11 k0_t1) a + S128x128.size a ≤ S1024x1024.size a
  k0_off11_packedbf16 : ∀ k0_t1 : Fin k0_t1_loop.trips, (Rect.unit (s := S1024x1024) (k0_off11 k0_t1) S128x128.size (k0_off11_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x1408.size a
  hwx0_1 : ∀ i : grid0.Coords, EltTy.bits .i32 = 32 ∨ (Rect.block (s := S4096x1408) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128.size a ≤ S32x1x1408.size a
  hwx0_2 : ∀ i : grid0.Coords, EltTy.bits .i32 = 32 ∨ (Rect.block (s := S32x1x1408) S8x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1024.size a ≤ S32x1x11264.size a
  hwx0_3 : ∀ i : grid0.Coords, EltTy.bits .f32 = 32 ∨ (Rect.block (s := S32x1x11264) S8x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x11264.size a
  hwx0_5 : ∀ i : grid0.Coords, EltTy.bits .f32 = 32 ∨ (Rect.block (s := S2048x11264) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x1376 : Shape := ⟨2, ![4096, 1376]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S2048x11008 : Shape := ⟨2, ![2048, 11008]⟩
abbrev S1x11008 : Shape := ⟨2, ![1, 11008]⟩

abbrev nBuf : Space → Nat
  | .hbm => 44
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1376, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x1376x1, .i32⟩
  | .hbm, ⟨10, _⟩ => ⟨S1x1x8, .i32⟩
  | .hbm, ⟨11, _⟩ => ⟨S4096x1376x8, .i32⟩
  | .hbm, ⟨12, _⟩ => ⟨S4096x1376x8, .i32⟩
  | .hbm, ⟨13, _⟩ => ⟨S4096x1376x8, .i32⟩
  | .hbm, ⟨14, _⟩ => ⟨S_, .i32⟩
  | .hbm, ⟨15, _⟩ => ⟨S4096x1376x8, .i32⟩
  | .hbm, ⟨16, _⟩ => ⟨S4096x1376x8, .i32⟩
  | .hbm, ⟨17, _⟩ => ⟨S4096x11008, .i32⟩
  | .hbm, ⟨18, _⟩ => ⟨S4096x11008, .f32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S32x1x11008, .f32⟩
  | .hbm, ⟨34, _⟩ => ⟨S32x128x11008, .f32⟩
  | .hbm, ⟨35, _⟩ => ⟨S32x128x11008, .f32⟩
  | .hbm, ⟨36, _⟩ => ⟨S32x1x11008, .f32⟩
  | .hbm, ⟨37, _⟩ => ⟨S32x128x11008, .f32⟩
  | .hbm, ⟨38, _⟩ => ⟨S32x128x11008, .f32⟩
  | .hbm, ⟨39, _⟩ => ⟨S4096x11008, .f32⟩
  | .hbm, ⟨40, _⟩ => ⟨S2048x11008, .f32⟩
  | .hbm, ⟨41, _⟩ => ⟨S1x11008, .f32⟩
  | .hbm, ⟨42, _⟩ => ⟨S2048x11008, .f32⟩
  | .hbm, ⟨43, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  dot_S2048x4096_S4096x11008_S2048x11008_1_0_0_1_n_n_wf : DotDims.WF S2048x4096 S4096x11008 S2048x11008 [1] [0] [0] [1] [] []

variable [Facts₀]

def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.KTrip.lean ====
import proofs.«415671_j19009525252581_4_alg».proof.Proof.Gen.Kernel.Frame.Runs

set_option maxRecDepth 16384

/-
  The body's loop over the eight quantisation groups of a K tile, as an invariant the body's run goes through once:
  what one trip stores (eight 128 × 128 blocks of the weight scratch, one per 4-bit field), the blocks of the trips
  before a given one, and the list of a trip's blocks written out. A trip's blocks do not depend on what the scratch
  held when the trip began: the trip stores, it never uses what it loads back.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Kernel Cert.Kernel.Gen

/-! ## The loop over the eight quantisation groups of a K tile

Trip `k` dequantises rows `128·k … 128·k + 127` of the weight tile: eight stores, one per 4-bit field, each a
128 × 128 block of the scratch at column offset `128·field`. What a trip stores does not depend on what the scratch held. -/

/-- One trip's resources: the packed weights, zeros and scales at their contents, the weight scratch at any. -/
abbrev TripRes (c : Dev nD) (arg4 : Memref sig .tc .vmem S1024x128 .i32) (arg5 : Memref sig .tc .vmem S8x1x128 .i32) (arg6 : Memref sig .tc .vmem S8x1x1024 .f32) (arg10 : Memref sig .tc .vmem S1024x1024 .bf16) (X_arg4 : BufTy.Contents (Elt F) arg4.view.ty) (X_arg5 : BufTy.Contents (Elt F) arg5.view.ty) (X_arg6 : BufTy.Contents (Elt F) arg6.view.ty) (f_arg10 : BufTy.Contents (Elt F) arg10.view.ty) : sProp 𝕄 :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} f_arg10))

/-- One trip at a symbolic `k`: the eight blocks it stores, found by running it. -/
@[irreducible] def tripW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    { L_arg10 : List (View.Piece (Elt F) S1024x1024 .bf16) // ∀ (E : Set ℕ) (f_arg10 : BufTy.Contents (Elt F) arg10.view.ty),
      TripRes (F := F) c arg4 arg5 arg6 arg10 X_arg4 X_arg5 X_arg6 f_arg10
      ⊢ wp frame (wpE (defs₀ (F := F)) 𝒱 (c : Thread nD τ) bd) E (Gen.k0_t1_body (F := F) i arg3 harg3 arg4 harg4 arg5 harg5 arg6 harg6 arg7 harg7 arg8 harg8 arg9 harg9 arg10 harg10 k PUnit.unit)
          (fun _ => TripRes (F := F) c arg4 arg5 arg6 arg10 X_arg4 X_arg5 X_arg6 (arg10.view.writes (Elt F) f_arg10 L_arg10)) } := by
  have hk : k.val < 8 := Nat.lt_of_lt_of_le k.isLt k0_t1_abs.2.1
  refine ⟨?_, fun E f_arg10 => ?run⟩
  case run =>
    unfold Gen.k0_t1_body
    iintro ⟨HR_arg4, HR_arg5, HR_arg6, HW_arg10⟩
    sl_exec
    sl_step
    sl_close

/-- The blocks of the trips before `k` (last first). -/
def pbW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) : ℕ → List (View.Piece (Elt F) S1024x1024 .bf16)
  | 0 => []
  | k + 1 => (if h : k < k0_t1_loop.trips then (tripW (F := F) 𝒱 c bd i arg3 harg3 arg4 harg4 arg5 harg5 arg6 harg6 arg7 harg7 arg8 harg8 arg9 harg9 arg10 harg10 X_arg4 X_arg5 X_arg6 ⟨k, h⟩).1 else []) ++ pbW 𝒱 c bd i arg3 harg3 arg4 harg4 arg5 harg5 arg6 harg6 arg7 harg7 arg8 harg8 arg9 harg9 arg10 harg10 X_arg4 X_arg5 X_arg6 k

theorem pbW_succ (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    pbW (F := F) 𝒱 c bd i arg3 harg3 arg4 harg4 arg5 harg5 arg6 harg6 arg7 harg7 arg8 harg8 arg9 harg9 arg10 harg10 X_arg4 X_arg5 X_arg6 (k.val + 1)
      = (tripW (F := F) 𝒱 c bd i arg3 harg3 arg4 harg4 arg5 harg5 arg6 harg6 arg7 harg7 arg8 harg8 arg9 harg9 arg10 harg10 X_arg4 X_arg5 X_arg6 k).1 ++ pbW (F := F) 𝒱 c bd i arg3 harg3 arg4 harg4 arg5 harg5 arg6 harg6 arg7 harg7 arg8 harg8 arg9 harg9 arg10 harg10 X_arg4 X_arg5 X_arg6 k.val := by
  rw [pbW.eq_2, dif_pos k.isLt]

/-- Before trip `k`: the inputs as they were, the scratch holding the earlier trips' blocks over its contents at loop entry. -/
abbrev invW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (k : ℕ) (_u : PUnit) : sProp 𝕄 :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg10.view.loc (c : Thread nD τ) ↦[arg10.view.set]{fullShare} f) ∗ ⌜f = arg10.view.writes (Elt F) G_arg10 (pbW (F := F) 𝒱 c bd i arg3 harg3 arg4 harg4 arg5 harg5 arg6 harg6 arg7 harg7 arg8 harg8 arg9 harg9 arg10 harg10 X_arg4 X_arg5 X_arg6 k)⌝))

set_option warn.classDefReducibility false in
/-- The loop by its invariant. -/
@[sl_loop] def loopInvW (𝒱 : Variants) (c : Dev nD) (bd : Option 𝒱.V) (E : Set ℕ) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) :
    Gen.LoopInvTy_k0_t1 (F := F) Unit ℕ (UR sig nD τ) ℕ 𝒱 c bd E i arg3 harg3 arg4 harg4 arg5 harg5 arg6 harg6 arg7 harg7 arg8 harg8 arg9 harg9 arg10 harg10 where
  inv := invW (F := F) 𝒱 c bd i arg3 harg3 arg4 harg4 arg5 harg5 arg6 harg6 arg7 harg7 arg8 harg8 arg9 harg9 arg10 harg10 X_arg4 X_arg5 X_arg6 G_arg10
  step k acc := by
    iintro ⟨HR_arg4, HR_arg5, HR_arg6, ⟨%f_arg10, HW_arg10, %h_arg10⟩⟩
    iapply (wp_wand_r Idealize.ShloMosaic.frame (wpE (defs₀ (F := F)) 𝒱 (c : Thread nD τ) bd) E)
    isplitl [HR_arg4 HR_arg5 HR_arg6 HW_arg10]
    · iapply ((tripW (F := F) 𝒱 c bd i arg3 harg3 arg4 harg4 arg5 harg5 arg6 harg6 arg7 harg7 arg8 harg8 arg9 harg9 arg10 harg10 X_arg4 X_arg5 X_arg6 k).2 E f_arg10)
      isplitl [HR_arg4]; · iexact HR_arg4
      isplitl [HR_arg5]; · iexact HR_arg5
      isplitl [HR_arg6]; · iexact HR_arg6
      iexact HW_arg10
    · iintro %_ ⟨HR_arg4, HR_arg5, HR_arg6, HW_arg10⟩
      isplitl [HR_arg4]; · iexact HR_arg4
      isplitl [HR_arg5]; · iexact HR_arg5
      isplitl [HR_arg6]; · iexact HR_arg6
      rw [pbW_succ]
      iexists _; isplitl [HW_arg10]; · iexact HW_arg10
      ipureintro; rw [h_arg10, ← View.writes_append]

/-! ## What a trip stores, field by field -/

/-- Field block `nb` of one group's 128 rows, from the group's packed weight rows `w`, zero row `z` and scale row `s`:
    `(field nb of w − field nb of z) · s[128·nb …]`, as the body computes it. -/
def fieldBlock (nb : Fin 8) (w : Vec F S128x128 .i32) (z : Vec F S1x1x128 .i32) (s : Vec F S1x1x1024 .f32) : FVec F S128x128 .bf16 :=
  match nb with
  | ⟨0, _⟩ => Gen.k0_pay9 w z s
  | ⟨1, _⟩ => Gen.k0_pay13 (Gen.k0_pay10 s) (Gen.k0_pay11 w) (Gen.k0_pay12 z)
  | ⟨2, _⟩ => Gen.k0_pay14 (Gen.k0_pay6 w) (Gen.k0_pay7 z) (Gen.k0_pay8 s)
  | ⟨3, _⟩ => Gen.k0_pay16 (Gen.k0_pay15 (Gen.k0_pay6 w) (Gen.k0_pay7 z) (Gen.k0_pay8 s))
  | ⟨4, _⟩ => Gen.k0_pay17 (Gen.k0_pay6 w) (Gen.k0_pay7 z) (Gen.k0_pay8 s)
  | ⟨5, _⟩ => Gen.k0_pay18 (Gen.k0_pay6 w) (Gen.k0_pay7 z) (Gen.k0_pay8 s)
  | ⟨6, _⟩ => Gen.k0_pay2 (Gen.k0_pay7 z) (Gen.k0_pay8 s) (Gen.k0_pay19 (Gen.k0_pay6 w))
  | ⟨7, _⟩ => Gen.k0_pay3 (Gen.k0_pay6 w) (Gen.k0_pay7 z) (Gen.k0_pay8 s)
  | ⟨n + 8, h⟩ => absurd h (by omega)

/-- Group `k`'s 128 rows of a K tile's packed weights, -/
abbrev rowsW (X : S1024x128.Idx → Elt F .i32) (k : Fin k0_t1_loop.trips) : Vec F S128x128 .i32 :=
  View.ld X (Rect.unit (s := S1024x128) (k0_off1 k) S128x128.size (k0_off1_inb k))
/-- its row of packed zeros, -/
abbrev rowZ (X : S8x1x128.Idx → Elt F .i32) (k : Fin k0_t1_loop.trips) : Vec F S1x1x128 .i32 :=
  View.ld X (Rect.unit (s := S8x1x128) (k0_off2 k) S1x1x128.size (k0_off2_inb k))
/-- and its row of scales. -/
abbrev rowS (X : S8x1x1024.Idx → Elt F .f32) (k : Fin k0_t1_loop.trips) : Vec F S1x1x1024 .f32 :=
  View.ld X (Rect.unit (s := S8x1x1024) (k0_off3 k) S1x1x1024.size (k0_off3_inb k))

/-- Trip `k`'s eight blocks (last first): field `nb` of group `k` at rows `128·k`, columns `128·nb`. -/
theorem tripW_pieces (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    (tripW (F := F) 𝒱 c bd i arg3 harg3 arg4 harg4 arg5 harg5 arg6 harg6 arg7 harg7 arg8 harg8 arg9 harg9 arg10 harg10 X_arg4 X_arg5 X_arg6 k).1 =
      [⟨Rect.unit (s := S1024x1024) (k0_off11 k) S128x128.size (k0_off11_inb k), fieldBlock 7 (rowsW (arg4.view.read (Elt F) X_arg4) k) (rowZ (arg5.view.read (Elt F) X_arg5) k) (rowS (arg6.view.read (Elt F) X_arg6) k)⟩,
       ⟨Rect.unit (s := S1024x1024) (k0_off10 k) S128x128.size (k0_off10_inb k), fieldBlock 6 (rowsW (arg4.view.read (Elt F) X_arg4) k) (rowZ (arg5.view.read (Elt F) X_arg5) k) (rowS (arg6.view.read (Elt F) X_arg6) k)⟩,
       ⟨Rect.unit (s := S1024x1024) (k0_off9 k) S128x128.size (k0_off9_inb k), fieldBlock 5 (rowsW (arg4.view.read (Elt F) X_arg4) k) (rowZ (arg5.view.read (Elt F) X_arg5) k) (rowS (arg6.view.read (Elt F) X_arg6) k)⟩,
       ⟨Rect.unit (s := S1024x1024) (k0_off8 k) S128x128.size (k0_off8_inb k), fieldBlock 4 (rowsW (arg4.view.read (Elt F) X_arg4) k) (rowZ (arg5.view.read (Elt F) X_arg5) k) (rowS (arg6.view.read (Elt F) X_arg6) k)⟩,
       ⟨Rect.unit (s := S1024x1024) (k0_off7 k) S128x128.size (k0_off7_inb k), fieldBlock 3 (rowsW (arg4.view.read (Elt F) X_arg4) k) (rowZ (arg5.view.read (Elt F) X_arg5) k) (rowS (arg6.view.read (Elt F) X_arg6) k)⟩,
       ⟨Rect.unit (s := S1024x1024) (k0_off6 k) S128x128.size (k0_off6_inb k), fieldBlock 2 (rowsW (arg4.view.read (Elt F) X_arg4) k) (rowZ (arg5.view.read (Elt F) X_arg5) k) (rowS (arg6.view.read (Elt F) X_arg6) k)⟩,
       ⟨Rect.unit (s := S1024x1024) (k0_off5 k) S128x128.size (k0_off5_inb k), fieldBlock 1 (rowsW (arg4.view.read (Elt F) X_arg4) k) (rowZ (arg5.view.read (Elt F) X_arg5) k) (rowS (arg6.view.read (Elt F) X_arg6) k)⟩,
       ⟨Rect.unit (s := S1024x1024) (k0_off4 k) S128x128.size (k0_off4_inb k), fieldBlock 0 (rowsW (arg4.view.read (Elt F) X_arg4) k) (rowZ (arg5.view.read (Elt F) X_arg5) k) (rowS (arg6.view.read (Elt F) X_arg6) k)⟩] := by
  unfold tripW
  dsimp only
  sl_unfold_run_names
  rfl

end Cert.Kernel.Hand
end
-- ==== Proof.KTile.lean ====
import proofs.«415671_j19009525252581_4_alg».proof.Proof.KTrip
import Idealize.ShloMosaic.Lib.ValueIdx
import Idealize.ShloMosaic.Lib.Pipeline.Value

set_option maxRecDepth 16384

/-
  The dequantised weight tile the loop leaves in the scratch, as ONE function of the K tile's packed weights, zeros
  and scales: entry (r, col) is entry (r mod 128, col mod 128) of field block col / 128 of group r / 128. The eight
  trips' sixty-four blocks tile the 1024 × 1024 scratch, each block is that function on its rectangle, so a load of
  the whole scratch after the loop reads the function, whatever the scratch held before the loop.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Kernel Cert.Kernel.Gen Idealize.ShloMosaic.ValueIdx

/-- The loop runs eight trips. -/
theorem trips_eq : k0_t1_loop.trips = 8 := by decide

/-- The group (trip) a scratch row belongs to. -/
def groupOfRow (y : S1024x1024.Idx) : Fin k0_t1_loop.trips :=
  ⟨(y 0).val / 128, by rw [trips_eq]; have := idx2_lt0 y; omega⟩

/-- The weight tile: entry `y = (r, col)` is field block `col / 128` of group `r / 128` at `(r % 128, col % 128)`. -/
def Wof (x1 : Vec F S1024x128 .i32) (x2 : Vec F S8x1x128 .i32) (x3 : Vec F S8x1x1024 .f32) : Vec F S1024x1024 .bf16 := fun y =>
  fieldBlock ⟨(y 1).val / 128, by have := idx2_lt1 y; omega⟩ (rowsW x1 (groupOfRow y)) (rowZ x2 (groupOfRow y)) (rowS x3 (groupOfRow y))
    (ix2 ⟨(y 0).val % 128, Nat.mod_lt _ (by decide)⟩ ⟨(y 1).val % 128, Nat.mod_lt _ (by decide)⟩)

/-- A block's payload is the weight tile on the block's rectangle: its local index `x` lands on row `128·k + x₀`,
    column `128·nb + x₁`, whose quotients by 128 are `k` and `nb` and whose remainders are `x₀` and `x₁`. -/
theorem block_ok (x1 : Vec F S1024x128 .i32) (x2 : Vec F S8x1x128 .i32) (x3 : Vec F S8x1x1024 .f32)
    (k : Fin k0_t1_loop.trips) (nb : Fin 8) (off : Fin 2 → ℕ) (inb : ∀ a, off a + S128x128.size a ≤ S1024x1024.size a)
    (hoff : off = ![128 * k.val, 128 * nb.val]) (x : S128x128.Idx) :
    fieldBlock nb (rowsW x1 k) (rowZ x2 k) (rowS x3 k) x
      = Wof x1 x2 x3 ((Rect.unit (s := S1024x1024) off S128x128.size inb).emb x) := by
  subst hoff
  have hx0 := idx2_lt0 x
  have hx1 := idx2_lt1 x
  have h0 : (((Rect.unit (s := S1024x1024) ![128 * k.val, 128 * nb.val] S128x128.size inb).emb x) 0).val = 128 * k.val + (x 0).val := by
    rw [Rect.emb_apply]; simp
  have h1 : (((Rect.unit (s := S1024x1024) ![128 * k.val, 128 * nb.val] S128x128.size inb).emb x) 1).val = 128 * nb.val + (x 1).val := by
    rw [Rect.emb_apply]; simp
  generalize (Rect.unit (s := S1024x1024) ![128 * k.val, 128 * nb.val] S128x128.size inb).emb x = y at h0 h1
  have hg : groupOfRow y = k := Fin.ext (by show (y 0).val / 128 = k.val; omega)
  have hnb : (⟨(y 1).val / 128, by have := idx2_lt1 y; omega⟩ : Fin 8) = nb := Fin.ext (by show (y 1).val / 128 = nb.val; omega)
  have hix : ix2 (⟨(y 0).val % 128, Nat.mod_lt _ (by decide)⟩ : Fin 128) (⟨(y 1).val % 128, Nat.mod_lt _ (by decide)⟩ : Fin 128) = x := by
    rw [eq_ix2 x]
    congr 1 <;> (apply Fin.ext; simp only [ix2]; omega)
  unfold Wof
  rw [hg, hnb, hix]

/-- An index of row group `k` and column block `nb` lies in that block's rectangle. -/
theorem mem_block (k nb : ℕ) (off : Fin 2 → ℕ) (inb : ∀ a, off a + S128x128.size a ≤ S1024x1024.size a)
    (hoff : off = ![128 * k, 128 * nb]) (y : S1024x1024.Idx) (h0 : (y 0).val / 128 = k) (h1 : (y 1).val / 128 = nb) :
    y ∈ (Rect.unit (s := S1024x1024) off S128x128.size inb).set := by
  subst hoff
  rw [Rect.mem_set_unit]
  refine Fin.forall_fin_two.mpr ⟨?_, ?_⟩
  · show 128 * k ≤ (y 0).val ∧ (y 0).val < 128 * k + 128
    omega
  · show 128 * nb ≤ (y 1).val ∧ (y 1).val < 128 * nb + 128
    omega

/-- Every block of trip `k` is the weight tile on its rectangle. -/
theorem trip_ok (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (k : Fin k0_t1_loop.trips) :
    ∀ p ∈ (tripW (F := F) 𝒱 c bd i arg3 harg3 arg4 harg4 arg5 harg5 arg6 harg6 arg7 harg7 arg8 harg8 arg9 harg9 arg10 harg10 (harg4.unread x1) (harg5.unread x2) (harg6.unread x3) k).1,
      ∀ x : p.1.shape.Idx, p.2 x = Wof x1 x2 x3 (p.1.emb x) := by
  rw [tripW_pieces, harg4.read_unread, harg5.read_unread, harg6.read_unread]
  intro p hp
  simp only [List.mem_cons, List.mem_nil_iff, or_false] at hp
  rcases hp with rfl | rfl | rfl | rfl | rfl | rfl | rfl | rfl
  · exact block_ok x1 x2 x3 k 7 _ (k0_off11_inb k) (by rw [k0_off11_eq]; rfl)
  · exact block_ok x1 x2 x3 k 6 _ (k0_off10_inb k) (by rw [k0_off10_eq]; rfl)
  · exact block_ok x1 x2 x3 k 5 _ (k0_off9_inb k) (by rw [k0_off9_eq]; rfl)
  · exact block_ok x1 x2 x3 k 4 _ (k0_off8_inb k) (by rw [k0_off8_eq]; rfl)
  · exact block_ok x1 x2 x3 k 3 _ (k0_off7_inb k) (by rw [k0_off7_eq]; rfl)
  · exact block_ok x1 x2 x3 k 2 _ (k0_off6_inb k) (by rw [k0_off6_eq]; rfl)
  · exact block_ok x1 x2 x3 k 1 _ (k0_off5_inb k) (by rw [k0_off5_eq]; rfl)
  · exact block_ok x1 x2 x3 k 0 _ (k0_off4_inb k) (by rw [k0_off4_eq]; rfl)

/-- Every index of row group `k` lies in one of trip `k`'s blocks: the one of its column block. -/
theorem trip_cover (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (k : Fin k0_t1_loop.trips) (y : S1024x1024.Idx) (hy : (y 0).val / 128 = k.val) :
    ∃ p ∈ (tripW (F := F) 𝒱 c bd i arg3 harg3 arg4 harg4 arg5 harg5 arg6 harg6 arg7 harg7 arg8 harg8 arg9 harg9 arg10 harg10 (harg4.unread x1) (harg5.unread x2) (harg6.unread x3) k).1, y ∈ p.1.set := by
  rw [tripW_pieces]
  have h1 := idx2_lt1 y
  have hc : (y 1).val / 128 = 7 ∨ (y 1).val / 128 = 6 ∨ (y 1).val / 128 = 5 ∨ (y 1).val / 128 = 4 ∨ (y 1).val / 128 = 3
      ∨ (y 1).val / 128 = 2 ∨ (y 1).val / 128 = 1 ∨ (y 1).val / 128 = 0 := by omega
  rcases hc with hc | hc | hc | hc | hc | hc | hc | hc
  · exact ⟨_, List.mem_cons_self, mem_block k.val 7 _ (k0_off11_inb k) (k0_off11_eq k) y hy hc⟩
  · exact ⟨_, List.mem_cons_of_mem _ List.mem_cons_self, mem_block k.val 6 _ (k0_off10_inb k) (k0_off10_eq k) y hy hc⟩
  · exact ⟨_, List.mem_cons_of_mem _ (List.mem_cons_of_mem _ List.mem_cons_self), mem_block k.val 5 _ (k0_off9_inb k) (k0_off9_eq k) y hy hc⟩
  · exact ⟨_, List.mem_cons_of_mem _ (List.mem_cons_of_mem _ (List.mem_cons_of_mem _ List.mem_cons_self)), mem_block k.val 4 _ (k0_off8_inb k) (k0_off8_eq k) y hy hc⟩
  · exact ⟨_, List.mem_cons_of_mem _ (List.mem_cons_of_mem _ (List.mem_cons_of_mem _ (List.mem_cons_of_mem _ List.mem_cons_self))), mem_block k.val 3 _ (k0_off7_inb k) (k0_off7_eq k) y hy hc⟩
  · exact ⟨_, List.mem_cons_of_mem _ (List.mem_cons_of_mem _ (List.mem_cons_of_mem _ (List.mem_cons_of_mem _ (List.mem_cons_of_mem _ List.mem_cons_self)))), mem_block k.val 2 _ (k0_off6_inb k) (k0_off6_eq k) y hy hc⟩
  · exact ⟨_, List.mem_cons_of_mem _ (List.mem_cons_of_mem _ (List.mem_cons_of_mem _ (List.mem_cons_of_mem _ (List.mem_cons_of_mem _ (List.mem_cons_of_mem _ List.mem_cons_self))))), mem_block k.val 1 _ (k0_off5_inb k) (k0_off5_eq k) y hy hc⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_block k.val 0 _ (k0_off4_inb k) (k0_off4_eq k) y hy hc⟩

/-- The blocks of the first `n` trips are the weight tile on their rectangles, and cover the rows of the first `n` groups. -/
theorem pb_ok (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) :
    ∀ n : ℕ, n ≤ 8 →
      (∀ p ∈ pbW (F := F) 𝒱 c bd i arg3 harg3 arg4 harg4 arg5 harg5 arg6 harg6 arg7 harg7 arg8 harg8 arg9 harg9 arg10 harg10 (harg4.unread x1) (harg5.unread x2) (harg6.unread x3) n,
        ∀ x : p.1.shape.Idx, p.2 x = Wof x1 x2 x3 (p.1.emb x))
      ∧ ∀ y : S1024x1024.Idx, (y 0).val / 128 < n →
          ∃ p ∈ pbW (F := F) 𝒱 c bd i arg3 harg3 arg4 harg4 arg5 harg5 arg6 harg6 arg7 harg7 arg8 harg8 arg9 harg9 arg10 harg10 (harg4.unread x1) (harg5.unread x2) (harg6.unread x3) n, y ∈ p.1.set
  | 0, _ => ⟨fun p hp => absurd hp List.not_mem_nil, fun y hy => absurd hy (Nat.not_lt_zero _)⟩
  | n + 1, hn => by
    have h : n < k0_t1_loop.trips := by rw [trips_eq]; omega
    obtain ⟨ihG, ihC⟩ := pb_ok 𝒱 c bd i arg3 harg3 arg4 harg4 arg5 harg5 arg6 harg6 arg7 harg7 arg8 harg8 arg9 harg9 arg10 harg10 x1 x2 x3 n (by omega)
    rw [pbW.eq_2, dif_pos h]
    refine ⟨fun p hp => ?_, fun y hy => ?_⟩
    · rcases List.mem_append.mp hp with hp | hp
      · exact trip_ok 𝒱 c bd i arg3 harg3 arg4 harg4 arg5 harg5 arg6 harg6 arg7 harg7 arg8 harg8 arg9 harg9 arg10 harg10 x1 x2 x3 ⟨n, h⟩ p hp
      · exact ihG p hp
    · by_cases hy' : (y 0).val / 128 < n
      · obtain ⟨p, hp, hm⟩ := ihC y hy'
        exact ⟨p, List.mem_append_right _ hp, hm⟩
      · obtain ⟨p, hp, hm⟩ := trip_cover 𝒱 c bd i arg3 harg3 arg4 harg4 arg5 harg5 arg6 harg6 arg7 harg7 arg8 harg8 arg9 harg9 arg10 harg10 x1 x2 x3 ⟨n, h⟩ y (by show (y 0).val / 128 = n; omega)
        exact ⟨p, List.mem_append_left _ hp, hm⟩
/-- A load of the whole scratch after the loop reads the weight tile, whatever the scratch held at loop entry. -/
theorem loaded_tile (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (fs1 : BufTy.Contents (Elt F) arg10.view.ty) :
    View.readAt (Elt F) arg10.view (Rect.unit (s := S1024x1024) ![0, 0] S1024x1024.size inb_S1024x1024_S1024x1024_0_0).toLoadRect
        (arg10.view.writes (Elt F) fs1 (pbW (F := F) 𝒱 c bd i arg3 harg3 arg4 harg4 arg5 harg5 arg6 harg6 arg7 harg7 arg8 harg8 arg9 harg9 arg10 harg10 (harg4.unread x1) (harg5.unread x2) (harg6.unread x3) (Scf.trips k0_t1_loop.lb k0_t1_loop.ub k0_t1_loop.st)))
      = Wof x1 x2 x3 := by
  have ht : Scf.trips k0_t1_loop.lb k0_t1_loop.ub k0_t1_loop.st = 8 := trips_eq
  rw [ht, View.readAt_eq_ld,
    View.ld_unit_zero (by funext a; match a with | ⟨0, _⟩ => rfl | ⟨1, _⟩ => rfl) inb_S1024x1024_S1024x1024_0_0]
  funext y
  obtain ⟨hG, hC⟩ := pb_ok (F := F) 𝒱 c bd i arg3 harg3 arg4 harg4 arg5 harg5 arg6 harg6 arg7 harg7 arg8 harg8 arg9 harg9 arg10 harg10 x1 x2 x3 8 le_rfl
  exact View.read_writes_apply_of_pieces arg10.view fs1 (Wof x1 x2 x3) _ hG y (hC y (by have := idx2_lt0 y; omega))

end Cert.Kernel.Hand
end
-- ==== Proof.KBody.lean ====
import proofs.«415671_j19009525252581_4_alg».proof.Proof.KTile
import Idealize.ShloMosaic.Lib.Pipeline.Value

set_option maxRecDepth 16384

/-
  The kernel body run once per control case, with what it leaves stated as functions of what it finds. Every case
  dequantises the K tile's weights into the scratch (the loop), multiplies the activations' tile by it and adds the
  product into the accumulator. The first K step of a run zeroes the accumulator before; the last one also stores
  accumulator + bias into the output block.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Kernel Cert.Kernel.Gen

/-- One K step of the accumulator: `acc + x0 · W(x1, x2, x3)`. -/
def accStep (acc x0 : Vec F S512x1024 .f32) (x1 : Vec F S1024x128 .i32) (x2 : Vec F S8x1x128 .i32) (x3 : Vec F S8x1x1024 .f32) : Vec F S512x1024 .f32 :=
  k0_pay4 x0 acc (Wof x1 x2 x3)

/-- The first K step starts from the zero fill. -/
def accFirst (x0 : Vec F S512x1024 .f32) (x1 : Vec F S1024x128 .i32) (x2 : Vec F S8x1x128 .i32) (x3 : Vec F S8x1x1024 .f32) : Vec F S512x1024 .f32 :=
  accStep (k0_pay1 (F := F)) x0 x1 x2 x3

/-- The output block stored at the last K step: accumulator + bias row. -/
def outLast (acc : Vec F S512x1024 .f32) (x4 : Vec F S1x1024 .f32) : Vec F S512x1024 .f32 := k0_pay5 acc x4

theorem zero2 : (![0, 0] : Fin 2 → ℕ) = fun _ => 0 := by funext a; fin_cases a <;> rfl

set_option maxHeartbeats 4000000 in
/-- The first K step of a run (k = 0): the accumulator, found at anything, ends at `accFirst`; the output block is not touched. -/
theorem runA (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : cond0_0 i) (hc1 : ¬cond0_1 i)
    (x0 : Vec F S512x1024 .f32) (x1 : Vec F S1024x128 .i32) (x2 : Vec F S8x1x128 .i32) (x3 : Vec F S8x1x1024 .f32) (x4 : Vec F S1x1024 .f32)
    (xi5 : Vec F S512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (accFirst x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_run_names
      rw [loaded_tile, View.readCov_unit_zero _ zero2, View.readAt_eq_ld, harg3.read_unread, View.ld_unit_zero zero2,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

set_option maxHeartbeats 4000000 in
/-- A middle K step: the accumulator, found at `xs0`, ends at `accStep xs0 …`; the output block is not touched. -/
theorem runB (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : ¬cond0_0 i) (hc1 : ¬cond0_1 i)
    (x0 : Vec F S512x1024 .f32) (x1 : Vec F S1024x128 .i32) (x2 : Vec F S8x1x128 .i32) (x3 : Vec F S8x1x1024 .f32) (x4 : Vec F S1x1024 .f32) (xs0 : Vec F S512x1024 .f32)
    (xi5 : Vec F S512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (accStep xs0 x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

set_option maxHeartbeats 4000000 in
/-- The last K step: the accumulator, found at `xs0`, ends at `accStep xs0 …`, and the output block at that plus the bias row. -/
theorem runC (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : ¬cond0_0 i) (hc1 : cond0_1 i)
    (x0 : Vec F S512x1024 .f32) (x1 : Vec F S1024x128 .i32) (x2 : Vec F S8x1x128 .i32) (x3 : Vec F S8x1x1024 .f32) (x4 : Vec F S1x1024 .f32) (xs0 : Vec F S512x1024 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outLast (accStep xs0 x0 x1 x2 x3) x4) ∗ owns (c : Thread nD τ) arg9 fullShare (accStep xs0 x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.readCov_unit_zero _ zero2,
        View.readAt_eq_ld arg7.view, harg7.read_unread, View.ld_unit_zero (S := S1x1024) zero2 _ x4,
        View.read_writes_eq_canon _ _ _ (fun y => ⟨_, List.mem_cons_self, View.mem_set_unit_zero zero2 inb_S512x1024_S512x1024_0_0 y⟩),
        View.canon_cons_unit_zero zero2]
      rfl
    isplitl [HS0]
    · iexists _; isplitr; swap; · iexact HS0
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

end Cert.Kernel.Hand
end
-- ==== Proof.KFrame.lean ====
import proofs.«415671_j19009525252581_4_alg».proof.Proof.KBody
import Idealize.ShloMosaic.Lib.Pipeline.FrameBody
import Idealize.ShloMosaic.Lib.Pipeline.FrameSuffix

set_option maxRecDepth 16384

/-
  The frame of the program: what the accumulator holds after each grid point (a recursion on the point: a fresh
  start at every multiple of four, one more K step otherwise), the pipeline's proof data over it, the body's
  obligation point by point from the three case runs, the run of @main and the frame claim.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Kernel Cert.Kernel.Gen

variable (m : (ℓ : Loc nD τ sig) → Buf (Elt F) ℓ) (ρ : Dev nD → PrngReg)

/-! ## What the accumulator and the output block hold after each point -/

/-- The accumulator after the body at position `n`: the grid's last axis is the K axis (4 steps), so position `n` is K
    step `n % 4` of output block `n / 4`; step 0 starts afresh, every other step adds to what the point before left. -/
def accAt (c : Dev nD) : (n : ℕ) → n < cfg0.N → Vec F S512x1024 .f32
  | 0, hn => accFirst (iblk m c 0 ⟨0, hn⟩) (iblk m c 1 ⟨0, hn⟩) (iblk m c 2 ⟨0, hn⟩) (iblk m c 3 ⟨0, hn⟩)
  | n + 1, hn =>
    if (n + 1) % 4 = 0 then accFirst (iblk m c 0 ⟨n + 1, hn⟩) (iblk m c 1 ⟨n + 1, hn⟩) (iblk m c 2 ⟨n + 1, hn⟩) (iblk m c 3 ⟨n + 1, hn⟩)
    else accStep (accAt c n (Nat.lt_of_succ_lt hn)) (iblk m c 0 ⟨n + 1, hn⟩) (iblk m c 1 ⟨n + 1, hn⟩) (iblk m c 2 ⟨n + 1, hn⟩) (iblk m c 3 ⟨n + 1, hn⟩)

theorem accAt_first (c : Dev nD) (t : Fin cfg0.N) (h0 : t.val % 4 = 0) :
    accAt m c t.val t.isLt = accFirst (iblk m c 0 t) (iblk m c 1 t) (iblk m c 2 t) (iblk m c 3 t) := by
  obtain ⟨n, hn⟩ := t
  cases n with
  | zero => rfl
  | succ n => exact if_pos h0

theorem accAt_step (c : Dev nD) (t : Fin cfg0.N) (h0 : ¬t.val % 4 = 0) :
    accAt m c t.val t.isLt = accStep (accAt m c (t.val - 1) (Nat.lt_of_le_of_lt (Nat.sub_le _ _) t.isLt)) (iblk m c 0 t) (iblk m c 1 t) (iblk m c 2 t) (iblk m c 3 t) := by
  obtain ⟨n, hn⟩ := t
  cases n with
  | zero => exact absurd (Nat.zero_mod _) h0
  | succ n => exact if_neg h0

/-- What the output's staging buffer holds after position `n` when the body stores into it (the last K step):
    accumulator + bias row. At the other positions the window is idle and this value is never consulted. -/
def out5At (c : Dev nD) (n : ℕ) (hn : n < cfg0.N) : Vec F S512x1024 .f32 :=
  outLast (accAt m c n hn) (iblk m c 4 ⟨n, hn⟩)

/-! ## The region invariant: the accumulator carried between points -/

def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5At m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5At m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the closed forms of the two conditions say which case the point is in; that case's run applies,
    taking the accumulator at what the point before left (at anything at the very first point) and giving it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [accAt_first m c t h0]
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      unfold out5At
      rw [accAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [accAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 176 := N_0; omega)

/-! ## The run and the frame -/

set_option backward.isDefEq.respectTransparency.types false in
/-- Every weakly fair execution of @main terminates, every array of the pipeline at what the write-backs leave and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand
end
-- ==== Proof.KITrip.lean ====
import proofs.«415671_j19009525252581_4_alg».proof.Proof.Gen.KernelIdeal.Frame.Runs

set_option maxRecDepth 16384

/-
  The body's loop over the eight quantisation groups of a K tile, as an invariant the body's run goes through once:
  what one trip stores (eight 128 × 128 blocks of the weight scratch, one per 4-bit field), the blocks of the trips
  before a given one, and the list of a trip's blocks written out. A trip's blocks do not depend on what the scratch
  held when the trip began: the trip stores, it never uses what it loads back.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal Cert.KernelIdeal.Gen

/-! ## The loop over the eight quantisation groups of a K tile

Trip `k` dequantises rows `128·k … 128·k + 127` of the weight tile: eight stores, one per 4-bit field, each a
128 × 128 block of the scratch at column offset `128·field`. What a trip stores does not depend on what the scratch held. -/

/-- One trip's resources: the packed weights, zeros and scales at their contents, the weight scratch at any. -/
abbrev TripRes (c : Dev nD) (arg4 : Memref sig .tc .vmem S1024x128 .i32) (arg5 : Memref sig .tc .vmem S8x1x128 .i32) (arg6 : Memref sig .tc .vmem S8x1x1024 .f32) (arg10 : Memref sig .tc .vmem S1024x1024 .bf16) (X_arg4 : BufTy.Contents (Elt F) arg4.view.ty) (X_arg5 : BufTy.Contents (Elt F) arg5.view.ty) (X_arg6 : BufTy.Contents (Elt F) arg6.view.ty) (f_arg10 : BufTy.Contents (Elt F) arg10.view.ty) : sProp 𝕄 :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} f_arg10))

/-- One trip at a symbolic `k`: the eight blocks it stores, found by running it. -/
@[irreducible] def tripW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    { L_arg10 : List (View.Piece (Elt F) S1024x1024 .bf16) // ∀ (E : Set ℕ) (f_arg10 : BufTy.Contents (Elt F) arg10.view.ty),
      TripRes (F := F) c arg4 arg5 arg6 arg10 X_arg4 X_arg5 X_arg6 f_arg10
      ⊢ wp frame (wpE (defs₀ (F := F)) 𝒱 (c : Thread nD τ) bd) E (Gen.k0_t1_body (F := F) i arg3 harg3 arg4 harg4 arg5 harg5 arg6 harg6 arg7 harg7 arg8 harg8 arg9 harg9 arg10 harg10 k PUnit.unit)
          (fun _ => TripRes (F := F) c arg4 arg5 arg6 arg10 X_arg4 X_arg5 X_arg6 (arg10.view.writes (Elt F) f_arg10 L_arg10)) } := by
  have hk : k.val < 8 := Nat.lt_of_lt_of_le k.isLt k0_t1_abs.2.1
  refine ⟨?_, fun E f_arg10 => ?run⟩
  case run =>
    unfold Gen.k0_t1_body
    iintro ⟨HR_arg4, HR_arg5, HR_arg6, HW_arg10⟩
    sl_exec
    sl_step
    sl_close

/-- The blocks of the trips before `k` (last first). -/
def pbW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) : ℕ → List (View.Piece (Elt F) S1024x1024 .bf16)
  | 0 => []
  | k + 1 => (if h : k < k0_t1_loop.trips then (tripW (F := F) 𝒱 c bd i arg3 harg3 arg4 harg4 arg5 harg5 arg6 harg6 arg7 harg7 arg8 harg8 arg9 harg9 arg10 harg10 X_arg4 X_arg5 X_arg6 ⟨k, h⟩).1 else []) ++ pbW 𝒱 c bd i arg3 harg3 arg4 harg4 arg5 harg5 arg6 harg6 arg7 harg7 arg8 harg8 arg9 harg9 arg10 harg10 X_arg4 X_arg5 X_arg6 k

theorem pbW_succ (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    pbW (F := F) 𝒱 c bd i arg3 harg3 arg4 harg4 arg5 harg5 arg6 harg6 arg7 harg7 arg8 harg8 arg9 harg9 arg10 harg10 X_arg4 X_arg5 X_arg6 (k.val + 1)
      = (tripW (F := F) 𝒱 c bd i arg3 harg3 arg4 harg4 arg5 harg5 arg6 harg6 arg7 harg7 arg8 harg8 arg9 harg9 arg10 harg10 X_arg4 X_arg5 X_arg6 k).1 ++ pbW (F := F) 𝒱 c bd i arg3 harg3 arg4 harg4 arg5 harg5 arg6 harg6 arg7 harg7 arg8 harg8 arg9 harg9 arg10 harg10 X_arg4 X_arg5 X_arg6 k.val := by
  rw [pbW.eq_2, dif_pos k.isLt]

/-- Before trip `k`: the inputs as they were, the scratch holding the earlier trips' blocks over its contents at loop entry. -/
abbrev invW (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (k : ℕ) (_u : PUnit) : sProp 𝕄 :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg10.view.loc (c : Thread nD τ) ↦[arg10.view.set]{fullShare} f) ∗ ⌜f = arg10.view.writes (Elt F) G_arg10 (pbW (F := F) 𝒱 c bd i arg3 harg3 arg4 harg4 arg5 harg5 arg6 harg6 arg7 harg7 arg8 harg8 arg9 harg9 arg10 harg10 X_arg4 X_arg5 X_arg6 k)⌝))

set_option warn.classDefReducibility false in
/-- The loop by its invariant. -/
@[sl_loop] def loopInvW (𝒱 : Variants) (c : Dev nD) (bd : Option 𝒱.V) (E : Set ℕ) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) :
    Gen.LoopInvTy_k0_t1 (F := F) Unit ℕ (UR sig nD τ) ℕ 𝒱 c bd E i arg3 harg3 arg4 harg4 arg5 harg5 arg6 harg6 arg7 harg7 arg8 harg8 arg9 harg9 arg10 harg10 where
  inv := invW (F := F) 𝒱 c bd i arg3 harg3 arg4 harg4 arg5 harg5 arg6 harg6 arg7 harg7 arg8 harg8 arg9 harg9 arg10 harg10 X_arg4 X_arg5 X_arg6 G_arg10
  step k acc := by
    iintro ⟨HR_arg4, HR_arg5, HR_arg6, ⟨%f_arg10, HW_arg10, %h_arg10⟩⟩
    iapply (wp_wand_r Idealize.ShloMosaic.frame (wpE (defs₀ (F := F)) 𝒱 (c : Thread nD τ) bd) E)
    isplitl [HR_arg4 HR_arg5 HR_arg6 HW_arg10]
    · iapply ((tripW (F := F) 𝒱 c bd i arg3 harg3 arg4 harg4 arg5 harg5 arg6 harg6 arg7 harg7 arg8 harg8 arg9 harg9 arg10 harg10 X_arg4 X_arg5 X_arg6 k).2 E f_arg10)
      isplitl [HR_arg4]; · iexact HR_arg4
      isplitl [HR_arg5]; · iexact HR_arg5
      isplitl [HR_arg6]; · iexact HR_arg6
      iexact HW_arg10
    · iintro %_ ⟨HR_arg4, HR_arg5, HR_arg6, HW_arg10⟩
      isplitl [HR_arg4]; · iexact HR_arg4
      isplitl [HR_arg5]; · iexact HR_arg5
      isplitl [HR_arg6]; · iexact HR_arg6
      rw [pbW_succ]
      iexists _; isplitl [HW_arg10]; · iexact HW_arg10
      ipureintro; rw [h_arg10, ← View.writes_append]

/-! ## What a trip stores, field by field -/

/-- Field block `nb` of one group's 128 rows, from the group's packed weight rows `w`, zero row `z` and scale row `s`:
    `(field nb of w − field nb of z) · s[128·nb …]`, as the body computes it. -/
def fieldBlock (nb : Fin 8) (w : Vec F S128x128 .i32) (z : Vec F S1x1x128 .i32) (s : Vec F S1x1x1024 .f32) : FVec F S128x128 .bf16 :=
  match nb with
  | ⟨0, _⟩ => Gen.k0_pay9 w z s
  | ⟨1, _⟩ => Gen.k0_pay13 (Gen.k0_pay10 s) (Gen.k0_pay11 w) (Gen.k0_pay12 z)
  | ⟨2, _⟩ => Gen.k0_pay14 (Gen.k0_pay6 w) (Gen.k0_pay7 z) (Gen.k0_pay8 s)
  | ⟨3, _⟩ => Gen.k0_pay16 (Gen.k0_pay15 (Gen.k0_pay6 w) (Gen.k0_pay7 z) (Gen.k0_pay8 s))
  | ⟨4, _⟩ => Gen.k0_pay17 (Gen.k0_pay6 w) (Gen.k0_pay7 z) (Gen.k0_pay8 s)
  | ⟨5, _⟩ => Gen.k0_pay18 (Gen.k0_pay6 w) (Gen.k0_pay7 z) (Gen.k0_pay8 s)
  | ⟨6, _⟩ => Gen.k0_pay2 (Gen.k0_pay7 z) (Gen.k0_pay8 s) (Gen.k0_pay19 (Gen.k0_pay6 w))
  | ⟨7, _⟩ => Gen.k0_pay3 (Gen.k0_pay6 w) (Gen.k0_pay7 z) (Gen.k0_pay8 s)
  | ⟨n + 8, h⟩ => absurd h (by omega)

/-- Group `k`'s 128 rows of a K tile's packed weights, -/
abbrev rowsW (X : S1024x128.Idx → Elt F .i32) (k : Fin k0_t1_loop.trips) : Vec F S128x128 .i32 :=
  View.ld X (Rect.unit (s := S1024x128) (k0_off1 k) S128x128.size (k0_off1_inb k))
/-- its row of packed zeros, -/
abbrev rowZ (X : S8x1x128.Idx → Elt F .i32) (k : Fin k0_t1_loop.trips) : Vec F S1x1x128 .i32 :=
  View.ld X (Rect.unit (s := S8x1x128) (k0_off2 k) S1x1x128.size (k0_off2_inb k))
/-- and its row of scales. -/
abbrev rowS (X : S8x1x1024.Idx → Elt F .f32) (k : Fin k0_t1_loop.trips) : Vec F S1x1x1024 .f32 :=
  View.ld X (Rect.unit (s := S8x1x1024) (k0_off3 k) S1x1x1024.size (k0_off3_inb k))

/-- Trip `k`'s eight blocks (last first): field `nb` of group `k` at rows `128·k`, columns `128·nb`. -/
theorem tripW_pieces (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (X_arg4 : BufTy.Contents (Elt F) arg4.view.ty) (X_arg5 : BufTy.Contents (Elt F) arg5.view.ty) (X_arg6 : BufTy.Contents (Elt F) arg6.view.ty) (k : Fin k0_t1_loop.trips) :
    (tripW (F := F) 𝒱 c bd i arg3 harg3 arg4 harg4 arg5 harg5 arg6 harg6 arg7 harg7 arg8 harg8 arg9 harg9 arg10 harg10 X_arg4 X_arg5 X_arg6 k).1 =
      [⟨Rect.unit (s := S1024x1024) (k0_off11 k) S128x128.size (k0_off11_inb k), fieldBlock 7 (rowsW (arg4.view.read (Elt F) X_arg4) k) (rowZ (arg5.view.read (Elt F) X_arg5) k) (rowS (arg6.view.read (Elt F) X_arg6) k)⟩,
       ⟨Rect.unit (s := S1024x1024) (k0_off10 k) S128x128.size (k0_off10_inb k), fieldBlock 6 (rowsW (arg4.view.read (Elt F) X_arg4) k) (rowZ (arg5.view.read (Elt F) X_arg5) k) (rowS (arg6.view.read (Elt F) X_arg6) k)⟩,
       ⟨Rect.unit (s := S1024x1024) (k0_off9 k) S128x128.size (k0_off9_inb k), fieldBlock 5 (rowsW (arg4.view.read (Elt F) X_arg4) k) (rowZ (arg5.view.read (Elt F) X_arg5) k) (rowS (arg6.view.read (Elt F) X_arg6) k)⟩,
       ⟨Rect.unit (s := S1024x1024) (k0_off8 k) S128x128.size (k0_off8_inb k), fieldBlock 4 (rowsW (arg4.view.read (Elt F) X_arg4) k) (rowZ (arg5.view.read (Elt F) X_arg5) k) (rowS (arg6.view.read (Elt F) X_arg6) k)⟩,
       ⟨Rect.unit (s := S1024x1024) (k0_off7 k) S128x128.size (k0_off7_inb k), fieldBlock 3 (rowsW (arg4.view.read (Elt F) X_arg4) k) (rowZ (arg5.view.read (Elt F) X_arg5) k) (rowS (arg6.view.read (Elt F) X_arg6) k)⟩,
       ⟨Rect.unit (s := S1024x1024) (k0_off6 k) S128x128.size (k0_off6_inb k), fieldBlock 2 (rowsW (arg4.view.read (Elt F) X_arg4) k) (rowZ (arg5.view.read (Elt F) X_arg5) k) (rowS (arg6.view.read (Elt F) X_arg6) k)⟩,
       ⟨Rect.unit (s := S1024x1024) (k0_off5 k) S128x128.size (k0_off5_inb k), fieldBlock 1 (rowsW (arg4.view.read (Elt F) X_arg4) k) (rowZ (arg5.view.read (Elt F) X_arg5) k) (rowS (arg6.view.read (Elt F) X_arg6) k)⟩,
       ⟨Rect.unit (s := S1024x1024) (k0_off4 k) S128x128.size (k0_off4_inb k), fieldBlock 0 (rowsW (arg4.view.read (Elt F) X_arg4) k) (rowZ (arg5.view.read (Elt F) X_arg5) k) (rowS (arg6.view.read (Elt F) X_arg6) k)⟩] := by
  unfold tripW
  dsimp only
  sl_unfold_run_names
  rfl

end Cert.KernelIdeal.Hand
end
-- ==== Proof.KITile.lean ====
import proofs.«415671_j19009525252581_4_alg».proof.Proof.KITrip
import Idealize.ShloMosaic.Lib.ValueIdx
import Idealize.ShloMosaic.Lib.Pipeline.Value

set_option maxRecDepth 16384

/-
  The dequantised weight tile the loop leaves in the scratch, as ONE function of the K tile's packed weights, zeros
  and scales: entry (r, col) is entry (r mod 128, col mod 128) of field block col / 128 of group r / 128. The eight
  trips' sixty-four blocks tile the 1024 × 1024 scratch, each block is that function on its rectangle, so a load of
  the whole scratch after the loop reads the function, whatever the scratch held before the loop.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal Cert.KernelIdeal.Gen Idealize.ShloMosaic.ValueIdx

/-- The loop runs eight trips. -/
theorem trips_eq : k0_t1_loop.trips = 8 := by decide

/-- The group (trip) a scratch row belongs to. -/
def groupOfRow (y : S1024x1024.Idx) : Fin k0_t1_loop.trips :=
  ⟨(y 0).val / 128, by rw [trips_eq]; have := idx2_lt0 y; omega⟩

/-- The weight tile: entry `y = (r, col)` is field block `col / 128` of group `r / 128` at `(r % 128, col % 128)`. -/
def Wof (x1 : Vec F S1024x128 .i32) (x2 : Vec F S8x1x128 .i32) (x3 : Vec F S8x1x1024 .f32) : Vec F S1024x1024 .bf16 := fun y =>
  fieldBlock ⟨(y 1).val / 128, by have := idx2_lt1 y; omega⟩ (rowsW x1 (groupOfRow y)) (rowZ x2 (groupOfRow y)) (rowS x3 (groupOfRow y))
    (ix2 ⟨(y 0).val % 128, Nat.mod_lt _ (by decide)⟩ ⟨(y 1).val % 128, Nat.mod_lt _ (by decide)⟩)

/-- A block's payload is the weight tile on the block's rectangle: its local index `x` lands on row `128·k + x₀`,
    column `128·nb + x₁`, whose quotients by 128 are `k` and `nb` and whose remainders are `x₀` and `x₁`. -/
theorem block_ok (x1 : Vec F S1024x128 .i32) (x2 : Vec F S8x1x128 .i32) (x3 : Vec F S8x1x1024 .f32)
    (k : Fin k0_t1_loop.trips) (nb : Fin 8) (off : Fin 2 → ℕ) (inb : ∀ a, off a + S128x128.size a ≤ S1024x1024.size a)
    (hoff : off = ![128 * k.val, 128 * nb.val]) (x : S128x128.Idx) :
    fieldBlock nb (rowsW x1 k) (rowZ x2 k) (rowS x3 k) x
      = Wof x1 x2 x3 ((Rect.unit (s := S1024x1024) off S128x128.size inb).emb x) := by
  subst hoff
  have hx0 := idx2_lt0 x
  have hx1 := idx2_lt1 x
  have h0 : (((Rect.unit (s := S1024x1024) ![128 * k.val, 128 * nb.val] S128x128.size inb).emb x) 0).val = 128 * k.val + (x 0).val := by
    rw [Rect.emb_apply]; simp
  have h1 : (((Rect.unit (s := S1024x1024) ![128 * k.val, 128 * nb.val] S128x128.size inb).emb x) 1).val = 128 * nb.val + (x 1).val := by
    rw [Rect.emb_apply]; simp
  generalize (Rect.unit (s := S1024x1024) ![128 * k.val, 128 * nb.val] S128x128.size inb).emb x = y at h0 h1
  have hg : groupOfRow y = k := Fin.ext (by show (y 0).val / 128 = k.val; omega)
  have hnb : (⟨(y 1).val / 128, by have := idx2_lt1 y; omega⟩ : Fin 8) = nb := Fin.ext (by show (y 1).val / 128 = nb.val; omega)
  have hix : ix2 (⟨(y 0).val % 128, Nat.mod_lt _ (by decide)⟩ : Fin 128) (⟨(y 1).val % 128, Nat.mod_lt _ (by decide)⟩ : Fin 128) = x := by
    rw [eq_ix2 x]
    congr 1 <;> (apply Fin.ext; simp only [ix2]; omega)
  unfold Wof
  rw [hg, hnb, hix]

/-- An index of row group `k` and column block `nb` lies in that block's rectangle. -/
theorem mem_block (k nb : ℕ) (off : Fin 2 → ℕ) (inb : ∀ a, off a + S128x128.size a ≤ S1024x1024.size a)
    (hoff : off = ![128 * k, 128 * nb]) (y : S1024x1024.Idx) (h0 : (y 0).val / 128 = k) (h1 : (y 1).val / 128 = nb) :
    y ∈ (Rect.unit (s := S1024x1024) off S128x128.size inb).set := by
  subst hoff
  rw [Rect.mem_set_unit]
  refine Fin.forall_fin_two.mpr ⟨?_, ?_⟩
  · show 128 * k ≤ (y 0).val ∧ (y 0).val < 128 * k + 128
    omega
  · show 128 * nb ≤ (y 1).val ∧ (y 1).val < 128 * nb + 128
    omega

/-- Every block of trip `k` is the weight tile on its rectangle. -/
theorem trip_ok (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (k : Fin k0_t1_loop.trips) :
    ∀ p ∈ (tripW (F := F) 𝒱 c bd i arg3 harg3 arg4 harg4 arg5 harg5 arg6 harg6 arg7 harg7 arg8 harg8 arg9 harg9 arg10 harg10 (harg4.unread x1) (harg5.unread x2) (harg6.unread x3) k).1,
      ∀ x : p.1.shape.Idx, p.2 x = Wof x1 x2 x3 (p.1.emb x) := by
  rw [tripW_pieces, harg4.read_unread, harg5.read_unread, harg6.read_unread]
  intro p hp
  simp only [List.mem_cons, List.mem_nil_iff, or_false] at hp
  rcases hp with rfl | rfl | rfl | rfl | rfl | rfl | rfl | rfl
  · exact block_ok x1 x2 x3 k 7 _ (k0_off11_inb k) (by rw [k0_off11_eq]; rfl)
  · exact block_ok x1 x2 x3 k 6 _ (k0_off10_inb k) (by rw [k0_off10_eq]; rfl)
  · exact block_ok x1 x2 x3 k 5 _ (k0_off9_inb k) (by rw [k0_off9_eq]; rfl)
  · exact block_ok x1 x2 x3 k 4 _ (k0_off8_inb k) (by rw [k0_off8_eq]; rfl)
  · exact block_ok x1 x2 x3 k 3 _ (k0_off7_inb k) (by rw [k0_off7_eq]; rfl)
  · exact block_ok x1 x2 x3 k 2 _ (k0_off6_inb k) (by rw [k0_off6_eq]; rfl)
  · exact block_ok x1 x2 x3 k 1 _ (k0_off5_inb k) (by rw [k0_off5_eq]; rfl)
  · exact block_ok x1 x2 x3 k 0 _ (k0_off4_inb k) (by rw [k0_off4_eq]; rfl)

/-- Every index of row group `k` lies in one of trip `k`'s blocks: the one of its column block. -/
theorem trip_cover (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (k : Fin k0_t1_loop.trips) (y : S1024x1024.Idx) (hy : (y 0).val / 128 = k.val) :
    ∃ p ∈ (tripW (F := F) 𝒱 c bd i arg3 harg3 arg4 harg4 arg5 harg5 arg6 harg6 arg7 harg7 arg8 harg8 arg9 harg9 arg10 harg10 (harg4.unread x1) (harg5.unread x2) (harg6.unread x3) k).1, y ∈ p.1.set := by
  rw [tripW_pieces]
  have h1 := idx2_lt1 y
  have hc : (y 1).val / 128 = 7 ∨ (y 1).val / 128 = 6 ∨ (y 1).val / 128 = 5 ∨ (y 1).val / 128 = 4 ∨ (y 1).val / 128 = 3
      ∨ (y 1).val / 128 = 2 ∨ (y 1).val / 128 = 1 ∨ (y 1).val / 128 = 0 := by omega
  rcases hc with hc | hc | hc | hc | hc | hc | hc | hc
  · exact ⟨_, List.mem_cons_self, mem_block k.val 7 _ (k0_off11_inb k) (k0_off11_eq k) y hy hc⟩
  · exact ⟨_, List.mem_cons_of_mem _ List.mem_cons_self, mem_block k.val 6 _ (k0_off10_inb k) (k0_off10_eq k) y hy hc⟩
  · exact ⟨_, List.mem_cons_of_mem _ (List.mem_cons_of_mem _ List.mem_cons_self), mem_block k.val 5 _ (k0_off9_inb k) (k0_off9_eq k) y hy hc⟩
  · exact ⟨_, List.mem_cons_of_mem _ (List.mem_cons_of_mem _ (List.mem_cons_of_mem _ List.mem_cons_self)), mem_block k.val 4 _ (k0_off8_inb k) (k0_off8_eq k) y hy hc⟩
  · exact ⟨_, List.mem_cons_of_mem _ (List.mem_cons_of_mem _ (List.mem_cons_of_mem _ (List.mem_cons_of_mem _ List.mem_cons_self))), mem_block k.val 3 _ (k0_off7_inb k) (k0_off7_eq k) y hy hc⟩
  · exact ⟨_, List.mem_cons_of_mem _ (List.mem_cons_of_mem _ (List.mem_cons_of_mem _ (List.mem_cons_of_mem _ (List.mem_cons_of_mem _ List.mem_cons_self)))), mem_block k.val 2 _ (k0_off6_inb k) (k0_off6_eq k) y hy hc⟩
  · exact ⟨_, List.mem_cons_of_mem _ (List.mem_cons_of_mem _ (List.mem_cons_of_mem _ (List.mem_cons_of_mem _ (List.mem_cons_of_mem _ (List.mem_cons_of_mem _ List.mem_cons_self))))), mem_block k.val 1 _ (k0_off5_inb k) (k0_off5_eq k) y hy hc⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_block k.val 0 _ (k0_off4_inb k) (k0_off4_eq k) y hy hc⟩

/-- The blocks of the first `n` trips are the weight tile on their rectangles, and cover the rows of the first `n` groups. -/
theorem pb_ok (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) :
    ∀ n : ℕ, n ≤ 8 →
      (∀ p ∈ pbW (F := F) 𝒱 c bd i arg3 harg3 arg4 harg4 arg5 harg5 arg6 harg6 arg7 harg7 arg8 harg8 arg9 harg9 arg10 harg10 (harg4.unread x1) (harg5.unread x2) (harg6.unread x3) n,
        ∀ x : p.1.shape.Idx, p.2 x = Wof x1 x2 x3 (p.1.emb x))
      ∧ ∀ y : S1024x1024.Idx, (y 0).val / 128 < n →
          ∃ p ∈ pbW (F := F) 𝒱 c bd i arg3 harg3 arg4 harg4 arg5 harg5 arg6 harg6 arg7 harg7 arg8 harg8 arg9 harg9 arg10 harg10 (harg4.unread x1) (harg5.unread x2) (harg6.unread x3) n, y ∈ p.1.set
  | 0, _ => ⟨fun p hp => absurd hp List.not_mem_nil, fun y hy => absurd hy (Nat.not_lt_zero _)⟩
  | n + 1, hn => by
    have h : n < k0_t1_loop.trips := by rw [trips_eq]; omega
    obtain ⟨ihG, ihC⟩ := pb_ok 𝒱 c bd i arg3 harg3 arg4 harg4 arg5 harg5 arg6 harg6 arg7 harg7 arg8 harg8 arg9 harg9 arg10 harg10 x1 x2 x3 n (by omega)
    rw [pbW.eq_2, dif_pos h]
    refine ⟨fun p hp => ?_, fun y hy => ?_⟩
    · rcases List.mem_append.mp hp with hp | hp
      · exact trip_ok 𝒱 c bd i arg3 harg3 arg4 harg4 arg5 harg5 arg6 harg6 arg7 harg7 arg8 harg8 arg9 harg9 arg10 harg10 x1 x2 x3 ⟨n, h⟩ p hp
      · exact ihG p hp
    · by_cases hy' : (y 0).val / 128 < n
      · obtain ⟨p, hp, hm⟩ := ihC y hy'
        exact ⟨p, List.mem_append_right _ hp, hm⟩
      · obtain ⟨p, hp, hm⟩ := trip_cover 𝒱 c bd i arg3 harg3 arg4 harg4 arg5 harg5 arg6 harg6 arg7 harg7 arg8 harg8 arg9 harg9 arg10 harg10 x1 x2 x3 ⟨n, h⟩ y (by show (y 0).val / 128 = n; omega)
        exact ⟨p, List.mem_append_left _ hp, hm⟩
/-- A load of the whole scratch after the loop reads the weight tile, whatever the scratch held at loop entry. -/
theorem loaded_tile (𝒱 : Variants) (c : Dev nD) (bd : Option 𝒱.V) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole)
    (x1 : Vec F S1024x128 .i32) (x2 : Vec F S8x1x128 .i32) (x3 : Vec F S8x1x1024 .f32) (fs1 : BufTy.Contents (Elt F) arg10.view.ty) :
    View.readAt (Elt F) arg10.view (Rect.unit (s := S1024x1024) ![0, 0] S1024x1024.size inb_S1024x1024_S1024x1024_0_0).toLoadRect
        (arg10.view.writes (Elt F) fs1 (pbW (F := F) 𝒱 c bd i arg3 harg3 arg4 harg4 arg5 harg5 arg6 harg6 arg7 harg7 arg8 harg8 arg9 harg9 arg10 harg10 (harg4.unread x1) (harg5.unread x2) (harg6.unread x3) (Scf.trips k0_t1_loop.lb k0_t1_loop.ub k0_t1_loop.st)))
      = Wof x1 x2 x3 := by
  have ht : Scf.trips k0_t1_loop.lb k0_t1_loop.ub k0_t1_loop.st = 8 := trips_eq
  rw [ht, View.readAt_eq_ld,
    View.ld_unit_zero (by funext a; match a with | ⟨0, _⟩ => rfl | ⟨1, _⟩ => rfl) inb_S1024x1024_S1024x1024_0_0]
  funext y
  obtain ⟨hG, hC⟩ := pb_ok (F := F) 𝒱 c bd i arg3 harg3 arg4 harg4 arg5 harg5 arg6 harg6 arg7 harg7 arg8 harg8 arg9 harg9 arg10 harg10 x1 x2 x3 8 le_rfl
  exact View.read_writes_apply_of_pieces arg10.view fs1 (Wof x1 x2 x3) _ hG y (hC y (by have := idx2_lt0 y; omega))

end Cert.KernelIdeal.Hand
end
-- ==== Proof.KIBody.lean ====
import proofs.«415671_j19009525252581_4_alg».proof.Proof.KITile
import Idealize.ShloMosaic.Lib.Pipeline.Value

set_option maxRecDepth 16384

/-
  The kernel body run once per control case, with what it leaves stated as functions of what it finds. Every case
  dequantises the K tile's weights into the scratch (the loop), multiplies the activations' tile by it and adds the
  product into the accumulator. The first K step of a run zeroes the accumulator before; the last one also stores
  accumulator + bias into the output block.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal Cert.KernelIdeal.Gen

/-- One K step of the accumulator: `acc + x0 · W(x1, x2, x3)`. -/
def accStep (acc x0 : Vec F S512x1024 .f32) (x1 : Vec F S1024x128 .i32) (x2 : Vec F S8x1x128 .i32) (x3 : Vec F S8x1x1024 .f32) : Vec F S512x1024 .f32 :=
  k0_pay4 x0 acc (Wof x1 x2 x3)

/-- The first K step starts from the zero fill. -/
def accFirst (x0 : Vec F S512x1024 .f32) (x1 : Vec F S1024x128 .i32) (x2 : Vec F S8x1x128 .i32) (x3 : Vec F S8x1x1024 .f32) : Vec F S512x1024 .f32 :=
  accStep (k0_pay1 (F := F)) x0 x1 x2 x3

/-- The output block stored at the last K step: accumulator + bias row. -/
def outLast (acc : Vec F S512x1024 .f32) (x4 : Vec F S1x1024 .f32) : Vec F S512x1024 .f32 := k0_pay5 acc x4

theorem zero2 : (![0, 0] : Fin 2 → ℕ) = fun _ => 0 := by funext a; fin_cases a <;> rfl

set_option maxHeartbeats 4000000 in
/-- The first K step of a run (k = 0): the accumulator, found at anything, ends at `accFirst`; the output block is not touched. -/
theorem runA (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : cond0_0 i) (hc1 : ¬cond0_1 i)
    (x0 : Vec F S512x1024 .f32) (x1 : Vec F S1024x128 .i32) (x2 : Vec F S8x1x128 .i32) (x3 : Vec F S8x1x1024 .f32) (x4 : Vec F S1x1024 .f32)
    (xi5 : Vec F S512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (accFirst x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_run_names
      rw [loaded_tile, View.readCov_unit_zero _ zero2, View.readAt_eq_ld, harg3.read_unread, View.ld_unit_zero zero2,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

set_option maxHeartbeats 4000000 in
/-- A middle K step: the accumulator, found at `xs0`, ends at `accStep xs0 …`; the output block is not touched. -/
theorem runB (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : ¬cond0_0 i) (hc1 : ¬cond0_1 i)
    (x0 : Vec F S512x1024 .f32) (x1 : Vec F S1024x128 .i32) (x2 : Vec F S8x1x128 .i32) (x3 : Vec F S8x1x1024 .f32) (x4 : Vec F S1x1024 .f32) (xs0 : Vec F S512x1024 .f32)
    (xi5 : Vec F S512x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (accStep xs0 x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

set_option maxHeartbeats 4000000 in
/-- The last K step: the accumulator, found at `xs0`, ends at `accStep xs0 …`, and the output block at that plus the bias row. -/
theorem runC (c : Dev nD) (i : grid0.Coords) (arg3 : Memref sig .tc .vmem S512x1024 .f32) (harg3 : arg3.IsWhole) (arg4 : Memref sig .tc .vmem S1024x128 .i32) (harg4 : arg4.IsWhole) (arg5 : Memref sig .tc .vmem S8x1x128 .i32) (harg5 : arg5.IsWhole) (arg6 : Memref sig .tc .vmem S8x1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x1024 .bf16) (harg10 : arg10.IsWhole) (hc0 : ¬cond0_0 i) (hc1 : cond0_1 i)
    (x0 : Vec F S512x1024 .f32) (x1 : Vec F S1024x128 .i32) (x2 : Vec F S8x1x128 .i32) (x3 : Vec F S8x1x1024 .f32) (x4 : Vec F S1x1024 .f32) (xs0 : Vec F S512x1024 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outLast (accStep xs0 x0 x1 x2 x3) x4) ∗ owns (c : Thread nD τ) arg9 fullShare (accStep xs0 x0 x1 x2 x3) ∗ (∃ d, owns (c : Thread nD τ) arg10 fullShare d)) -∗ K ⟨⟩))
          ⊢ wp frame (wpE (defs₀ (F := F)) Variants.none c none) E (cc0__wqlinear_kernel i arg3 harg3 arg4 harg4 arg5 harg5 arg6 harg6 arg7 harg7 arg8 harg8 arg9 harg9 arg10 harg10) K := by
    simp only [cc0__wqlinear_kernel_eq_skeleton]; unfold cc0__wqlinear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.readCov_unit_zero _ zero2,
        View.readAt_eq_ld arg7.view, harg7.read_unread, View.ld_unit_zero (S := S1x1024) zero2 _ x4,
        View.read_writes_eq_canon _ _ _ (fun y => ⟨_, List.mem_cons_self, View.mem_set_unit_zero zero2 inb_S512x1024_S512x1024_0_0 y⟩),
        View.canon_cons_unit_zero zero2]
      rfl
    isplitl [HS0]
    · iexists _; isplitr; swap; · iexact HS0
      ipureintro
      sl_unfold_run_names
      rw [loaded_tile, View.readAt_eq_ld arg3.view, harg3.read_unread, View.ld_unit_zero (S := S512x1024) zero2 _ x0,
        View.readAt_eq_ld arg9.view, harg9.read_unread, View.ld_unit_zero (S := S512x1024) zero2 _ xs0,
        View.read_writes_eq_canon _ _ _ (fun y => ⟨_, List.mem_cons_self, View.mem_set_unit_zero zero2 inb_S512x1024_S512x1024_0_0 y⟩),
        View.canon_cons_unit_zero zero2]
      rfl
    iexists _, _; isplitr; swap; · iexact HS1
    ipureintro; rfl

end Cert.KernelIdeal.Hand
end
-- ==== Proof.KIFrame.lean ====
import proofs.«415671_j19009525252581_4_alg».proof.Proof.KIBody
import Idealize.ShloMosaic.Lib.Pipeline.FrameBody
import Idealize.ShloMosaic.Lib.Pipeline.FrameSuffix

set_option maxRecDepth 16384

/-
  The frame of the program: what the accumulator holds after each grid point (a recursion on the point: a fresh
  start at every multiple of four, one more K step otherwise), the pipeline's proof data over it, the body's
  obligation point by point from the three case runs, the run of @main and the frame claim.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal Cert.KernelIdeal.Gen

variable (m : (ℓ : Loc nD τ sig) → Buf (Elt F) ℓ) (ρ : Dev nD → PrngReg)

/-! ## What the accumulator and the output block hold after each point -/

/-- The accumulator after the body at position `n`: the grid's last axis is the K axis (4 steps), so position `n` is K
    step `n % 4` of output block `n / 4`; step 0 starts afresh, every other step adds to what the point before left. -/
def accAt (c : Dev nD) : (n : ℕ) → n < cfg0.N → Vec F S512x1024 .f32
  | 0, hn => accFirst (iblk m c 0 ⟨0, hn⟩) (iblk m c 1 ⟨0, hn⟩) (iblk m c 2 ⟨0, hn⟩) (iblk m c 3 ⟨0, hn⟩)
  | n + 1, hn =>
    if (n + 1) % 4 = 0 then accFirst (iblk m c 0 ⟨n + 1, hn⟩) (iblk m c 1 ⟨n + 1, hn⟩) (iblk m c 2 ⟨n + 1, hn⟩) (iblk m c 3 ⟨n + 1, hn⟩)
    else accStep (accAt c n (Nat.lt_of_succ_lt hn)) (iblk m c 0 ⟨n + 1, hn⟩) (iblk m c 1 ⟨n + 1, hn⟩) (iblk m c 2 ⟨n + 1, hn⟩) (iblk m c 3 ⟨n + 1, hn⟩)

theorem accAt_first (c : Dev nD) (t : Fin cfg0.N) (h0 : t.val % 4 = 0) :
    accAt m c t.val t.isLt = accFirst (iblk m c 0 t) (iblk m c 1 t) (iblk m c 2 t) (iblk m c 3 t) := by
  obtain ⟨n, hn⟩ := t
  cases n with
  | zero => rfl
  | succ n => exact if_pos h0

theorem accAt_step (c : Dev nD) (t : Fin cfg0.N) (h0 : ¬t.val % 4 = 0) :
    accAt m c t.val t.isLt = accStep (accAt m c (t.val - 1) (Nat.lt_of_le_of_lt (Nat.sub_le _ _) t.isLt)) (iblk m c 0 t) (iblk m c 1 t) (iblk m c 2 t) (iblk m c 3 t) := by
  obtain ⟨n, hn⟩ := t
  cases n with
  | zero => exact absurd (Nat.zero_mod _) h0
  | succ n => exact if_neg h0

/-- What the output's staging buffer holds after position `n` when the body stores into it (the last K step):
    accumulator + bias row. At the other positions the window is idle and this value is never consulted. -/
def out5At (c : Dev nD) (n : ℕ) (hn : n < cfg0.N) : Vec F S512x1024 .f32 :=
  outLast (accAt m c n hn) (iblk m c 4 ⟨n, hn⟩)

/-! ## The region invariant: the accumulator carried between points -/

def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5At m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5At m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the closed forms of the two conditions say which case the point is in; that case's run applies,
    taking the accumulator at what the point before left (at anything at the very first point) and giving it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [accAt_first m c t h0]
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexact HS1
        iintro ⟨H0, H1, H2, H3, H4, H5, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      unfold out5At
      rw [accAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [accAt_step m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 176 := N_0; omega)

/-! ## The run and the frame -/

set_option backward.isDefEq.respectTransparency.types false in
/-- Every weakly fair execution of @main terminates, every array of the pipeline at what the write-backs leave and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand
end
-- ==== Proof.KIStep.lean ====
import proofs.«415671_j19009525252581_4_alg».proof.Proof.KIBody
import Idealize.ShloMosaic.Lib.ValueIdx
import Idealize.ShloMosaic.Lib.Pipeline.Value
import Idealize.ShloMosaic.PureOps.Ideal.Laws

set_option maxRecDepth 16384

/-
  One K step of the accumulator read at an output index (p, q), at the ideal values.

  The step multiplies the activations' tile x0 (512 × 1024) by the dequantised weight tile W (1024 × 1024) and adds the
  product to the accumulator: the format change before the product is the identity on extended reals, and a product
  into the zero splat is the plain sum over the contraction index, so

      step(acc, x0, W)(p, q) = acc(p, q) + ∑ kk < 1024, x0(p, kk) · W(kk, q).

  The zero fill reads 0 everywhere, and the stored output is the accumulator plus the bias row read at column q.
-/
noncomputable section

namespace Cert.KernelIdeal.HandValue

open Idealize.ShloMosaic
open Cert.KernelIdeal Cert.KernelIdeal.Gen Cert.KernelIdeal.Hand Idealize.ShloMosaic.ValueIdx
open scoped BigOperators

/-! ## The product's operand indices, axis by axis

The product contracts the left operand's axis 1 with the right operand's axis 0; the left operand's axis 0 is the
result's row, the right operand's axis 1 the result's column. -/

/-- Left operand, axis 0 (rows): the result's row. -/
theorem lhs_dot_S512x1024_S1024x1024_S512x1024_1_0_0_1_n_n_0 (j : S512x1024.Idx)
    (k : dot_S512x1024_S1024x1024_S512x1024_1_0_0_1_n_n.contr.Idx) :
    (dot_S512x1024_S1024x1024_S512x1024_1_0_0_1_n_n.lhsIdx j k 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Left operand, axis 1 (the contracted one): the contraction position. -/
theorem lhs_dot_S512x1024_S1024x1024_S512x1024_1_0_0_1_n_n_1 (j : S512x1024.Idx)
    (k : dot_S512x1024_S1024x1024_S512x1024_1_0_0_1_n_n.contr.Idx) :
    (dot_S512x1024_S1024x1024_S512x1024_1_0_0_1_n_n.lhsIdx j k 1).val = (k ⟨0, by decide⟩).val :=
  DotDims.lhsIdx_val_of_single (d := dot_S512x1024_S1024x1024_S512x1024_1_0_0_1_n_n) (cl := 1) rfl j k

/-- Right operand, axis 0 (the contracted one): the contraction position. -/
theorem rhs_dot_S512x1024_S1024x1024_S512x1024_1_0_0_1_n_n_0 (j : S512x1024.Idx)
    (k : dot_S512x1024_S1024x1024_S512x1024_1_0_0_1_n_n.contr.Idx) :
    (dot_S512x1024_S1024x1024_S512x1024_1_0_0_1_n_n.rhsIdx j k 0).val = (k ⟨0, by decide⟩).val :=
  DotDims.rhsIdx_val_of_single (d := dot_S512x1024_S1024x1024_S512x1024_1_0_0_1_n_n) (cr := 0) rfl j k

/-- Right operand, axis 1 (columns): the result's column. -/
theorem rhs_dot_S512x1024_S1024x1024_S512x1024_1_0_0_1_n_n_1 (j : S512x1024.Idx)
    (k : dot_S512x1024_S1024x1024_S512x1024_1_0_0_1_n_n.contr.Idx) :
    (dot_S512x1024_S1024x1024_S512x1024_1_0_0_1_n_n.rhsIdx j k 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The product at an index -/

/-- The product into the zero splat at (p, q): the sum over the contraction coordinate. -/
theorem prod_apply (a : FVec Ideal S512x1024 .bf16) (W : FVec Ideal S1024x1024 .bf16) (p : Fin 512) (q : Fin 1024) :
    matmul (F := Ideal) dot_S512x1024_S1024x1024_S512x1024_1_0_0_1_n_n none a W (constant (F := Ideal) S512x1024 .f32 0x00000000#32) (ix2 p q)
      = ∑ kk : Fin 1024, a (ix2 p kk) * W (ix2 kk q) := by
  simp only [matmul]
  rw [Ideal.matmul_constant_zero_apply]
  rw [← Equiv.sum_comp (contrEquiv1 dot_S512x1024_S1024x1024_S512x1024_1_0_0_1_n_n 1024 rfl rfl).symm]
  refine Finset.sum_congr rfl fun kk _ => ?_
  have hk := contrEquiv1_symm_val dot_S512x1024_S1024x1024_S512x1024_1_0_0_1_n_n 1024 rfl rfl kk
  have hl : dot_S512x1024_S1024x1024_S512x1024_1_0_0_1_n_n.lhsIdx (ix2 p q)
      ((contrEquiv1 dot_S512x1024_S1024x1024_S512x1024_1_0_0_1_n_n 1024 rfl rfl).symm kk) = ix2 p kk := by
    funext ax
    refine Fin.ext ?_
    match ax with
    | ⟨0, _⟩ => exact lhs_dot_S512x1024_S1024x1024_S512x1024_1_0_0_1_n_n_0 _ _
    | ⟨1, _⟩ => exact (lhs_dot_S512x1024_S1024x1024_S512x1024_1_0_0_1_n_n_1 _ _).trans hk
  have hr : dot_S512x1024_S1024x1024_S512x1024_1_0_0_1_n_n.rhsIdx (ix2 p q)
      ((contrEquiv1 dot_S512x1024_S1024x1024_S512x1024_1_0_0_1_n_n 1024 rfl rfl).symm kk) = ix2 kk q := by
    funext ax
    refine Fin.ext ?_
    match ax with
    | ⟨0, _⟩ => exact (rhs_dot_S512x1024_S1024x1024_S512x1024_1_0_0_1_n_n_0 _ _).trans hk
    | ⟨1, _⟩ => exact rhs_dot_S512x1024_S1024x1024_S512x1024_1_0_0_1_n_n_1 _ _
  rw [hl, hr]

/-! ## The payloads at an index -/

/-- One K step at (p, q): the accumulator there plus the row of x0 against the column of W. -/
theorem step_apply (acc x0 : Vec Ideal S512x1024 .f32) (W : Vec Ideal S1024x1024 .bf16) (p : Fin 512) (q : Fin 1024) :
    k0_pay4 (F := Ideal) x0 acc W (ix2 p q) = acc (ix2 p q) + ∑ kk : Fin 1024, x0 (ix2 p kk) * W (ix2 kk q) := by
  unfold k0_pay4
  rw [shapeCast_self, addf_apply, prod_apply]
  rfl

/-- The zero fill reads 0 everywhere. -/
theorem zero_apply (p : Fin 512) (q : Fin 1024) : k0_pay1 (F := Ideal) (ix2 p q) = 0 := by
  unfold k0_pay1
  rw [shapeCast_self, broadcast_apply]
  exact Ideal.ofBits_zero_f32

theorem accStep_apply (acc x0 : Vec Ideal S512x1024 .f32) (x1 : Vec Ideal S1024x128 .i32) (x2 : Vec Ideal S8x1x128 .i32) (x3 : Vec Ideal S8x1x1024 .f32) (p : Fin 512) (q : Fin 1024) :
    accStep (F := Ideal) acc x0 x1 x2 x3 (ix2 p q) = acc (ix2 p q) + ∑ kk : Fin 1024, x0 (ix2 p kk) * Wof (F := Ideal) x1 x2 x3 (ix2 kk q) :=
  step_apply acc x0 (Wof (F := Ideal) x1 x2 x3) p q

theorem accFirst_apply (x0 : Vec Ideal S512x1024 .f32) (x1 : Vec Ideal S1024x128 .i32) (x2 : Vec Ideal S8x1x128 .i32) (x3 : Vec Ideal S8x1x1024 .f32) (p : Fin 512) (q : Fin 1024) :
    accFirst (F := Ideal) x0 x1 x2 x3 (ix2 p q) = 0 + ∑ kk : Fin 1024, x0 (ix2 p kk) * Wof (F := Ideal) x1 x2 x3 (ix2 kk q) := by
  unfold accFirst
  rw [accStep_apply, zero_apply]

/-- The stored output at (p, q): the accumulator there plus the bias at column q. -/
theorem outLast_apply (acc : Vec Ideal S512x1024 .f32) (x4 : Vec Ideal S1x1024 .f32) (p : Fin 512) (q : Fin 1024) :
    outLast (F := Ideal) acc x4 (ix2 p q) = acc (ix2 p q) + x4 (ix2 (0 : Fin 1) q) := by
  unfold outLast k0_pay5
  rw [addf_apply, shapeCast_self]
  rw [broadcastTo_apply x4 broadcasts_S1x1024_S512x1024 (ix2 p q) (ix2 (0 : Fin 1) q)]
  intro ax
  match ax with
  | ⟨0, _⟩ => rfl
  | ⟨1, _⟩ => rfl

end Cert.KernelIdeal.HandValue
-- ==== Proof.KIAccum.lean ====
import proofs.«415671_j19009525252581_4_alg».proof.Proof.KIFrame
import proofs.«415671_j19009525252581_4_alg».proof.Proof.KIStep
import Idealize.ShloMosaic.Lib.Pipeline.Value
import Idealize.ShloMosaic.Lib.ValueIdx

set_option maxRecDepth 16384

/-
  The accumulator after each grid point, in closed form, at the ideal values.

  The grid's last axis is the K axis (4 steps): point n is K step n % 4 of output block n / 4. The accumulator starts
  afresh at step 0 and adds one product "activations tile · weight tile" at every step, so after point n it holds, at
  (p, q), the sum over the steps s ≤ n % 4 of the run of

      stepTerm(4·(n / 4) + s)(p, q) = ∑ kk < 1024, x0(p, kk) · W(kk, q)      (the blocks of point 4·(n / 4) + s).

  At the run's last step (n % 4 = 3) the stored output block is that sum over all four steps plus the bias row at q.
-/
noncomputable section

namespace Cert.KernelIdeal.HandValue

open Idealize.ShloMosaic
open Cert.KernelIdeal Cert.KernelIdeal.Gen Cert.KernelIdeal.Hand Idealize.ShloMosaic.ValueIdx
open scoped BigOperators

/-- The product of an activations tile and the weight tile of three packed blocks, at (p, q): the sum over the
    contraction index kk of x0(p, kk) · W(kk, q). -/
def tileProd (x0 : Vec Ideal S512x1024 .f32) (x1 : Vec Ideal S1024x128 .i32) (x2 : Vec Ideal S8x1x128 .i32)
    (x3 : Vec Ideal S8x1x1024 .f32) (p : Fin 512) (q : Fin 1024) : EReal :=
  ∑ kk : Fin 1024, x0 (ix2 p kk) * Wof (F := Ideal) x1 x2 x3 (ix2 kk q)

theorem tileProd_def (x0 : Vec Ideal S512x1024 .f32) (x1 : Vec Ideal S1024x128 .i32) (x2 : Vec Ideal S8x1x128 .i32)
    (x3 : Vec Ideal S8x1x1024 .f32) (p : Fin 512) (q : Fin 1024) :
    tileProd x0 x1 x2 x3 p q = ∑ kk : Fin 1024, x0 (ix2 p kk) * Wof (F := Ideal) x1 x2 x3 (ix2 kk q) := rfl

variable (m : (ℓ : Loc nD τ sig) → Buf (Elt Ideal) ℓ)

/-- the product of point n's activations tile and weight tile at (p, q); zero past the grid (never used there) -/
def stepTerm (c : Dev nD) (n : ℕ) (p : Fin 512) (q : Fin 1024) : EReal :=
  if h : n < cfg0.N then
    tileProd (iblk m c 0 ⟨n, h⟩) (iblk m c 1 ⟨n, h⟩) (iblk m c 2 ⟨n, h⟩) (iblk m c 3 ⟨n, h⟩) p q
  else 0

/-- Inside the grid the addend is the tile product of that point's blocks. -/
theorem stepTerm_of_lt (c : Dev nD) (n : ℕ) (h : n < cfg0.N) (p : Fin 512) (q : Fin 1024) :
    stepTerm m c n p q
      = tileProd (iblk m c 0 ⟨n, h⟩) (iblk m c 1 ⟨n, h⟩) (iblk m c 2 ⟨n, h⟩) (iblk m c 3 ⟨n, h⟩) p q :=
  dif_pos h

/-- The accumulator after point t, at (p, q): the sum of the addends of the run's steps done so far. -/
theorem accAt_closed (c : Dev nD) (t : Fin cfg0.N) (p : Fin 512) (q : Fin 1024) :
    accAt m c t.val t.isLt (ix2 p q) = 0 + ∑ s ∈ Finset.range (t.val % 4 + 1), stepTerm m c (4 * (t.val / 4) + s) p q := by
  have h' : 4 * (t.val / 4) + t.val % 4 < cfg0.N := by rw [Nat.div_add_mod]; exact t.isLt
  -- the recursion on the point is the fold over the run that contains t
  have e := Pipeline.eq_accAt_of_mod (fun n h => accAt m c n h) 4
    (fun n h => accFirst (iblk m c 0 ⟨n, h⟩) (iblk m c 1 ⟨n, h⟩) (iblk m c 2 ⟨n, h⟩) (iblk m c 3 ⟨n, h⟩))
    (fun n h acc => accStep acc (iblk m c 0 ⟨n, h⟩) (iblk m c 1 ⟨n, h⟩) (iblk m c 2 ⟨n, h⟩) (iblk m c 3 ⟨n, h⟩))
    (fun n h h0 => accAt_first m c ⟨n, h⟩ h0)
    (fun n h h0 => accAt_step m c ⟨n + 1, h⟩ h0)
    (by decide) t.val t.isLt h'
  refine (congrFun e (ix2 p q)).trans ?_
  -- the fold unrolled: every step adds its point's addend
  exact Pipeline.accAt_add_apply (ι := S512x1024.Idx) (β := EReal) _ _ (fun _ => 0)
    (fun n y => stepTerm m c n (y 0) (y 1)) (4 * (t.val / 4)) 3
    (fun h i => by
      obtain ⟨a, b, rfl⟩ : ∃ (a : Fin 512) (b : Fin 1024), i = ix2 a b := ⟨i 0, i 1, eq_ix2 i⟩
      rw [accFirst_apply, stepTerm_of_lt m c _ h]; rfl)
    (fun n h acc i _ _ => by
      obtain ⟨a, b, rfl⟩ : ∃ (a : Fin 512) (b : Fin 1024), i = ix2 a b := ⟨i 0, i 1, eq_ix2 i⟩
      rw [accStep_apply, stepTerm_of_lt m c _ h]; rfl)
    (t.val % 4) (by omega) h' (ix2 p q)

/-- The output block stored at the run's last step, at (p, q): all four addends, plus the bias at column q. -/
theorem out5At_last (c : Dev nD) (t : Fin cfg0.N) (h3 : t.val % 4 = 3) (p : Fin 512) (q : Fin 1024) :
    out5At m c t.val t.isLt (ix2 p q) = (0 + ∑ s ∈ Finset.range 4, stepTerm m c (4 * (t.val / 4) + s) p q)
      + (iblk m c 4 t : Vec Ideal S1x1024 .f32) (ix2 (0 : Fin 1) q) := by
  unfold out5At
  rw [outLast_apply, accAt_closed, h3]

end Cert.KernelIdeal.HandValue
-- ==== Proof.KIBlocks.lean ====
import proofs.«415671_j19009525252581_4_alg».proof.Proof.Gen.KernelIdeal.Frame.Runs
import Idealize.ShloMosaic.Lib.ValueIdx
import Idealize.ShloMosaic.Lib.Pipeline.Value

set_option maxRecDepth 16384

/-
  Each window's block at a grid point, read at an index of the array it is cut from.

  The grid is 4 × 11 × 4: point t has coordinates (i, j, k) with t = 44 i + 4 j + k. A block's entry sits in its
  array, on each axis, at (block index) × (block size) + (the entry's coordinate inside the block); the block
  indices are coordinates of the point: the activations' block is (i, k), the packed weights' (k, j), the packed
  zeros' and the scales' (k, 0, j), the bias's (0, j), the output's (i, j).
-/
noncomputable section

namespace Cert.KernelIdeal.HandValue

open Idealize.ShloMosaic Idealize.ShloMosaic.TcCoe Idealize.SL.Sem
open Idealize.ShloMosaic.Pipeline (Dat Cfg Window)
open Cert.KernelIdeal Cert.KernelIdeal.Gen Idealize.ShloMosaic.ValueIdx

variable {F : FTy → Type} [FloatOps F]
variable (m : (ℓ : Loc nD τ sig) → Buf (Elt F) ℓ)

/-- The six index maps in closed form in the point's number: the first grid coordinate is t / 44, the second
    t / 4 mod 11, the third t mod 4. -/
theorem idx_facts : ∀ t : Fin cfg0.N,
    win0_0.index t 0 = t.val / 44 ∧ win0_0.index t 1 = t.val % 4
    ∧ win0_1.index t 0 = t.val % 4 ∧ win0_1.index t 1 = t.val / 4 % 11
    ∧ win0_2.index t 0 = t.val % 4 ∧ win0_2.index t 1 = 0 ∧ win0_2.index t 2 = t.val / 4 % 11
    ∧ win0_3.index t 0 = t.val % 4 ∧ win0_3.index t 1 = 0 ∧ win0_3.index t 2 = t.val / 4 % 11
    ∧ win0_4.index t 0 = 0 ∧ win0_4.index t 1 = t.val / 4 % 11
    ∧ win0_5.index t 0 = t.val / 44 ∧ win0_5.index t 1 = t.val / 4 % 11 :=
  (by decide +kernel : ∀ t : Fin grid0.N,
    win0_0.index t 0 = t.val / 44 ∧ win0_0.index t 1 = t.val % 4
    ∧ win0_1.index t 0 = t.val % 4 ∧ win0_1.index t 1 = t.val / 4 % 11
    ∧ win0_2.index t 0 = t.val % 4 ∧ win0_2.index t 1 = 0 ∧ win0_2.index t 2 = t.val / 4 % 11
    ∧ win0_3.index t 0 = t.val % 4 ∧ win0_3.index t 1 = 0 ∧ win0_3.index t 2 = t.val / 4 % 11
    ∧ win0_4.index t 0 = 0 ∧ win0_4.index t 1 = t.val / 4 % 11
    ∧ win0_5.index t 0 = t.val / 44 ∧ win0_5.index t 1 = t.val / 4 % 11)

/-- The activations' block at point (i, j, k) is rows 512 i …, columns 1024 k … of the activations. -/
theorem iblk0_apply (c : Dev nD) (t : Fin cfg0.N) (i : Fin 4) (j : Fin 11) (k : Fin 4)
    (ht : t.val = 44 * i.val + 4 * j.val + k.val) (a : Fin 512) (b : Fin 1024) :
    (iblk m c 0 t : Vec F S512x1024 .f32) (ix2 a b)
      = V m c main_arg0 (ix2 ⟨512 * i.val + a.val, by omega⟩ ⟨1024 * k.val + b.val, by omega⟩) := by
  obtain ⟨h0, h1, -⟩ := idx_facts t
  unfold iblk
  rw [View.read_apply]
  show V m c main_arg0 _ = V m c main_arg0 _
  congr 1
  funext d
  apply Fin.ext
  match d with
  | ⟨0, _⟩ => show win0_0.index t 0 * 512 + 1 * a.val = 512 * i.val + a.val; rw [h0]; omega
  | ⟨1, _⟩ => show win0_0.index t 1 * 1024 + 1 * b.val = 1024 * k.val + b.val; rw [h1]; omega

/-- The packed weights' block at point (i, j, k) is rows 1024 k …, columns 128 j … of the padded packed weights. -/
theorem iblk1_apply (c : Dev nD) (t : Fin cfg0.N) (i : Fin 4) (j : Fin 11) (k : Fin 4)
    (ht : t.val = 44 * i.val + 4 * j.val + k.val) (a : Fin 1024) (b : Fin 128) :
    (iblk m c 1 t : Vec F S1024x128 .i32) (ix2 a b)
      = V m c main_v0 (ix2 ⟨1024 * k.val + a.val, by omega⟩ ⟨128 * j.val + b.val, by omega⟩) := by
  obtain ⟨-, -, h0, h1, -⟩ := idx_facts t
  unfold iblk
  rw [View.read_apply]
  show V m c main_v0 _ = V m c main_v0 _
  congr 1
  funext d
  apply Fin.ext
  match d with
  | ⟨0, _⟩ => show win0_1.index t 0 * 1024 + 1 * a.val = 1024 * k.val + a.val; rw [h0]; omega
  | ⟨1, _⟩ => show win0_1.index t 1 * 128 + 1 * b.val = 128 * j.val + b.val; rw [h1]; omega

/-- The packed zeros' block at point (i, j, k) is groups 8 k …, columns 128 j … of the padded packed zeros. -/
theorem iblk2_apply (c : Dev nD) (t : Fin cfg0.N) (i : Fin 4) (j : Fin 11) (k : Fin 4)
    (ht : t.val = 44 * i.val + 4 * j.val + k.val) (a : Fin 8) (b : Fin 128) :
    (iblk m c 2 t : Vec F S8x1x128 .i32) (ix3 a (0 : Fin 1) b)
      = V m c main_v2 (ix3 ⟨8 * k.val + a.val, by omega⟩ (0 : Fin 1) ⟨128 * j.val + b.val, by omega⟩) := by
  obtain ⟨-, -, -, -, h0, h1, h2, -⟩ := idx_facts t
  unfold iblk
  rw [View.read_apply]
  show V m c main_v2 _ = V m c main_v2 _
  congr 1
  funext d
  apply Fin.ext
  match d with
  | ⟨0, _⟩ => show win0_2.index t 0 * 8 + 1 * a.val = 8 * k.val + a.val; rw [h0]; omega
  | ⟨1, _⟩ => show win0_2.index t 1 * 1 + 1 * 0 = 0; rw [h1]
  | ⟨2, _⟩ => show win0_2.index t 2 * 128 + 1 * b.val = 128 * j.val + b.val; rw [h2]; omega

/-- The scales' block at point (i, j, k) is groups 8 k …, columns 1024 j … of the blocked scales. -/
theorem iblk3_apply (c : Dev nD) (t : Fin cfg0.N) (i : Fin 4) (j : Fin 11) (k : Fin 4)
    (ht : t.val = 44 * i.val + 4 * j.val + k.val) (a : Fin 8) (b : Fin 1024) :
    (iblk m c 3 t : Vec F S8x1x1024 .f32) (ix3 a (0 : Fin 1) b)
      = V m c main_v7 (ix3 ⟨8 * k.val + a.val, by omega⟩ (0 : Fin 1) ⟨1024 * j.val + b.val, by omega⟩) := by
  obtain ⟨-, -, -, -, -, -, -, h0, h1, h2, -⟩ := idx_facts t
  unfold iblk
  rw [View.read_apply]
  show V m c main_v7 _ = V m c main_v7 _
  congr 1
  funext d
  apply Fin.ext
  match d with
  | ⟨0, _⟩ => show win0_3.index t 0 * 8 + 1 * a.val = 8 * k.val + a.val; rw [h0]; omega
  | ⟨1, _⟩ => show win0_3.index t 1 * 1 + 1 * 0 = 0; rw [h1]
  | ⟨2, _⟩ => show win0_3.index t 2 * 1024 + 1 * b.val = 1024 * j.val + b.val; rw [h2]; omega

/-- The bias's block at point (i, j, k) is columns 1024 j … of the blocked bias. -/
theorem iblk4_apply (c : Dev nD) (t : Fin cfg0.N) (i : Fin 4) (j : Fin 11) (k : Fin 4)
    (ht : t.val = 44 * i.val + 4 * j.val + k.val) (b : Fin 1024) :
    (iblk m c 4 t : Vec F S1x1024 .f32) (ix2 (0 : Fin 1) b)
      = V m c main_v12 (ix2 (0 : Fin 1) ⟨1024 * j.val + b.val, by omega⟩) := by
  obtain ⟨-, -, -, -, -, -, -, -, -, -, h0, h1, -⟩ := idx_facts t
  unfold iblk
  rw [View.read_apply]
  show V m c main_v12 _ = V m c main_v12 _
  congr 1
  funext d
  apply Fin.ext
  match d with
  | ⟨0, _⟩ => show win0_4.index t 0 * 1 + 1 * 0 = 0; rw [h0]
  | ⟨1, _⟩ => show win0_4.index t 1 * 1024 + 1 * b.val = 1024 * j.val + b.val; rw [h1]; omega

/-- Where the output block's entry (a, b) sits in the output: row 512 i + a, column 1024 j + b. -/
theorem out_emb (c : Dev nD) (t : Fin cfg0.N) (i : Fin 4) (j : Fin 11) (k : Fin 4)
    (ht : t.val = 44 * i.val + 4 * j.val + k.val) (a : Fin 512) (b : Fin 1024) :
    ((cfg0.win 5).blk t).view.emb (ix2 a b : S512x1024.Idx)
      = (ix2 ⟨512 * i.val + a.val, by omega⟩ ⟨1024 * j.val + b.val, by omega⟩ : S2048x11264.Idx) := by
  obtain ⟨-, -, -, -, -, -, -, -, -, -, -, -, h0, h1⟩ := idx_facts t
  funext d
  apply Fin.ext
  match d with
  | ⟨0, _⟩ => show win0_5.index t 0 * 512 + 1 * a.val = 512 * i.val + a.val; rw [h0]; omega
  | ⟨1, _⟩ => show win0_5.index t 1 * 1024 + 1 * b.val = 1024 * j.val + b.val; rw [h1]; omega

/-- The output block at point (i, j, k) covers exactly rows 512 i … 512 i + 511 and columns 1024 j … 1024 j + 1023. -/
theorem out_mem_iff (c : Dev nD) (t : Fin cfg0.N) (i : Fin 4) (j : Fin 11) (k : Fin 4)
    (ht : t.val = 44 * i.val + 4 * j.val + k.val) (y : S2048x11264.Idx) :
    y ∈ ((cfg0.win 5).blk t).view.set ↔ (y 0).val / 512 = i.val ∧ (y 1).val / 1024 = j.val := by
  obtain ⟨-, -, -, -, -, -, -, -, -, -, -, -, h0, h1⟩ := idx_facts t
  show y ∈ ((View.whole main_v13).slice (win0_5.rect t)).set ↔ _
  rw [View.set_slice_whole, Rect.mem_set_unit]
  constructor
  · intro h
    have e0 : win0_5.index t 0 * 512 ≤ (y 0).val ∧ (y 0).val < win0_5.index t 0 * 512 + 512 := h 0
    have e1 : win0_5.index t 1 * 1024 ≤ (y 1).val ∧ (y 1).val < win0_5.index t 1 * 1024 + 1024 := h 1
    rw [h0] at e0; rw [h1] at e1
    constructor <;> omega
  · rintro ⟨e0, e1⟩ d
    match d with
    | ⟨0, _⟩ => show win0_5.index t 0 * 512 ≤ (y 0).val ∧ (y 0).val < win0_5.index t 0 * 512 + 512
                rw [h0]; omega
    | ⟨1, _⟩ => show win0_5.index t 1 * 1024 ≤ (y 1).val ∧ (y 1).val < win0_5.index t 1 * 1024 + 1024
                rw [h1]; omega

end Cert.KernelIdeal.HandValue

end
-- ==== Proof.Dequant.lean ====
/-
  The mathematics of the 4-bit dequantising linear layer, stated once over literal shapes and extended reals, with no
  program in sight. A packed word holds eight 4-bit fields; logical column `8·c + j` of the weight matrix is field
  `j` of packed column `c`, found at bit offset `shiftOf j` (the interleaved order 0,4,1,5,2,6,3,7 times four).
  Row `k` belongs to group `k / 128`; the dequantised weight is (field of the weight word − field of the group's
  zero word) · the group's scale, and the layer is `x · w + bias`.

  Two arrangements of the columns appear. The FINAL order is the logical one. In the BLOCKED order each run of 1024
  columns is regrouped so that its sub-block `nb` (128 wide) holds the columns `8·c + nb`: blocked column
  `1024·t + 128·nb + c` is final column `1024·t + 8·c + nb`. Both directions of that re-indexing, and the two facts
  the proof needs of them (the packed column and the field number of a final column read off its blocked position),
  are here, by arithmetic on naturals.
-/
import Idealize.ShloMosaic.PureOps.Ideal
import Idealize.ShloMosaic.Lib.ValueIdx

noncomputable section

namespace Cert.Dequant

open Idealize.ShloMosaic Idealize.ShloMosaic.ValueIdx

/-- Bit offset of 4-bit field `j` inside a packed word. -/
def shiftOf : Fin 8 → BitVec 32 := ![0#32, 16#32, 4#32, 20#32, 8#32, 24#32, 12#32, 28#32]

/-- Field `j` of a packed word, as a word: arithmetic shift right by the field's offset, low four bits kept. -/
def nib (q : BitVec 32) (j : Fin 8) : BitVec 32 := (q.sshiftRight' (shiftOf j)) &&& 15#32

/-- The same field as an extended real (the integer it denotes, exactly). -/
def nibR (q : BitVec 32) (j : Fin 8) : EReal := (((nib q j).toInt : ℝ) : EReal)

/-- Final column `n` sits in packed column `n / 8`. -/
def packedCol (n : Fin 11008) : Fin 1376 := ⟨n.val / 8, by have := n.isLt; omega⟩
/-- … as field `n % 8`. -/
def fieldOf (n : Fin 11008) : Fin 8 := ⟨n.val % 8, Nat.mod_lt _ (by decide)⟩
/-- Row `k` of the weight matrix belongs to quantisation group `k / 128`. -/
def groupOf (k : Fin 4096) : Fin 32 := ⟨k.val / 128, by have := k.isLt; omega⟩

/-- The dequantised weight at row `k`, final column `n`. -/
def weight (qw : (⟨2, ![4096, 1376]⟩ : Shape).Idx → BitVec 32) (qz : (⟨2, ![32, 1376]⟩ : Shape).Idx → BitVec 32)
    (sc : (⟨2, ![32, 11008]⟩ : Shape).Idx → EReal) (k : Fin 4096) (n : Fin 11008) : EReal :=
  (nibR (qw (ix2 k (packedCol n))) (fieldOf n) - nibR (qz (ix2 (groupOf k) (packedCol n))) (fieldOf n)) * sc (ix2 (groupOf k) n)

/-- The layer: `out[r, n] = Σ_k x[r, k] · weight[k, n] + bias[n]`. -/
def linear (x : (⟨2, ![2048, 4096]⟩ : Shape).Idx → EReal) (qw : (⟨2, ![4096, 1376]⟩ : Shape).Idx → BitVec 32)
    (qz : (⟨2, ![32, 1376]⟩ : Shape).Idx → BitVec 32) (sc : (⟨2, ![32, 11008]⟩ : Shape).Idx → EReal)
    (b : (⟨1, ![11008]⟩ : Shape).Idx → EReal) : (⟨2, ![2048, 11008]⟩ : Shape).Idx → EReal :=
  fun j => (∑ k : Fin 4096, x (ix2 (j 0) k) * weight qw qz sc k (j 1)) + b (ix1 (j 1))

/-! ## The blocked column order (over the padded width 11264 = 11 · 1024) -/

/-- Blocked position of a final column: tile, then field number, then packed column inside the tile. -/
def blockedOf (n : ℕ) : ℕ := n / 1024 * 1024 + n % 8 * 128 + n % 1024 / 8
/-- Final column at a blocked position. -/
def finalOf (cb : ℕ) : ℕ := cb / 1024 * 1024 + cb % 128 * 8 + cb % 1024 / 128

/-- Every column splits as tile · 1024 + packed-column-in-tile · 8 + field. -/
theorem col_split (n : ℕ) : ∃ t c j, c < 128 ∧ j < 8 ∧ n = 1024 * t + 8 * c + j :=
  ⟨n / 1024, n % 1024 / 8, n % 1024 % 8, by omega, by omega, by omega⟩
/-- Every blocked position splits as tile · 1024 + field · 128 + packed-column-in-tile. -/
theorem blk_split (cb : ℕ) : ∃ t c j, c < 128 ∧ j < 8 ∧ cb = 1024 * t + 128 * j + c :=
  ⟨cb / 1024, cb % 1024 % 128, cb % 1024 / 128, by omega, by omega, by omega⟩

theorem blockedOf_split (t c j : ℕ) (hc : c < 128) (hj : j < 8) : blockedOf (1024 * t + 8 * c + j) = 1024 * t + 128 * j + c := by
  unfold blockedOf; omega
theorem finalOf_split (t c j : ℕ) (hc : c < 128) (hj : j < 8) : finalOf (1024 * t + 128 * j + c) = 1024 * t + 8 * c + j := by
  unfold finalOf; omega

theorem finalOf_blockedOf (n : ℕ) : finalOf (blockedOf n) = n := by
  obtain ⟨t, c, j, hc, hj, rfl⟩ := col_split n
  rw [blockedOf_split t c j hc hj, finalOf_split t c j hc hj]
theorem blockedOf_finalOf (cb : ℕ) : blockedOf (finalOf cb) = cb := by
  obtain ⟨t, c, j, hc, hj, rfl⟩ := blk_split cb
  rw [finalOf_split t c j hc hj, blockedOf_split t c j hc hj]
theorem blockedOf_lt {n : ℕ} (h : n < 11264) : blockedOf n < 11264 := by
  obtain ⟨t, c, j, hc, hj, rfl⟩ := col_split n
  rw [blockedOf_split t c j hc hj]; omega
theorem finalOf_lt {cb : ℕ} (h : cb < 11264) : finalOf cb < 11264 := by
  obtain ⟨t, c, j, hc, hj, rfl⟩ := blk_split cb
  rw [finalOf_split t c j hc hj]; omega
/-- The packed column a blocked position reads: tile · 128 + position inside the sub-block. -/
theorem packed_of_blocked (n : ℕ) : blockedOf n / 1024 * 128 + blockedOf n % 128 = n / 8 := by
  obtain ⟨t, c, j, hc, hj, rfl⟩ := col_split n
  rw [blockedOf_split t c j hc hj]
  have h1 : (1024 * t + 128 * j + c) / 1024 = t := by omega
  have h2 : (1024 * t + 128 * j + c) % 128 = c := by omega
  have h3 : (1024 * t + 8 * c + j) / 8 = 128 * t + c := by omega
  rw [h1, h2, h3]; omega
/-- The field number of a blocked position is its sub-block. -/
theorem field_of_blocked (n : ℕ) : blockedOf n % 1024 / 128 = n % 8 := by
  obtain ⟨t, c, j, hc, hj, rfl⟩ := col_split n
  rw [blockedOf_split t c j hc hj]
  have h1 : (1024 * t + 128 * j + c) % 1024 = 128 * j + c := by omega
  have h2 : (1024 * t + 8 * c + j) % 8 = j := by omega
  rw [h1, h2]; omega

/-! ## The layer in the blocked column order, over the padded arrays

The packed weights and zeros padded to 1408 packed columns (11 tiles of 128), the scales and the bias padded to
11264 columns and re-arranged into blocked order. At blocked position `cb` the weight reads packed column
`cb / 1024 · 128 + cb % 128`, field `cb % 1024 / 128`, and the scale AT `cb` itself (the scales are already blocked). -/

/-- Packed column read at blocked position `cb`. -/
def packedColB (cb : Fin 11264) : Fin 1408 := ⟨cb.val / 1024 * 128 + cb.val % 128, by have := cb.isLt; omega⟩
/-- Field number at blocked position `cb`: its 128-wide sub-block inside the 1024-wide tile. -/
def fieldB (cb : Fin 11264) : Fin 8 := ⟨cb.val % 1024 / 128, by omega⟩

/-- The dequantised weight at row `k`, blocked position `cb`. -/
def weightBlocked (qwp : (⟨2, ![4096, 1408]⟩ : Shape).Idx → BitVec 32) (qzp : (⟨3, ![32, 1, 1408]⟩ : Shape).Idx → BitVec 32)
    (scb : (⟨3, ![32, 1, 11264]⟩ : Shape).Idx → EReal) (k : Fin 4096) (cb : Fin 11264) : EReal :=
  (nibR (qwp (ix2 k (packedColB cb))) (fieldB cb) - nibR (qzp (ix3 (groupOf k) (0 : Fin 1) (packedColB cb))) (fieldB cb))
    * scb (ix3 (groupOf k) (0 : Fin 1) cb)

/-- The layer in blocked order: `out[r, cb] = Σ_k x[r, k] · weightBlocked[k, cb] + biasBlocked[cb]`. -/
def linearBlocked (x : (⟨2, ![2048, 4096]⟩ : Shape).Idx → EReal) (qwp : (⟨2, ![4096, 1408]⟩ : Shape).Idx → BitVec 32)
    (qzp : (⟨3, ![32, 1, 1408]⟩ : Shape).Idx → BitVec 32) (scb : (⟨3, ![32, 1, 11264]⟩ : Shape).Idx → EReal)
    (bb : (⟨2, ![1, 11264]⟩ : Shape).Idx → EReal) : (⟨2, ![2048, 11264]⟩ : Shape).Idx → EReal :=
  fun j => (∑ k : Fin 4096, x (ix2 (j 0) k) * weightBlocked qwp qzp scb k (j 1)) + bb (ix2 (0 : Fin 1) (j 1))

end Cert.Dequant

end
-- ==== Proof.KIWeights.lean ====
import proofs.«415671_j19009525252581_4_alg».proof.Proof.KITile
import proofs.«415671_j19009525252581_4_alg».proof.Proof.Dequant
import Idealize.ShloMosaic.Lib.ValueIdx
import Idealize.ShloMosaic.Lib.Pipeline.Value
import Idealize.ShloMosaic.Lib.ValueLayout
import Idealize.ShloMosaic.PureOps.Ideal.Laws

set_option maxRecDepth 16384

/-
  The weight tile over the extended reals, entry by entry. Every one of the eight field blocks is computed the same
  way: the packed word shifted right (arithmetically) by the field's bit offset and masked to four bits, read as an
  integer, minus the same field of the group's zero word, times the group's scale at the block's column. Conversion
  to the narrower float format changes nothing over the reals, and the casts between shapes only rename indices.
  Entry (r, cb) of the tile therefore is (field cb / 128 of weight word (r, cb mod 128) − field cb / 128 of zero word
  (r / 128, cb mod 128)) · scale (r / 128, cb).
-/
noncomputable section

namespace Cert.KernelIdeal.HandValue

open Idealize.ShloMosaic
open Cert.KernelIdeal Cert.KernelIdeal.Gen Cert.KernelIdeal.Hand Idealize.ShloMosaic.ValueIdx

/-- One field block at local entry `(p, q)`, for any shift `sh` below the word width and any column offset `128·nb`
    of the scale slice: (field of the weight word − field of the zero word) · scale. -/
theorem block_core (w : IVec S128x128 32) (z : IVec S1x128 32) (sc : FVec Ideal S1x1024 .f32) (sh : BitVec 32)
    (off : Fin 2 → ℕ) (hsl : S1x1024.Slices off S1x128) (hsh : sh.toNat < 32) (nb : ℕ) (hoff : off = ![0, 128 * nb])
    (p q : Fin 128) (hq : 128 * nb + q.val < 1024) :
    (shapeCast S128x128
        (truncf .bf16
          (mulf
            (subf (sitofp .f32 (andi (shrsi w (broadcast S128x128 sh)) (broadcast S128x128 15#32)))
              (broadcastTo S128x128 (sitofp .f32 (andi (shrsi z (broadcast S1x128 sh)) (broadcast S1x128 15#32)))
                broadcasts_S1x128_S128x128))
            (broadcastTo S128x128 (extractStridedSlice S1x128 off sc hsl) broadcasts_S1x128_S128x128))
          bitsLt_bf16_f32)
        shapeCasts_S128x128_S128x128 : FVec Ideal S128x128 .bf16) (ix2 p q)
      = (((((w (ix2 p q)).sshiftRight' sh &&& 15#32).toInt : ℝ) : EReal)
          - ((((z (ix2 (0 : Fin 1) q)).sshiftRight' sh &&& 15#32).toInt : ℝ) : EReal))
        * sc (ix2 (0 : Fin 1) ⟨128 * nb + q.val, hq⟩) := by
  subst hoff
  rw [shapeCast_self, truncf_apply, mulf_apply, subf_apply, broadcastTo_1b_ab_apply, broadcastTo_1b_ab_apply,
    extractStridedSlice_apply ![0, 128 * nb] sc hsl (ix2 (0 : Fin 1) q) (ix2 (0 : Fin 1) ⟨128 * nb + q.val, hq⟩)
      (fun a => match a with | ⟨0, _⟩ => rfl | ⟨1, _⟩ => rfl)]
  have e1 : IntOp.shrsi .vector (w (ix2 p q)) sh = (w (ix2 p q)).sshiftRight' sh := if_pos hsh
  have e2 : IntOp.shrsi .vector (z (ix2 (0 : Fin 1) q)) sh = (z (ix2 (0 : Fin 1) q)).sshiftRight' sh := if_pos hsh
  show ((((IntOp.andi (IntOp.shrsi .vector (w (ix2 p q)) sh) 15#32).toInt : ℝ) : EReal)
      - (((IntOp.andi (IntOp.shrsi .vector (z (ix2 (0 : Fin 1) q)) sh) 15#32).toInt : ℝ) : EReal)) * _ = _
  rw [e1, e2]
  rfl

/-- The cast of the weight rows to their own shape reads the same entry. -/
theorem pay6_apply (w : Vec Ideal S128x128 .i32) (p q : Fin 128) : k0_pay6 w (ix2 p q) = w (ix2 p q) := by
  unfold k0_pay6; rw [shapeCast_self]

/-- The zero row with its leading unit axis dropped reads entry `(0, 0, q)` at `(0, q)`. -/
theorem pay7_apply (z : Vec Ideal S1x1x128 .i32) (q : Fin 128) :
    k0_pay7 z (ix2 (0 : Fin 1) q) = z (ix3 (0 : Fin 1) (0 : Fin 1) q) := by
  unfold k0_pay7; exact shapeCast_1ab_ab_apply z _ _ _

/-- The scale row with its leading unit axis dropped reads entry `(0, 0, c)` at `(0, c)`. -/
theorem pay8_apply (s : Vec Ideal S1x1x1024 .f32) (c : Fin 1024) :
    k0_pay8 s (ix2 (0 : Fin 1) c) = s (ix3 (0 : Fin 1) (0 : Fin 1) c) := by
  unfold k0_pay8; exact shapeCast_1ab_ab_apply s _ _ _

/-- Field block `nb` at local entry `(p, q)`: (field `nb` of the weight word − field `nb` of the zero word) · the scale
    at column `128·nb + q`. The eight blocks differ only in the shift (the field's bit offset) and the scale slice. -/
theorem fieldBlock_apply (nb : Fin 8) (w : Vec Ideal S128x128 .i32) (z : Vec Ideal S1x1x128 .i32) (s : Vec Ideal S1x1x1024 .f32)
    (p q : Fin 128) :
    fieldBlock nb w z s (ix2 p q)
      = (Cert.Dequant.nibR (w (ix2 p q)) nb - Cert.Dequant.nibR (z (ix3 (0 : Fin 1) (0 : Fin 1) q)) nb)
        * s (ix3 (0 : Fin 1) (0 : Fin 1) ⟨128 * nb.val + q.val, by have := nb.isLt; have := q.isLt; omega⟩) := by
  match nb with
  | ⟨0, _⟩ =>
    show k0_pay9 w z s (ix2 p q) = _
    unfold k0_pay9
    refine (block_core (k0_pay6 w) (k0_pay7 z) (k0_pay8 s) 0#32 ![0, 0] slices_S1x1024_o0_0_S1x128 (by decide) 0 rfl p q
      (by have := q.isLt; omega)).trans ?_
    rw [pay6_apply, pay7_apply, pay8_apply]
    rfl
  | ⟨1, _⟩ =>
    show k0_pay13 (k0_pay10 s) (k0_pay11 w) (k0_pay12 z) (ix2 p q) = _
    unfold k0_pay13 k0_pay10 k0_pay11 k0_pay12
    refine (block_core (k0_pay6 w) (k0_pay7 z) (k0_pay8 s) 16#32 ![0, 128] slices_S1x1024_o0_128_S1x128 (by decide) 1 rfl p q
      (by have := q.isLt; omega)).trans ?_
    rw [pay6_apply, pay7_apply, pay8_apply]
    rfl
  | ⟨2, _⟩ =>
    show k0_pay14 (k0_pay6 w) (k0_pay7 z) (k0_pay8 s) (ix2 p q) = _
    unfold k0_pay14
    refine (block_core (k0_pay6 w) (k0_pay7 z) (k0_pay8 s) 4#32 ![0, 256] slices_S1x1024_o0_256_S1x128 (by decide) 2 rfl p q
      (by have := q.isLt; omega)).trans ?_
    rw [pay6_apply, pay7_apply, pay8_apply]
    rfl
  | ⟨3, _⟩ =>
    show k0_pay16 (k0_pay15 (k0_pay6 w) (k0_pay7 z) (k0_pay8 s)) (ix2 p q) = _
    unfold k0_pay16 k0_pay15
    refine (block_core (k0_pay6 w) (k0_pay7 z) (k0_pay8 s) 20#32 ![0, 384] slices_S1x1024_o0_384_S1x128 (by decide) 3 rfl p q
      (by have := q.isLt; omega)).trans ?_
    rw [pay6_apply, pay7_apply, pay8_apply]
    rfl
  | ⟨4, _⟩ =>
    show k0_pay17 (k0_pay6 w) (k0_pay7 z) (k0_pay8 s) (ix2 p q) = _
    unfold k0_pay17
    refine (block_core (k0_pay6 w) (k0_pay7 z) (k0_pay8 s) 8#32 ![0, 512] slices_S1x1024_o0_512_S1x128 (by decide) 4 rfl p q
      (by have := q.isLt; omega)).trans ?_
    rw [pay6_apply, pay7_apply, pay8_apply]
    rfl
  | ⟨5, _⟩ =>
    show k0_pay18 (k0_pay6 w) (k0_pay7 z) (k0_pay8 s) (ix2 p q) = _
    unfold k0_pay18
    refine (block_core (k0_pay6 w) (k0_pay7 z) (k0_pay8 s) 24#32 ![0, 640] slices_S1x1024_o0_640_S1x128 (by decide) 5 rfl p q
      (by have := q.isLt; omega)).trans ?_
    rw [pay6_apply, pay7_apply, pay8_apply]
    rfl
  | ⟨6, _⟩ =>
    show k0_pay2 (k0_pay7 z) (k0_pay8 s) (k0_pay19 (k0_pay6 w)) (ix2 p q) = _
    unfold k0_pay2 k0_pay19
    refine (block_core (k0_pay6 w) (k0_pay7 z) (k0_pay8 s) 12#32 ![0, 768] slices_S1x1024_o0_768_S1x128 (by decide) 6 rfl p q
      (by have := q.isLt; omega)).trans ?_
    rw [pay6_apply, pay7_apply, pay8_apply]
    rfl
  | ⟨7, _⟩ =>
    show k0_pay3 (k0_pay6 w) (k0_pay7 z) (k0_pay8 s) (ix2 p q) = _
    unfold k0_pay3
    refine (block_core (k0_pay6 w) (k0_pay7 z) (k0_pay8 s) 28#32 ![0, 896] slices_S1x1024_o0_896_S1x128 (by decide) 7 rfl p q
      (by have := q.isLt; omega)).trans ?_
    rw [pay6_apply, pay7_apply, pay8_apply]
    rfl
  | ⟨n + 8, h⟩ => exact absurd h (by omega)

/-- Group `g`'s weight rows at local entry `(p, q)` are the packed weights at row `128·g + p`, column `q`. -/
theorem rowsW_apply (x1 : Vec Ideal S1024x128 .i32) (g : Fin k0_t1_loop.trips) (p q : Fin 128) (r : Fin 1024)
    (hr : r.val = 128 * g.val + p.val) : rowsW x1 g (ix2 p q) = x1 (ix2 r q) := by
  refine congrArg x1 (Shape.idx_ext₂ ?_ ?_)
  · show k0_off1 g 0 + 1 * p.val = r.val
    rw [k0_off1_eq]; show 128 * g.val + 1 * p.val = r.val; omega
  · show k0_off1 g 1 + 1 * q.val = q.val
    rw [k0_off1_eq]; show 0 + 1 * q.val = q.val; omega

/-- Group `g`'s zero row at `(0, 0, q)` is the packed zeros at `(g, 0, q)`. -/
theorem rowZ_apply (x2 : Vec Ideal S8x1x128 .i32) (g : Fin k0_t1_loop.trips) (q : Fin 128) (g' : Fin 8) (hg : g'.val = g.val) :
    rowZ x2 g (ix3 (0 : Fin 1) (0 : Fin 1) q) = x2 (ix3 g' (0 : Fin 1) q) := by
  refine congrArg x2 (funext fun a => Fin.ext ?_)
  match a with
  | ⟨0, _⟩ => show k0_off2 g 0 + 1 * 0 = g'.val; rw [k0_off2_eq]; show g.val + 1 * 0 = g'.val; omega
  | ⟨1, _⟩ => show k0_off2 g 1 + 1 * 0 = 0; rw [k0_off2_eq]; rfl
  | ⟨2, _⟩ => show k0_off2 g 2 + 1 * q.val = q.val; rw [k0_off2_eq]; show 0 + 1 * q.val = q.val; omega

/-- Group `g`'s scale row at `(0, 0, c)` is the scales at `(g, 0, c)`. -/
theorem rowS_apply (x3 : Vec Ideal S8x1x1024 .f32) (g : Fin k0_t1_loop.trips) (c c' : Fin 1024) (hc : c'.val = c.val)
    (g' : Fin 8) (hg : g'.val = g.val) :
    rowS x3 g (ix3 (0 : Fin 1) (0 : Fin 1) c) = x3 (ix3 g' (0 : Fin 1) c') := by
  refine congrArg x3 (funext fun a => Fin.ext ?_)
  match a with
  | ⟨0, _⟩ => show k0_off3 g 0 + 1 * 0 = g'.val; rw [k0_off3_eq]; show g.val + 1 * 0 = g'.val; omega
  | ⟨1, _⟩ => show k0_off3 g 1 + 1 * 0 = 0; rw [k0_off3_eq]; rfl
  | ⟨2, _⟩ => show k0_off3 g 2 + 1 * c.val = c'.val; rw [k0_off3_eq]; show 0 + 1 * c.val = c'.val; omega

/-- The weight tile at `(r, cb)`: field `cb / 128` of the weight word at `(r, cb mod 128)` minus the same field of the
    zero word of group `r / 128`, times that group's scale at column `cb`. -/
theorem Wof_apply (x1 : Vec Ideal S1024x128 .i32) (x2 : Vec Ideal S8x1x128 .i32) (x3 : Vec Ideal S8x1x1024 .f32) (r : Fin 1024) (cb : Fin 1024) :
    Wof (F := Ideal) x1 x2 x3 (ix2 r cb)
      = (Cert.Dequant.nibR (x1 (ix2 r ⟨cb.val % 128, Nat.mod_lt _ (by decide)⟩)) ⟨cb.val / 128, by have := cb.isLt; omega⟩
          - Cert.Dequant.nibR (x2 (ix3 ⟨r.val / 128, by have := r.isLt; omega⟩ (0 : Fin 1) ⟨cb.val % 128, Nat.mod_lt _ (by decide)⟩)) ⟨cb.val / 128, by have := cb.isLt; omega⟩)
        * x3 (ix3 ⟨r.val / 128, by have := r.isLt; omega⟩ (0 : Fin 1) cb) := by
  have hr := r.isLt
  have hcb := cb.isLt
  have hg : r.val / 128 < k0_t1_loop.trips := by rw [trips_eq]; omega
  show fieldBlock ⟨cb.val / 128, by omega⟩ (rowsW x1 ⟨r.val / 128, hg⟩) (rowZ x2 ⟨r.val / 128, hg⟩) (rowS x3 ⟨r.val / 128, hg⟩)
      (ix2 (⟨r.val % 128, Nat.mod_lt _ (by decide)⟩ : Fin 128) (⟨cb.val % 128, Nat.mod_lt _ (by decide)⟩ : Fin 128)) = _
  rw [fieldBlock_apply,
    rowsW_apply x1 ⟨r.val / 128, hg⟩ _ _ r (by show r.val = 128 * (r.val / 128) + r.val % 128; omega),
    rowZ_apply x2 ⟨r.val / 128, hg⟩ _ ⟨r.val / 128, by omega⟩ rfl,
    rowS_apply x3 ⟨r.val / 128, hg⟩ _ cb (by show cb.val = 128 * (cb.val / 128) + cb.val % 128; omega) ⟨r.val / 128, by omega⟩ rfl]

end Cert.KernelIdeal.HandValue
end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KIArray.lean ====
/-
  The output array after the kernel region is the layer in blocked column order over the arrays the region finds.

  The grid is 4 × 11 × 4 with the contraction (K) axis last: point `44·i + 4·j + s` is K step `s` of output block
  `(i, j)` (rows `512·i …`, blocked columns `1024·j …`). The output block is written back at the last K step only. What
  it then holds, at `(p, q)`, is the four steps' partial sums plus the bias row. Step `s` sums, over the 1024 rows
  `1024·s + kk` of the weight matrix, the activation at `(512·i + p, 1024·s + kk)` times the weight tile's entry, which
  read through the windows' blocks is the blocked weight at `(1024·s + kk, 1024·j + q)`: blocked column `1024·j + q`
  reads packed column `128·j + q % 128`, field `q / 128`, and row `1024·s + kk` belongs to group `8·s + kk / 128`. The
  four sums of 1024 consecutive rows are the sum over all 4096 rows. Every index of the output lies in the block of
  exactly such a last step, so the array ends holding the layer everywhere.
-/
import proofs.«415671_j19009525252581_4_alg».proof.Proof.KIAccum
import proofs.«415671_j19009525252581_4_alg».proof.Proof.KIBlocks
import proofs.«415671_j19009525252581_4_alg».proof.Proof.KIWeights
import proofs.«415671_j19009525252581_4_alg».proof.Proof.Dequant
import proofs.«415671_j19009525252581_4_alg».proof.Proof.LibSumBlocks
import Idealize.ShloMosaic.Lib.ValueIdx
import Idealize.ShloMosaic.Lib.Pipeline.Value

set_option maxRecDepth 16384

noncomputable section

namespace Cert.KernelIdeal.HandValue

open Idealize.ShloMosaic Idealize.ShloMosaic.TcCoe Idealize.SL.Sem
open Idealize.ShloMosaic.Pipeline (Dat Cfg Window)
open Cert.KernelIdeal Cert.KernelIdeal.Gen Cert.KernelIdeal.Hand Idealize.ShloMosaic.ValueIdx
open Cert.Dequant (weightBlocked linearBlocked packedColB fieldB groupOf)
open Cert.LibSumBlocks (sum_blocks)

/-! ## One K step over the region-entry arrays -/

variable (m : (ℓ : Loc nD τ sig) → Buf (Elt Ideal) ℓ)

/-- The grid has 176 points. -/
theorem N_eq : cfg0.N = 176 := N_0

/-- The activations as the region finds them, as a function into the extended reals. -/
abbrev actIn (c : Dev nD) : S2048x4096.Idx → EReal := V m c main_arg0
/-- The blocked bias row as the region finds it. -/
abbrev biasIn (c : Dev nD) : S1x11264.Idx → EReal := V m c main_v12

/-- K step `s` of output block `(i, j)`, at `(p, q)` of the block: the partial sum over rows
    `1024·s … 1024·s + 1023` of the weight matrix, of activations row `512·i + p` times the blocked weight at
    column `1024·j + q`. -/
theorem stepTerm_eq (c : Dev nD) (i : Fin 4) (j : Fin 11) (s : Fin 4) (p : Fin 512) (q : Fin 1024) :
    stepTerm m c (44 * i.val + 4 * j.val + s.val) p q
      = ∑ kk : Fin 1024, actIn m c (ix2 (⟨512 * i.val + p.val, by omega⟩ : Fin 2048) (⟨1024 * s.val + kk.val, by omega⟩ : Fin 4096))
          * weightBlocked (V m c main_v0) (V m c main_v2) (V m c main_v7) (⟨1024 * s.val + kk.val, by omega⟩ : Fin 4096)
              (⟨1024 * j.val + q.val, by omega⟩ : Fin 11264) := by
  have hn : 44 * i.val + 4 * j.val + s.val < cfg0.N := lt_of_lt_of_eq (by omega) N_eq.symm
  rw [stepTerm_of_lt m c _ hn p q, tileProd_def]
  refine Finset.sum_congr rfl fun kk _ => ?_
  have hq := q.isLt
  have hkk := kk.isLt
  rw [iblk0_apply m c ⟨_, hn⟩ i j s rfl p kk, Wof_apply,
    iblk1_apply m c ⟨_, hn⟩ i j s rfl kk ⟨q.val % 128, Nat.mod_lt _ (by decide)⟩,
    iblk2_apply m c ⟨_, hn⟩ i j s rfl ⟨kk.val / 128, by omega⟩ ⟨q.val % 128, Nat.mod_lt _ (by decide)⟩,
    iblk3_apply m c ⟨_, hn⟩ i j s rfl ⟨kk.val / 128, by omega⟩ q]
  unfold weightBlocked
  have e1 : packedColB (⟨1024 * j.val + q.val, by omega⟩ : Fin 11264) = (⟨128 * j.val + q.val % 128, by omega⟩ : Fin 1408) :=
    Fin.ext (by show (1024 * j.val + q.val) / 1024 * 128 + (1024 * j.val + q.val) % 128 = 128 * j.val + q.val % 128; omega)
  have e2 : fieldB (⟨1024 * j.val + q.val, by omega⟩ : Fin 11264) = (⟨q.val / 128, by omega⟩ : Fin 8) :=
    Fin.ext (by show (1024 * j.val + q.val) % 1024 / 128 = q.val / 128; omega)
  have e3 : groupOf (⟨1024 * s.val + kk.val, by omega⟩ : Fin 4096) = (⟨8 * s.val + kk.val / 128, by omega⟩ : Fin 32) :=
    Fin.ext (by show (1024 * s.val + kk.val) / 128 = 8 * s.val + kk.val / 128; omega)
  rw [e1, e2, e3]
  all_goals rfl

/-! ## What a flushing point writes back -/

/-- At the last K step of output block `(i, j)` the staging buffer holds the layer's block: the four partial sums
    are the sum over all 4096 rows, and the bias row is the blocked bias at the block's columns. -/
theorem block_value (c : Dev nD) (t : Fin cfg0.N) (i : Fin 4) (j : Fin 11) (ht : t.val = 44 * i.val + 4 * j.val + 3)
    (p : Fin 512) (q : Fin 1024) :
    out5At m c t.val t.isLt (ix2 p q)
      = linearBlocked (V m c main_arg0) (V m c main_v0) (V m c main_v2) (V m c main_v7) (V m c main_v12)
          (ix2 (⟨512 * i.val + p.val, by omega⟩ : Fin 2048) (⟨1024 * j.val + q.val, by omega⟩ : Fin 11264)) := by
  rw [out5At_last m c t (by omega) p q, zero_add, Finset.sum_range, iblk4_apply m c t i j 3 ht q]
  show _ = (∑ k : Fin 4096, actIn m c (ix2 (⟨512 * i.val + p.val, by omega⟩ : Fin 2048) k)
      * weightBlocked (V m c main_v0) (V m c main_v2) (V m c main_v7) k (⟨1024 * j.val + q.val, by omega⟩ : Fin 11264))
    + biasIn m c (ix2 (0 : Fin 1) (⟨1024 * j.val + q.val, by omega⟩ : Fin 11264))
  refine congrArg (· + biasIn m c (ix2 (0 : Fin 1) (⟨1024 * j.val + q.val, by omega⟩ : Fin 11264))) ?_
  refine Eq.trans ?_ (sum_blocks (A := 4) (B := 1024) (N := 4096) rfl _)
  refine Finset.sum_congr rfl fun s _ => ?_
  have hs : 4 * (t.val / 4) + (s : Fin 4).val = 44 * i.val + 4 * j.val + s.val := by omega
  rw [hs, stepTerm_eq m c i j s p q]

/-- What a flushing point writes back is its block of the layer in blocked order. -/
theorem flushed_eq (c : Dev nD) (t : Fin cfg0.N) (hf : (cfg0.win 5).flush t = true) :
    (dats m 0 c).flushed 5 t = ((cfg0.win 5).blk t).view.read (Elt Ideal)
      (linearBlocked (V m c main_arg0) (V m c main_v0) (V m c main_v2) (V m c main_v7) (V m c main_v12)) := by
  have h3 : t.val % 4 = 3 := (flush0_5 t).mp hf
  have hN : t.val < 176 := lt_of_lt_of_eq t.isLt N_eq
  show (cfg0.win 5).cut (grid0.coords t) ((dats m 0 c).after 5 t) = _
  rw [after0_5]
  funext y
  obtain ⟨p, q, rfl⟩ : ∃ (p : Fin 512) (q : Fin 1024), y = ix2 p q := ⟨y 0, y 1, eq_ix2 y⟩
  show out5At m c t.val t.isLt (ix2 p q)
    = linearBlocked (V m c main_arg0) (V m c main_v0) (V m c main_v2) (V m c main_v7) (V m c main_v12)
        (((cfg0.win 5).blk t).view.emb (ix2 p q : S512x1024.Idx))
  rw [out_emb c t ⟨t.val / 44, by omega⟩ ⟨t.val / 4 % 11, Nat.mod_lt _ (by decide)⟩ 3
    (by show t.val = 44 * (t.val / 44) + 4 * (t.val / 4 % 11) + 3; omega) p q]
  exact block_value m c t ⟨t.val / 44, by omega⟩ ⟨t.val / 4 % 11, Nat.mod_lt _ (by decide)⟩
    (by show t.val = 44 * (t.val / 44) + 4 * (t.val / 4 % 11) + 3; omega) p q

/-- Every index of the output lies in the block of the last K step of its output block. -/
theorem cover (c : Dev nD) (y : S2048x11264.Idx) :
    ∃ t : Fin cfg0.N, (cfg0.win 5).flush t = true ∧ y ∈ ((cfg0.win 5).blk t).view.set := by
  have h0 : (y 0).val < 2048 := (y 0).isLt
  have h1 : (y 1).val < 11264 := (y 1).isLt
  have hlt : 44 * ((y 0).val / 512) + 4 * ((y 1).val / 1024) + 3 < cfg0.N := lt_of_lt_of_eq (by omega) N_eq.symm
  refine ⟨⟨44 * ((y 0).val / 512) + 4 * ((y 1).val / 1024) + 3, hlt⟩, (flush0_5 _).mpr (by show (44 * ((y 0).val / 512) + 4 * ((y 1).val / 1024) + 3) % 4 = 3; omega), ?_⟩
  exact (out_mem_iff c ⟨_, hlt⟩ ⟨(y 0).val / 512, by omega⟩ ⟨(y 1).val / 1024, by omega⟩ 3 rfl y).mpr ⟨rfl, rfl⟩

/-! ## The array after the region -/

/-- The output array after the kernel region is the layer in blocked order over the region-entry arrays. -/
theorem arr_out (c : Dev nD) :
    ((dats m 0 c).arrAt 5 cfg0.N : S2048x11264.Idx → EReal)
      = linearBlocked (V m c main_arg0) (V m c main_v0) (V m c main_v2) (V m c main_v7) (V m c main_v12) :=
  (dats m 0 c).arrAt_eq_of_cover 5 _ (fun t hf => flushed_eq m c t hf) (cover c)

end Cert.KernelIdeal.HandValue

end
-- ==== Proof.KITail.lean ====
/-
  The host operations after the kernel region, read at an index.

  After the region the program regroups the columns of the region's result (2048 rows, 11264 columns in blocked order):
  it splits the columns as (tile, field, packed column) = [11, 8, 128], swaps the last two axes to
  (tile, packed column, field) = [11, 128, 8], flattens again, and keeps the first 11008 columns. Final column
  n = 1024·t + 8·c + f therefore reads blocked column 1024·t + 128·f + c = blockedOf n of the region's result.
-/
import proofs.«415671_j19009525252581_4_alg».proof.Proof.Gen.KernelIdeal.Frame.Runs
import proofs.«415671_j19009525252581_4_alg».proof.Proof.Dequant
import Idealize.ShloMosaic.Lib.ValueIdx
import Idealize.ShloMosaic.Lib.Pipeline.Value
import Idealize.ShloMosaic.Lib.Pipeline.FrameSuffix
import Idealize.ShloMosaic.Lib.StableHlo.Run

noncomputable section

namespace Cert.KernelIdeal.HandValue

open Idealize.ShloMosaic Idealize.ShloMosaic.ValueIdx
open Cert.KernelIdeal Cert.KernelIdeal.Gen

/-! ## The four layout operations, composed, read at an index (no program in sight) -/

/-- The regrouping of the columns, over any entry type: split, swap the two inner axes, flatten, keep 11008 columns. -/
def regroup {α : Type} (h1 : S2048x11264.ShapeCasts S2048x11x8x128)
    (h2 : S2048x11x8x128.Transposes [0, 1, 3, 2] S2048x11x128x8) (h3 : S2048x11x128x8.ShapeCasts S2048x11264)
    (h4 : S2048x11264.Slices ![0, 0] S2048x11008) (A : S2048x11264.Idx → α) : S2048x11008.Idx → α :=
  extractStridedSlice S2048x11008 ![0, 0] (shapeCast S2048x11264 (transpose S2048x11x128x8 [0, 1, 3, 2]
    (shapeCast S2048x11x8x128 A h1) h2) h3) h4

/-- Final column `1024·t + 8·c + f` of the regrouped array is blocked column `1024·t + 128·f + c` of the operand. -/
theorem regroup_split {α : Type} (h1 : S2048x11264.ShapeCasts S2048x11x8x128)
    (h2 : S2048x11x8x128.Transposes [0, 1, 3, 2] S2048x11x128x8) (h3 : S2048x11x128x8.ShapeCasts S2048x11264)
    (h4 : S2048x11264.Slices ![0, 0] S2048x11008) (A : S2048x11264.Idx → α) (r : Fin 2048)
    (t c f : ℕ) (ht : t < 11) (hc : c < 128) (hf : f < 8) (hn : 1024 * t + 8 * c + f < 11008) :
    regroup h1 h2 h3 h4 A (ix2 r (⟨1024 * t + 8 * c + f, hn⟩ : Fin 11008))
      = A (ix2 r (⟨1024 * t + 128 * f + c, by omega⟩ : Fin 11264)) := by
  unfold regroup
  -- the slice starts at the origin: same coordinates in the wider array
  refine (extractStridedSlice_apply ![0, 0] _ h4 _ (ix2 r (⟨1024 * t + 8 * c + f, by omega⟩ : Fin 11264))
    (fun a => match a with | ⟨0, _⟩ => by show r.val = 0 + r.val; omega | ⟨1, _⟩ => by show 1024 * t + 8 * c + f = 0 + (1024 * t + 8 * c + f); omega)).trans ?_
  -- flattening [11, 128, 8]: column 1024·t + 8·c + f is (t, c, f)
  refine (shapeCast_apply _ h3 _ (ix4 r (⟨t, ht⟩ : Fin 11) (⟨c, hc⟩ : Fin 128) (⟨f, hf⟩ : Fin 8))
    (by rw [Shape.rowMajor_val_four, Shape.rowMajor_val_two]
        show ((r.val * 11 + t) * 128 + c) * 8 + f = r.val * 11264 + (1024 * t + 8 * c + f)
        omega)).trans ?_
  -- the swap of the two inner axes: (t, c, f) reads (t, f, c)
  refine (transpose_apply [0, 1, 3, 2] _ h2 _ (ix4 r (⟨t, ht⟩ : Fin 11) (⟨f, hf⟩ : Fin 8) (⟨c, hc⟩ : Fin 128))
    (fun b => match b with | ⟨0, _⟩ => rfl | ⟨1, _⟩ => rfl | ⟨2, _⟩ => rfl | ⟨3, _⟩ => rfl)).trans ?_
  -- splitting [11, 8, 128]: (t, f, c) is column 1024·t + 128·f + c
  exact shapeCast_apply _ h1 _ (ix2 r (⟨1024 * t + 128 * f + c, by omega⟩ : Fin 11264))
    (by rw [Shape.rowMajor_val_two, Shape.rowMajor_val_four]
        show r.val * 11264 + (1024 * t + 128 * f + c) = ((r.val * 11 + t) * 8 + f) * 128 + c
        omega)

/-- Final column `n` of the regrouped array is blocked column `blockedOf n` of the operand. -/
theorem regroup_apply {α : Type} (h1 : S2048x11264.ShapeCasts S2048x11x8x128)
    (h2 : S2048x11x8x128.Transposes [0, 1, 3, 2] S2048x11x128x8) (h3 : S2048x11x128x8.ShapeCasts S2048x11264)
    (h4 : S2048x11264.Slices ![0, 0] S2048x11008) (A : S2048x11264.Idx → α) (r : Fin 2048) (n : Fin 11008) :
    regroup h1 h2 h3 h4 A (ix2 r n)
      = A (ix2 r (⟨Cert.Dequant.blockedOf n.val, Cert.Dequant.blockedOf_lt (by have := n.isLt; omega)⟩ : Fin 11264)) := by
  -- name the tile, the packed column inside the tile and the field of column n
  obtain ⟨t, c, f, hc, hf, hn⟩ := Cert.Dequant.col_split n.val
  have hlt := n.isLt
  have ht : t < 11 := by omega
  have hn' : 1024 * t + 8 * c + f < 11008 := by omega
  obtain rfl : n = ⟨1024 * t + 8 * c + f, hn'⟩ := Fin.ext hn
  rw [regroup_split h1 h2 h3 h4 A r t c f ht hc hf hn']
  exact congrArg A (congrArg (ix2 r) (Fin.ext (Cert.Dequant.blockedOf_split t c f hc hf).symm))

/-! ## The program's tail -/

variable {F : FTy → Type} [FloatOps F] (m : (ℓ : Loc nD τ sig) → Buf (Elt F) ℓ)

theorem tail_eq (dats : (p : Fin 1) → (c : Dev nD) → Pipeline.Dat τ (Elt F) Unit ℕ (UR sig nD τ) ℕ (cfgs p) c) (c : Dev nD) :
    Pipeline.afterTail₀ cfgs dats 0 (V0 m) [hostOps1] c main_v17
      = regroup shapeCasts_S2048x11264_S2048x11x8x128 transposes_S2048x11x8x128_S2048x11x128x8_0_1_3_2
          shapeCasts_S2048x11x128x8_S2048x11264 slices_S2048x11264_S2048x11008_0_0
          ((dats 0 c).arrAt 5 cfg0.N : S2048x11264.Idx → Elt F .f32) := by
  unfold Pipeline.afterTail₀
  show StableHlo.after hostOps1 _ (Proc.devRef .tc main_v17) = _
  after_results
  have hA : Pipeline.withArrays (cfgs 0).spec c (V0 m c) (fun w => (dats 0 c).arrAt w (cfgs 0).N) (Proc.devRef .tc main_v13)
      = (dats 0 c).arrAt 5 cfg0.N := Pipeline.withArrays_arr spec0 launch0.win.arr_inj c _ _ 5
  rw [hA]
  rfl

/-- The program's result at row `r`, final column `n`: the region's result at row `r`, blocked column `blockedOf n`. -/
theorem tail_apply (dats : (p : Fin 1) → (c : Dev nD) → Pipeline.Dat τ (Elt F) Unit ℕ (UR sig nD τ) ℕ (cfgs p) c) (c : Dev nD)
    (r : Fin 2048) (n : Fin 11008) :
    Pipeline.afterTail₀ cfgs dats 0 (V0 m) [hostOps1] c main_v17 (ix2 r n)
      = ((dats 0 c).arrAt 5 cfg0.N : S2048x11264.Idx → Elt F .f32)
          (ix2 r ⟨Cert.Dequant.blockedOf n.val, Cert.Dequant.blockedOf_lt (by have := n.isLt; omega)⟩) :=
  (congrFun (tail_eq m dats c) (ix2 r n)).trans (regroup_apply _ _ _ _ _ r n)

end Cert.KernelIdeal.HandValue

end
-- ==== Proof.KIHostIn.lean ====
/-
  The arrays the kernel region finds on entry, as index functions of the program's arguments.

  Before the region the host pads each quantised array on its last axis with zeros (the packed columns 1376 → 1408, the
  logical columns 11008 → 11264 = 11 · 1024), and regroups the columns of the scales and of the bias tile by tile: a
  tile of 1024 columns, seen as 128 packed columns of 8 fields, is transposed to 8 sub-blocks of 128, so that blocked
  position `1024·t + 128·j + c` holds final column `1024·t + 8·c + j`. Each array is first read back as the
  composed term of the operations that wrote it, for any float values; then the term is read at an index, the
  reshapes by their row-major positions, the transpose by its permutation, the pad by whether the column is inside
  the operand. At the ideal values the padding value, the integer zero converted, is the real zero.
-/
import proofs.«415671_j19009525252581_4_alg».proof.Proof.Gen.KernelIdeal.Frame.Runs
import proofs.«415671_j19009525252581_4_alg».proof.Proof.Dequant
import Idealize.ShloMosaic.Lib.StableHlo.Run
import Idealize.ShloMosaic.Lib.ValueIdx
import Idealize.ShloMosaic.Lib.KernelVsHost
import Idealize.ShloMosaic.Lib.Pipeline.Value

noncomputable section

namespace Cert.KernelIdeal.HostIn

open Cert.KernelIdeal Cert.KernelIdeal.Gen Idealize.ShloMosaic Idealize.ShloMosaic.TcCoe Idealize.SL.Sem
open Idealize.ShloMosaic.StableHlo Idealize.ShloMosaic.ValueIdx
open Cert.Dequant (finalOf finalOf_lt)

/-! ## The arrays as the operations' composed terms -/

section Terms
variable {F : FTy → Type} [FloatOps F]
variable (m : (ℓ : Loc nD τ sig) → Buf (Elt F) ℓ)

/-- The weight words, padded to 1408 packed columns. -/
theorem qwp_term (c : Dev nD) :
    (V m c main_v0 : (⟨S4096x1408, .i32⟩ : BufTy).Contents (Elt F))
      = pad S4096x1408 ![0, 0] ![0, 32] ![0, 0] (m ((c : Thread nD τ).loc main_arg1)) (constantI S_ 32 0#32)
          pads_S4096x1376_S4096x1408_000_0320 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- The zero-point words, padded to 1408 packed columns, with a unit axis between group and column. -/
theorem qzp_term (c : Dev nD) :
    (V m c main_v2 : (⟨S32x1x1408, .i32⟩ : BufTy).Contents (Elt F))
      = shapeCast S32x1x1408
          (pad S32x1408 ![0, 0] ![0, 32] ![0, 0] (m ((c : Thread nD τ).loc main_arg2)) (constantI S_ 32 0#32)
            pads_S32x1376_S32x1408_000_0320 h_S_)
          shapeCasts_S32x1408_S32x1x1408 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- The scales, padded to 11264 columns and regrouped tile by tile, with a unit axis between group and column. -/
theorem scb_term (c : Dev nD) :
    (V m c main_v7 : (⟨S32x1x11264, .f32⟩ : BufTy).Contents (Elt F))
      = shapeCast S32x1x11264
          (shapeCast S32x11264
            (transpose S32x11x8x128 [0, 1, 3, 2]
              (shapeCast S32x11x128x8
                (pad S32x11264 ![0, 0] ![0, 256] ![0, 0] (m ((c : Thread nD τ).loc main_arg3))
                  (sitofp (F := F) .f32 (constantI S_ 32 0#32)) pads_S32x11008_S32x11264_000_02560 h_S_)
                shapeCasts_S32x11264_S32x11x128x8)
              transposes_S32x11x128x8_S32x11x8x128_0_1_3_2)
            shapeCasts_S32x11x8x128_S32x11264)
          shapeCasts_S32x11264_S32x1x11264 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

/-- The bias, padded to 11264 columns and regrouped tile by tile, as one row. -/
theorem bb_term (c : Dev nD) :
    (V m c main_v12 : (⟨S1x11264, .f32⟩ : BufTy).Contents (Elt F))
      = shapeCast S1x11264
          (shapeCast S11264
            (transpose S11x8x128 [0, 2, 1]
              (shapeCast S11x128x8
                (pad S11264 ![0] ![256] ![0] (m ((c : Thread nD τ).loc main_arg4))
                  (sitofp (F := F) .f32 (constantI S_ 32 0#32)) pads_S11008_S11264_02560 h_S_)
                shapeCasts_S11264_S11x128x8)
              transposes_S11x128x8_S11x8x128_0_2_1)
            shapeCasts_S11x8x128_S11264)
          shapeCasts_S11264_S1x11264 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

end Terms

/-! ## The pads at an index -/

section Pads
variable {α : Type}

/-- The rank-0 shape has one index. -/
theorem first_eq_ix0 (hu : 0 < S_.numel) : Shape.Idx.first hu = ix0 := funext fun a => a.elim0

/-- Rows of 1376 padded to 1408: the operand inside, the padding value in the last 32 columns. -/
theorem pad_qw_apply (x : S4096x1376.Idx → α) (v : S_.Idx → α) (k : Fin 4096) (cp : Fin 1408) :
    pad S4096x1408 ![0, 0] ![0, 32] ![0, 0] x v pads_S4096x1376_S4096x1408_000_0320 h_S_ (ix2 k cp)
      = if h : cp.val < 1376 then x (ix2 k ⟨cp.val, h⟩) else v ix0 := by
  by_cases h : cp.val < 1376
  · rw [dif_pos h]
    exact pad_apply_of_inside _ _ _ x v _ _ (ix2 k cp) (ix2 k ⟨cp.val, h⟩) (fun a => match a with
      | ⟨0, _⟩ => by show k.val = 0 + k.val * (0 + 1); omega
      | ⟨1, _⟩ => by show cp.val = 0 + cp.val * (0 + 1); omega)
  · rw [dif_neg h, pad_apply_of_not_inside _ _ _ x v _ _ (ix2 k cp) (1 : Fin 2) (by
      show ¬(0 ≤ cp.val ∧ (cp.val - 0) % (0 + 1) = 0 ∧ (cp.val - 0) / (0 + 1) < 1376); omega), first_eq_ix0]

theorem pad_qz_apply (x : S32x1376.Idx → α) (v : S_.Idx → α) (g : Fin 32) (cp : Fin 1408) :
    pad S32x1408 ![0, 0] ![0, 32] ![0, 0] x v pads_S32x1376_S32x1408_000_0320 h_S_ (ix2 g cp)
      = if h : cp.val < 1376 then x (ix2 g ⟨cp.val, h⟩) else v ix0 := by
  by_cases h : cp.val < 1376
  · rw [dif_pos h]
    exact pad_apply_of_inside _ _ _ x v _ _ (ix2 g cp) (ix2 g ⟨cp.val, h⟩) (fun a => match a with
      | ⟨0, _⟩ => by show g.val = 0 + g.val * (0 + 1); omega
      | ⟨1, _⟩ => by show cp.val = 0 + cp.val * (0 + 1); omega)
  · rw [dif_neg h, pad_apply_of_not_inside _ _ _ x v _ _ (ix2 g cp) (1 : Fin 2) (by
      show ¬(0 ≤ cp.val ∧ (cp.val - 0) % (0 + 1) = 0 ∧ (cp.val - 0) / (0 + 1) < 1376); omega), first_eq_ix0]

/-- Rows of 11008 padded to 11264. -/
theorem pad_sc_apply (x : S32x11008.Idx → α) (v : S_.Idx → α) (g : Fin 32) (n : Fin 11264) :
    pad S32x11264 ![0, 0] ![0, 256] ![0, 0] x v pads_S32x11008_S32x11264_000_02560 h_S_ (ix2 g n)
      = if h : n.val < 11008 then x (ix2 g ⟨n.val, h⟩) else v ix0 := by
  by_cases h : n.val < 11008
  · rw [dif_pos h]
    exact pad_apply_of_inside _ _ _ x v _ _ (ix2 g n) (ix2 g ⟨n.val, h⟩) (fun a => match a with
      | ⟨0, _⟩ => by show g.val = 0 + g.val * (0 + 1); omega
      | ⟨1, _⟩ => by show n.val = 0 + n.val * (0 + 1); omega)
  · rw [dif_neg h, pad_apply_of_not_inside _ _ _ x v _ _ (ix2 g n) (1 : Fin 2) (by
      show ¬(0 ≤ n.val ∧ (n.val - 0) % (0 + 1) = 0 ∧ (n.val - 0) / (0 + 1) < 11008); omega), first_eq_ix0]

/-- A vector of 11008 padded to 11264. -/
theorem pad_b_apply (x : S11008.Idx → α) (v : S_.Idx → α) (n : Fin 11264) :
    pad S11264 ![0] ![256] ![0] x v pads_S11008_S11264_02560 h_S_ (ix1 n)
      = if h : n.val < 11008 then x (ix1 ⟨n.val, h⟩) else v ix0 := by
  by_cases h : n.val < 11008
  · rw [dif_pos h]
    exact pad_apply_of_inside _ _ _ x v _ _ (ix1 n) (ix1 ⟨n.val, h⟩) (fun a => match a with
      | ⟨0, _⟩ => by show n.val = 0 + n.val * (0 + 1); omega)
  · rw [dif_neg h, pad_apply_of_not_inside _ _ _ x v _ _ (ix1 n) (0 : Fin 1) (by
      show ¬(0 ≤ n.val ∧ (n.val - 0) % (0 + 1) = 0 ∧ (n.val - 0) / (0 + 1) < 11008); omega), first_eq_ix0]

end Pads

/-! ## The tile-by-tile regrouping at an index -/

section Blocked
variable {α : Type}

/-- The tile, the sub-block (field number) and the place inside the sub-block of a blocked position. -/
def tileOf (cb : Fin 11264) : Fin 11 := ⟨cb.val / 1024, by have := cb.isLt; omega⟩
def subOf (cb : Fin 11264) : Fin 8 := ⟨cb.val % 1024 / 128, by omega⟩
def inSub (cb : Fin 11264) : Fin 128 := ⟨cb.val % 128, Nat.mod_lt _ (by decide)⟩
/-- The final column a blocked position holds. -/
def finalIdx (cb : Fin 11264) : Fin 11264 := ⟨finalOf cb.val, finalOf_lt cb.isLt⟩

/-- Rows `[32, 11264]` regrouped: blocked position `cb` of group `g` reads final column `finalOf cb`. -/
theorem blockedRows_apply (P : S32x11264.Idx → α) (g : Fin 32) (cb : Fin 11264) :
    shapeCast S32x1x11264
      (shapeCast S32x11264
        (transpose S32x11x8x128 [0, 1, 3, 2]
          (shapeCast S32x11x128x8 P shapeCasts_S32x11264_S32x11x128x8)
          transposes_S32x11x128x8_S32x11x8x128_0_1_3_2)
        shapeCasts_S32x11x8x128_S32x11264)
      shapeCasts_S32x11264_S32x1x11264 (ix3 g (0 : Fin 1) cb) = P (ix2 g (finalIdx cb)) := by
  have hcb := cb.isLt
  rw [shapeCast_apply _ shapeCasts_S32x11264_S32x1x11264 (ix3 g (0 : Fin 1) cb) (ix2 g cb) (by
        rw [Shape.rowMajor_val_three, Shape.rowMajor_val_two]
        show g.val * 11264 + cb.val = (g.val * 1 + 0) * 11264 + cb.val
        omega),
      shapeCast_apply _ shapeCasts_S32x11x8x128_S32x11264 (ix2 g cb) (ix4 g (tileOf cb) (subOf cb) (inSub cb)) (by
        rw [Shape.rowMajor_val_four, Shape.rowMajor_val_two]
        show ((g.val * 11 + cb.val / 1024) * 8 + cb.val % 1024 / 128) * 128 + cb.val % 128 = g.val * 11264 + cb.val
        omega),
      transpose_apply _ _ transposes_S32x11x128x8_S32x11x8x128_0_1_3_2 (ix4 g (tileOf cb) (subOf cb) (inSub cb))
        (ix4 g (tileOf cb) (inSub cb) (subOf cb))
        (fun b => match b with | ⟨0, _⟩ => rfl | ⟨1, _⟩ => rfl | ⟨2, _⟩ => rfl | ⟨3, _⟩ => rfl),
      shapeCast_apply _ shapeCasts_S32x11264_S32x11x128x8 (ix4 g (tileOf cb) (inSub cb) (subOf cb)) (ix2 g (finalIdx cb)) (by
        rw [Shape.rowMajor_val_four, Shape.rowMajor_val_two]
        show g.val * 11264 + finalOf cb.val = ((g.val * 11 + cb.val / 1024) * 128 + cb.val % 128) * 8 + cb.val % 1024 / 128
        unfold finalOf
        omega)]

/-- A vector `[11264]` regrouped and laid as one row. -/
theorem blockedVec_apply (P : S11264.Idx → α) (cb : Fin 11264) :
    shapeCast S1x11264
      (shapeCast S11264
        (transpose S11x8x128 [0, 2, 1]
          (shapeCast S11x128x8 P shapeCasts_S11264_S11x128x8)
          transposes_S11x128x8_S11x8x128_0_2_1)
        shapeCasts_S11x8x128_S11264)
      shapeCasts_S11264_S1x11264 (ix2 (0 : Fin 1) cb) = P (ix1 (finalIdx cb)) := by
  have hcb := cb.isLt
  rw [shapeCast_apply _ shapeCasts_S11264_S1x11264 (ix2 (0 : Fin 1) cb) (ix1 cb) (by
        rw [Shape.rowMajor_val_two, Shape.rowMajor_val_one]
        show cb.val = 0 * 11264 + cb.val
        omega),
      shapeCast_apply _ shapeCasts_S11x8x128_S11264 (ix1 cb) (ix3 (tileOf cb) (subOf cb) (inSub cb)) (by
        rw [Shape.rowMajor_val_three, Shape.rowMajor_val_one]
        show (cb.val / 1024 * 8 + cb.val % 1024 / 128) * 128 + cb.val % 128 = cb.val
        omega),
      transpose_apply _ _ transposes_S11x128x8_S11x8x128_0_2_1 (ix3 (tileOf cb) (subOf cb) (inSub cb))
        (ix3 (tileOf cb) (inSub cb) (subOf cb))
        (fun b => match b with | ⟨0, _⟩ => rfl | ⟨1, _⟩ => rfl | ⟨2, _⟩ => rfl),
      shapeCast_apply _ shapeCasts_S11264_S11x128x8 (ix3 (tileOf cb) (inSub cb) (subOf cb)) (ix1 (finalIdx cb)) (by
        rw [Shape.rowMajor_val_three, Shape.rowMajor_val_one]
        show finalOf cb.val = (cb.val / 1024 * 128 + cb.val % 128) * 8 + cb.val % 1024 / 128
        unfold finalOf
        omega)]

end Blocked

/-! ## The four arrays at an index, at the ideal values -/

variable (m : (ℓ : Loc nD τ sig) → Buf (Elt Ideal) ℓ)

/-- The integer zero converted is the real zero. -/
theorem padZero : sitofp (F := Ideal) .f32 (constantI S_ 32 0#32) ix0 = (0 : EReal) := by
  show (((0#32 : BitVec 32).toInt : ℝ) : EReal) = 0
  simp

theorem qwp_apply (c : Dev nD) (k : Fin 4096) (cp : Fin 1408) :
    V m c main_v0 (ix2 k cp)
      = if h : cp.val < 1376 then m ((c : Thread nD τ).loc main_arg1) (ix2 k ⟨cp.val, h⟩) else 0#32 := by
  refine (congrFun (qwp_term m c) (ix2 k cp)).trans ?_
  rw [pad_qw_apply]
  rfl

theorem qzp_apply (c : Dev nD) (g : Fin 32) (cp : Fin 1408) :
    V m c main_v2 (ix3 g (0 : Fin 1) cp)
      = if h : cp.val < 1376 then m ((c : Thread nD τ).loc main_arg2) (ix2 g ⟨cp.val, h⟩) else 0#32 := by
  refine (congrFun (qzp_term m c) (ix3 g (0 : Fin 1) cp)).trans ?_
  rw [shapeCast_apply _ shapeCasts_S32x1408_S32x1x1408 (ix3 g (0 : Fin 1) cp) (ix2 g cp) (by
        rw [Shape.rowMajor_val_three, Shape.rowMajor_val_two]
        show g.val * 1408 + cp.val = (g.val * 1 + 0) * 1408 + cp.val
        omega),
      pad_qz_apply]
  rfl

theorem scb_apply (c : Dev nD) (g : Fin 32) (cb : Fin 11264) :
    V m c main_v7 (ix3 g (0 : Fin 1) cb)
      = if h : finalOf cb.val < 11008 then m ((c : Thread nD τ).loc main_arg3) (ix2 g ⟨finalOf cb.val, h⟩) else (0 : EReal) := by
  refine (congrFun (scb_term m c) (ix3 g (0 : Fin 1) cb)).trans ?_
  rw [blockedRows_apply, pad_sc_apply, padZero]
  rfl

theorem bb_apply (c : Dev nD) (cb : Fin 11264) :
    V m c main_v12 (ix2 (0 : Fin 1) cb)
      = if h : finalOf cb.val < 11008 then m ((c : Thread nD τ).loc main_arg4) (ix1 ⟨finalOf cb.val, h⟩) else (0 : EReal) := by
  refine (congrFun (bb_term m c) (ix2 (0 : Fin 1) cb)).trans ?_
  rw [blockedVec_apply, pad_b_apply, padZero]
  rfl

end Cert.KernelIdeal.HostIn

end
-- ==== Proof.KIValue.lean ====
/-
  The idealized kernel program's value: every weakly fair execution ends with the result array holding the
  dequantising linear layer of the arguments. The region leaves the layer in blocked column order over the padded,
  re-arranged arrays the host lines before it built; the host lines after it put the columns back in final order
  and drop the padding; at a final column the padded arrays are the arguments themselves.
-/
import proofs.«415671_j19009525252581_4_alg».proof.Proof.KIFrame
import proofs.«415671_j19009525252581_4_alg».proof.Proof.KIArray
import proofs.«415671_j19009525252581_4_alg».proof.Proof.KITail
import proofs.«415671_j19009525252581_4_alg».proof.Proof.KIHostIn
import proofs.«415671_j19009525252581_4_alg».proof.Proof.Dequant

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.Dequant

variable (m : (ℓ : Loc nD τ sig) → Buf (Elt Ideal) ℓ) (ρ : Dev nD → PrngReg)

/-- At the blocked position of a final column the blocked weight over the padded arrays is the weight over the arguments:
    the packed column read is `n / 8` (inside the unpadded width), the field is `n % 8`, and the blocked, padded scale at
    that position is the scale at column `n`. -/
theorem weightBlocked_at_final (c : Dev nD) (k : Fin 4096) (n : Fin 11008) :
    weightBlocked (V m c main_v0) (V m c main_v2) (V m c main_v7) k ⟨blockedOf n.val, blockedOf_lt (by have := n.isLt; omega)⟩
      = weight (m ((c : Thread nD τ).loc main_arg1)) (m ((c : Thread nD τ).loc main_arg2)) (m ((c : Thread nD τ).loc main_arg3)) k n := by
  have hn := n.isLt
  have hp : blockedOf n.val / 1024 * 128 + blockedOf n.val % 128 = n.val / 8 := packed_of_blocked n.val
  have hf : blockedOf n.val % 1024 / 128 = n.val % 8 := field_of_blocked n.val
  have hfin : finalOf (blockedOf n.val) = n.val := finalOf_blockedOf n.val
  have hpc : packedColB ⟨blockedOf n.val, blockedOf_lt (by omega)⟩ = ⟨n.val / 8, by omega⟩ := Fin.ext hp
  have hfb : fieldB ⟨blockedOf n.val, blockedOf_lt (by omega)⟩ = fieldOf n := Fin.ext hf
  unfold weightBlocked weight
  rw [hpc, hfb, Cert.KernelIdeal.HostIn.qwp_apply, Cert.KernelIdeal.HostIn.qzp_apply, Cert.KernelIdeal.HostIn.scb_apply]
  rw [dif_pos (show n.val / 8 < 1376 by omega), dif_pos (show n.val / 8 < 1376 by omega)]
  rw [dif_pos (show finalOf (blockedOf n.val) < 11008 by rw [hfin]; exact hn)]
  have e : (⟨finalOf (blockedOf n.val), by rw [hfin]; exact hn⟩ : Fin 11008) = n := Fin.ext hfin
  rw [e]
  rfl

/-- The blocked, padded bias at the blocked position of a final column is the bias at that column. -/
theorem bias_at_final (c : Dev nD) (n : Fin 11008) :
    V m c main_v12 (ix2 (0 : Fin 1) ⟨blockedOf n.val, blockedOf_lt (by have := n.isLt; omega)⟩) = m ((c : Thread nD τ).loc main_arg4) (ix1 n) := by
  have hn := n.isLt
  have hfin : finalOf (blockedOf n.val) = n.val := finalOf_blockedOf n.val
  rw [Cert.KernelIdeal.HostIn.bb_apply, dif_pos (show finalOf (blockedOf n.val) < 11008 by rw [hfin]; exact hn)]
  have e : (⟨finalOf (blockedOf n.val), by rw [hfin]; exact hn⟩ : Fin 11008) = n := Fin.ext hfin
  rw [e]

/-- The layer in blocked order over arrays that, at the blocked position of final column `n`, carry the arguments'
    weight and bias, is the layer of the arguments at column `n`. -/
theorem linearBlocked_at_final (X : (⟨2, ![2048, 4096]⟩ : Shape).Idx → EReal) (QWP : (⟨2, ![4096, 1408]⟩ : Shape).Idx → BitVec 32)
    (QZP : (⟨3, ![32, 1, 1408]⟩ : Shape).Idx → BitVec 32) (SCB : (⟨3, ![32, 1, 11264]⟩ : Shape).Idx → EReal)
    (BB : (⟨2, ![1, 11264]⟩ : Shape).Idx → EReal)
    (x : (⟨2, ![2048, 4096]⟩ : Shape).Idx → EReal) (qw : (⟨2, ![4096, 1376]⟩ : Shape).Idx → BitVec 32)
    (qz : (⟨2, ![32, 1376]⟩ : Shape).Idx → BitVec 32) (sc : (⟨2, ![32, 11008]⟩ : Shape).Idx → EReal)
    (b : (⟨1, ![11008]⟩ : Shape).Idx → EReal) (r : Fin 2048) (n : Fin 11008) (hb : blockedOf n.val < 11264)
    (hX : X = x) (hW : ∀ k : Fin 4096, weightBlocked QWP QZP SCB k ⟨blockedOf n.val, hb⟩ = weight qw qz sc k n)
    (hB : BB (ix2 (0 : Fin 1) ⟨blockedOf n.val, hb⟩) = b (ix1 n)) :
    linearBlocked X QWP QZP SCB BB (ix2 r ⟨blockedOf n.val, hb⟩) = linear x qw qz sc b (ix2 r n) := by
  subst hX
  unfold linearBlocked linear
  show (∑ k : Fin 4096, X (ix2 r k) * weightBlocked QWP QZP SCB k ⟨blockedOf n.val, hb⟩) + BB (ix2 (0 : Fin 1) ⟨blockedOf n.val, hb⟩)
    = (∑ k : Fin 4096, X (ix2 r k) * weight qw qz sc k n) + b (ix1 n)
  rw [hB]
  congr 1
  exact Finset.sum_congr rfl fun k _ => by rw [hW k]

/-- The program's result buffer after the host lines that follow the region: the layer of the arguments. -/
theorem result_eq (c : Dev nD) :
    Pipeline.afterTail₀ cfgs (dats m) 0 (V0 m) [hostOps1] c main_v17
      = linear (m ((c : Thread nD τ).loc main_arg0)) (m ((c : Thread nD τ).loc main_arg1)) (m ((c : Thread nD τ).loc main_arg2)) (m ((c : Thread nD τ).loc main_arg3)) (m ((c : Thread nD τ).loc main_arg4)) := by
  funext y
  obtain ⟨r, n, rfl⟩ : ∃ (r : Fin 2048) (n : Fin 11008), y = ix2 r n := ⟨y 0, y 1, eq_ix2 y⟩
  rw [tail_apply m (dats m) c r n, arr_out m c]
  exact linearBlocked_at_final _ _ _ _ _ _ _ _ _ _ r n _ (V_main_arg0 m c) (fun k => weightBlocked_at_final m c k n) (bias_at_final m c n)

/-- Every weakly fair execution of the idealized kernel program terminates with the result at the layer of the
    arguments and the arguments unchanged. -/
theorem run : θ_run defs (onTc (τ := τ) (main (F := Ideal))) ⟨m, fun _ => 0, ρ⟩ (fun r => ∀ c : Dev nD,
      r.2.mem ((c.tc : Thread nD τ).loc main_v17) = linear (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v17 (Pipeline.mem_restRefs_of main_v17 (by decide) (by decide))).trans (result_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main (F := Ideal) m ρ)

end Cert.KernelIdeal.HandValue

end
-- ==== Proof.RefRun.lean ====
/-
  The reference program's run, read back. Its @main is a straight line of 39 host operations; listed in order, the
  run of the list leaves every buffer at the fold of the operations' results over the launch contents. The result
  buffer then holds one pure term of the five argument arrays, built here in named stages:

    shifts        the table (0,4,1,5,2,6,3,7) times four: the bit offset of each logical field of a packed word;
    fields q      every packed word of `q` shifted right (arithmetically) by each of the eight offsets, the low four
                  bits kept, the trailing axis of eight folded into the columns (column `8·c + j` is field `j` of
                  packed column `c`);
    weights       rows regrouped as (group, row in group); (field of the weight − field of the group's zero) times the
                  group's scale, both broadcast along the rows of a group; rows flattened again;
    result        x · weights + bias, the bias broadcast along the rows.

  The arguments are written by no operation and keep their launch contents.
-/
import proofs.«415671_j19009525252581_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 39 operations, in order. -/
abbrev ops : List (HloOp τ sig (Elt F)) :=
  [
    nullary main_c (fun i => lit0 (S8.rowMajor i)),
    nullary main_c_0 (constantI S_ 32 4#32),
    unary main_c_0 main_v0 (broadcastInDim S8 ![] bcast_S_S8 : (⟨S_, .i32⟩ : BufTy).Contents (Elt F) → (⟨S8, .i32⟩ : BufTy).Contents (Elt F)),
    binary main_c main_v0 main_v1 (muli : (⟨S8, .i32⟩ : BufTy).Contents (Elt F) → (⟨S8, .i32⟩ : BufTy).Contents (Elt F) → (⟨S8, .i32⟩ : BufTy).Contents (Elt F)),
    unary main_arg1 main_v2 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_v1 main_v3 (broadcastInDim S1x1x8 ![2] bcast_S8_S1x1x8_2 : (⟨S8, .i32⟩ : BufTy).Contents (Elt F) → (⟨S1x1x8, .i32⟩ : BufTy).Contents (Elt F)),
    unary main_v2 main_v4 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v3 main_v5 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v4 main_v5 main_v6 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_1 (constantI S_ 32 15#32),
    unary main_c_1 main_v7 (broadcastInDim S4096x1376x8 ![] bcast_S_S4096x1376x8 : (⟨S_, .i32⟩ : BufTy).Contents (Elt F) → (⟨S4096x1376x8, .i32⟩ : BufTy).Contents (Elt F)),
    binary main_v6 main_v7 main_v8 (andi : (⟨S4096x1376x8, .i32⟩ : BufTy).Contents (Elt F) → (⟨S4096x1376x8, .i32⟩ : BufTy).Contents (Elt F) → (⟨S4096x1376x8, .i32⟩ : BufTy).Contents (Elt F)),
    reshape main_v8 main_v9 rfl shapeCasts_S4096x1376x8_S4096x11008,
    unary main_v9 main_v10 (sitofp .f32 : (⟨S4096x11008, .i32⟩ : BufTy).Contents (Elt F) → (⟨S4096x11008, .f32⟩ : BufTy).Contents (Elt F)),
    nullary main_c_2 (constantI S_ 32 4#32),
    unary main_c_2 main_v11 (broadcastInDim S8 ![] bcast_S_S8 : (⟨S_, .i32⟩ : BufTy).Contents (Elt F) → (⟨S8, .i32⟩ : BufTy).Contents (Elt F)),
    binary main_c main_v11 main_v12 (muli : (⟨S8, .i32⟩ : BufTy).Contents (Elt F) → (⟨S8, .i32⟩ : BufTy).Contents (Elt F) → (⟨S8, .i32⟩ : BufTy).Contents (Elt F)),
    unary main_arg2 main_v13 (broadcastInDim S32x1376x1 ![0, 1] bcast_S32x1376_S32x1376x1_0_1 : (⟨S32x1376, .i32⟩ : BufTy).Contents (Elt F) → (⟨S32x1376x1, .i32⟩ : BufTy).Contents (Elt F)),
    unary main_v12 main_v14 (broadcastInDim S1x1x8 ![2] bcast_S8_S1x1x8_2 : (⟨S8, .i32⟩ : BufTy).Contents (Elt F) → (⟨S1x1x8, .i32⟩ : BufTy).Contents (Elt F)),
    unary main_v13 main_v15 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v14 main_v16 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v15 main_v16 main_v17 (Host.shrsi : (⟨S32x1376x8, .i32⟩ : BufTy).Contents (Elt F) → (⟨S32x1376x8, .i32⟩ : BufTy).Contents (Elt F) → (⟨S32x1376x8, .i32⟩ : BufTy).Contents (Elt F)),
    nullary main_c_3 (constantI S_ 32 15#32),
    unary main_c_3 main_v18 (broadcastInDim S32x1376x8 ![] bcast_S_S32x1376x8 : (⟨S_, .i32⟩ : BufTy).Contents (Elt F) → (⟨S32x1376x8, .i32⟩ : BufTy).Contents (Elt F)),
    binary main_v17 main_v18 main_v19 (andi : (⟨S32x1376x8, .i32⟩ : BufTy).Contents (Elt F) → (⟨S32x1376x8, .i32⟩ : BufTy).Contents (Elt F) → (⟨S32x1376x8, .i32⟩ : BufTy).Contents (Elt F)),
    reshape main_v19 main_v20 rfl shapeCasts_S32x1376x8_S32x11008,
    unary main_v20 main_v21 (sitofp .f32 : (⟨S32x11008, .i32⟩ : BufTy).Contents (Elt F) → (⟨S32x11008, .f32⟩ : BufTy).Contents (Elt F)),
    reshape main_v10 main_v22 rfl shapeCasts_S4096x11008_S32x128x11008,
    unary main_v21 main_v23 (broadcastInDim S32x1x11008 ![0, 2] bcast_S32x11008_S32x1x11008_0_2 : (⟨S32x11008, .f32⟩ : BufTy).Contents (Elt F) → (⟨S32x1x11008, .f32⟩ : BufTy).Contents (Elt F)),
    unary main_v23 main_v24 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    binary main_v22 main_v24 main_v25 (subf : (⟨S32x128x11008, .f32⟩ : BufTy).Contents (Elt F) → (⟨S32x128x11008, .f32⟩ : BufTy).Contents (Elt F) → (⟨S32x128x11008, .f32⟩ : BufTy).Contents (Elt F)),
    unary main_arg3 main_v26 (broadcastInDim S32x1x11008 ![0, 2] bcast_S32x11008_S32x1x11008_0_2 : (⟨S32x11008, .f32⟩ : BufTy).Contents (Elt F) → (⟨S32x1x11008, .f32⟩ : BufTy).Contents (Elt F)),
    unary main_v26 main_v27 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    binary main_v25 main_v27 main_v28 (mulf : (⟨S32x128x11008, .f32⟩ : BufTy).Contents (Elt F) → (⟨S32x128x11008, .f32⟩ : BufTy).Contents (Elt F) → (⟨S32x128x11008, .f32⟩ : BufTy).Contents (Elt F)),
    reshape main_v28 main_v29 rfl shapeCasts_S32x128x11008_S4096x11008,
    binary main_arg0 main_v29 main_v30 ((fun l r => Host.dotGeneral dot_S2048x4096_S4096x11008_S2048x11008_1_0_0_1_n_n none l r) : (⟨S2048x4096, .f32⟩ : BufTy).Contents (Elt F) → (⟨S4096x11008, .f32⟩ : BufTy).Contents (Elt F) → (⟨S2048x11008, .f32⟩ : BufTy).Contents (Elt F)),
    unary main_arg4 main_v31 (broadcastInDim S1x11008 ![1] bcast_S11008_S1x11008_1 : (⟨S11008, .f32⟩ : BufTy).Contents (Elt F) → (⟨S1x11008, .f32⟩ : BufTy).Contents (Elt F)),
    unary main_v31 main_v32 (broadcastInDim S2048x11008 ![0, 1] bcast_S1x11008_S2048x11008_0_1 : (⟨S1x11008, .f32⟩ : BufTy).Contents (Elt F) → (⟨S2048x11008, .f32⟩ : BufTy).Contents (Elt F)),
    binary main_v30 main_v32 main_v33 (addf : (⟨S2048x11008, .f32⟩ : BufTy).Contents (Elt F) → (⟨S2048x11008, .f32⟩ : BufTy).Contents (Elt F) → (⟨S2048x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., reshape_bufs_sub .., unary_bufs_sub .., unary_bufs_sub .., binary_bufs_sub .., unary_bufs_sub .., unary_bufs_sub .., binary_bufs_sub .., reshape_bufs_sub .., binary_bufs_sub .., unary_bufs_sub .., unary_bufs_sub .., binary_bufs_sub ..⟩

/-! ## The composed term, in stages -/

/-- Bit offsets of the eight logical fields: the order table times four. -/
def shifts : (⟨S8, .i32⟩ : BufTy).Contents (Elt F) :=
  muli (fun i => lit0 (S8.rowMajor i)) (broadcastInDim S8 ![] bcast_S_S8 (constantI S_ 32 4#32))

/-- The 4-bit fields of the weight words, `[4096, 1376]` words to `[4096, 11008]` fields. -/
def fieldsW (qw : (⟨S4096x1376, .i32⟩ : BufTy).Contents (Elt F)) : (⟨S4096x11008, .i32⟩ : BufTy).Contents (Elt F) :=
  shapeCast S4096x11008
    (andi
      (Host.shrsi
        (broadcastInDim S4096x1376x8 ![0, 1, 2] bcast_S4096x1376x1_S4096x1376x8_0_1_2
          (broadcastInDim S4096x1376x1 ![0, 1] bcast_S4096x1376_S4096x1376x1_0_1 qw))
        (broadcastInDim S4096x1376x8 ![0, 1, 2] bcast_S1x1x8_S4096x1376x8_0_1_2
          (broadcastInDim S1x1x8 ![2] bcast_S8_S1x1x8_2 (shifts (F := F)))))
      (broadcastInDim S4096x1376x8 ![] bcast_S_S4096x1376x8 (constantI S_ 32 15#32)))
    shapeCasts_S4096x1376x8_S4096x11008

/-- The 4-bit fields of the zero-point words, `[32, 1376]` words to `[32, 11008]` fields. -/
def fieldsZ (qz : (⟨S32x1376, .i32⟩ : BufTy).Contents (Elt F)) : (⟨S32x11008, .i32⟩ : BufTy).Contents (Elt F) :=
  shapeCast S32x11008
    (andi
      (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 (shifts (F := F)))))
      (broadcastInDim S32x1376x8 ![] bcast_S_S32x1376x8 (constantI S_ 32 15#32)))
    shapeCasts_S32x1376x8_S32x11008

/-- The dequantised weight matrix `[4096, 11008]`: per group of 128 rows, (weight field − zero field) · scale. -/
def weights (qw : (⟨S4096x1376, .i32⟩ : BufTy).Contents (Elt F)) (qz : (⟨S32x1376, .i32⟩ : BufTy).Contents (Elt F)) (sc : (⟨S32x11008, .f32⟩ : BufTy).Contents (Elt F)) :
    (⟨S4096x11008, .f32⟩ : BufTy).Contents (Elt F) :=
  shapeCast S4096x11008
    (mulf
      (subf
        (shapeCast S32x128x11008 (sitofp (F := F) .f32 (fieldsW (F := F) qw)) shapeCasts_S4096x11008_S32x128x11008)
        (broadcastInDim S32x128x11008 ![0, 1, 2] bcast_S32x1x11008_S32x128x11008_0_1_2
          (broadcastInDim S32x1x11008 ![0, 2] bcast_S32x11008_S32x1x11008_0_2 (sitofp (F := F) .f32 (fieldsZ (F := F) qz)))))
      (broadcastInDim S32x128x11008 ![0, 1, 2] bcast_S32x1x11008_S32x128x11008_0_1_2
        (broadcastInDim S32x1x11008 ![0, 2] bcast_S32x11008_S32x1x11008_0_2 sc)))
    shapeCasts_S32x128x11008_S4096x11008

/-- The operations' composed pure term of the five argument arrays: `x · weights + bias`. -/
def result (x : (⟨S2048x4096, .f32⟩ : BufTy).Contents (Elt F)) (qw : (⟨S4096x1376, .i32⟩ : BufTy).Contents (Elt F)) (qz : (⟨S32x1376, .i32⟩ : BufTy).Contents (Elt F))
    (sc : (⟨S32x11008, .f32⟩ : BufTy).Contents (Elt F)) (b : (⟨S11008, .f32⟩ : BufTy).Contents (Elt F)) : (⟨S2048x11008, .f32⟩ : BufTy).Contents (Elt F) :=
  addf
    (Host.dotGeneral dot_S2048x4096_S4096x11008_S2048x11008_1_0_0_1_n_n none x (weights (F := F) qw qz sc))
    (broadcastInDim S2048x11008 ![0, 1] bcast_S1x11008_S2048x11008_0_1
      (broadcastInDim S1x11008 ![1] bcast_S11008_S1x11008_1 b))

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  At the ideal values the reference's composed term is the dequantising linear layer, index by index.

  The term is read from the inside out. The shift table times four is the bit offset of each logical field. A packed
  word broadcast along a new trailing axis of eight, shifted by the offsets and masked to four bits, is the word's
  eight fields; folding that axis into the columns puts field `j` of packed column `c` at column `8·c + j` (the two
  row-major positions agree). Converted to reals exactly, regrouped by rows `(k / 128, k % 128)`, the weight fields
  less the group's zero fields times the group's scale are the dequantised weights; flattening the rows again is the
  inverse regrouping. The product with `x` contracts one axis, so its element is a plain sum over `k : Fin 4096`,
  and the bias is broadcast along the rows.
-/
import proofs.«415671_j19009525252581_4_alg».proof.Proof.RefRun
import proofs.«415671_j19009525252581_4_alg».proof.Proof.Dequant
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Cert.Dequant
open Idealize.ShloMosaic Idealize.ShloMosaic.ValueIdx

/-! ## The shift vector -/

/-- Every field offset is below the word width, so the host's arithmetic shift is the plain one. -/
theorem shiftOf_lt (j : Fin 8) : (shiftOf j).toNat < 32 := by
  fin_cases j <;> decide

/-- Entry `j` of the order table times four is the bit offset of logical field `j`. -/
theorem shifts_apply (j : Fin 8) : shifts (F := Ideal) (ix1 j) = shiftOf j := by
  unfold shifts
  show IntOp.muli (lit0 (S8.rowMajor (ix1 j))) _ = _
  rw [broadcastInDim_scalar_apply, constantI_apply]
  have h : S8.rowMajor (ix1 j) = (⟨j.val, j.isLt⟩ : Fin 8) := Fin.ext (by rw [Shape.rowMajor_val_one])
  rw [h]
  fin_cases j <;> decide

/-! ## The fields of the packed words -/

/-- The eight fields of one word of `qw`: at `(k, c, j)` of the `[4096, 1376, 8]` array, before the trailing axis is
    folded into the columns, stands field `j` of word `(k, c)`. -/
theorem fieldsW_pre (qw : (⟨S4096x1376, .i32⟩ : BufTy).Contents (Elt Ideal)) (k : Fin 4096) (c : Fin 1376) (j : Fin 8) :
    (andi
      (Host.shrsi
        (broadcastInDim S4096x1376x8 ![0, 1, 2] bcast_S4096x1376x1_S4096x1376x8_0_1_2
          (broadcastInDim S4096x1376x1 ![0, 1] bcast_S4096x1376_S4096x1376x1_0_1 qw))
        (broadcastInDim S4096x1376x8 ![0, 1, 2] bcast_S1x1x8_S4096x1376x8_0_1_2
          (broadcastInDim S1x1x8 ![2] bcast_S8_S1x1x8_2 (shifts (F := Ideal)))))
      (broadcastInDim S4096x1376x8 ![] bcast_S_S4096x1376x8 (constantI S_ 32 15#32))) (ix3 k c j)
      = nib (qw (ix2 k c)) j := by
  show IntOp.andi (IntOp.shrsi .host _ _) _ = _
  rw [broadcastInDim_apply _ bcast_S4096x1376x1_S4096x1376x8_0_1_2 _ (ix3 k c j) (ix3 k c (0 : Fin 1))
        (fun a => match a with | ⟨0, _⟩ => rfl | ⟨1, _⟩ => rfl | ⟨2, _⟩ => rfl),
      broadcastInDim_apply _ bcast_S4096x1376_S4096x1376x1_0_1 qw (ix3 k c (0 : Fin 1)) (ix2 k c)
        (fun a => match a with | ⟨0, _⟩ => rfl | ⟨1, _⟩ => rfl),
      broadcastInDim_apply _ bcast_S1x1x8_S4096x1376x8_0_1_2 _ (ix3 k c j) (ix3 (0 : Fin 1) (0 : Fin 1) j)
        (fun a => match a with | ⟨0, _⟩ => rfl | ⟨1, _⟩ => rfl | ⟨2, _⟩ => rfl),
      broadcastInDim_apply _ bcast_S8_S1x1x8_2 _ (ix3 (0 : Fin 1) (0 : Fin 1) j) (ix1 j)
        (fun a => match a with | ⟨0, _⟩ => rfl),
      broadcastInDim_scalar_apply, constantI_apply, shifts_apply]
  unfold nib IntOp.shrsi IntOp.andi
  rw [if_pos (shiftOf_lt j)]

/-- Column `n` of the unpacked array is field `n % 8` of packed column `n / 8`. -/
theorem fieldsW_apply (qw : (⟨S4096x1376, .i32⟩ : BufTy).Contents (Elt Ideal)) (k : Fin 4096) (n : Fin 11008) :
    fieldsW (F := Ideal) qw (ix2 k n) = nib (qw (ix2 k (packedCol n))) (fieldOf n) := by
  unfold fieldsW
  rw [shapeCast_apply _ shapeCasts_S4096x1376x8_S4096x11008 (ix2 k n) (ix3 k (packedCol n) (fieldOf n)) (by
        rw [Shape.rowMajor_val_three, Shape.rowMajor_val_two]
        show (k.val * 1376 + n.val / 8) * 8 + n.val % 8 = k.val * 11008 + n.val
        omega)]
  exact fieldsW_pre qw k (packedCol n) (fieldOf n)

/-- The eight fields of one word of `qz`: at `(k, c, j)` of the `[32, 1376, 8]` array, before the trailing axis is
    folded into the columns, stands field `j` of word `(k, c)`. -/
theorem fieldsZ_pre (qz : (⟨S32x1376, .i32⟩ : BufTy).Contents (Elt Ideal)) (k : Fin 32) (c : Fin 1376) (j : Fin 8) :
    (andi
      (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 (shifts (F := Ideal)))))
      (broadcastInDim S32x1376x8 ![] bcast_S_S32x1376x8 (constantI S_ 32 15#32))) (ix3 k c j)
      = nib (qz (ix2 k c)) j := by
  show IntOp.andi (IntOp.shrsi .host _ _) _ = _
  rw [broadcastInDim_apply _ bcast_S32x1376x1_S32x1376x8_0_1_2 _ (ix3 k c j) (ix3 k c (0 : Fin 1))
        (fun a => match a with | ⟨0, _⟩ => rfl | ⟨1, _⟩ => rfl | ⟨2, _⟩ => rfl),
      broadcastInDim_apply _ bcast_S32x1376_S32x1376x1_0_1 qz (ix3 k c (0 : Fin 1)) (ix2 k c)
        (fun a => match a with | ⟨0, _⟩ => rfl | ⟨1, _⟩ => rfl),
      broadcastInDim_apply _ bcast_S1x1x8_S32x1376x8_0_1_2 _ (ix3 k c j) (ix3 (0 : Fin 1) (0 : Fin 1) j)
        (fun a => match a with | ⟨0, _⟩ => rfl | ⟨1, _⟩ => rfl | ⟨2, _⟩ => rfl),
      broadcastInDim_apply _ bcast_S8_S1x1x8_2 _ (ix3 (0 : Fin 1) (0 : Fin 1) j) (ix1 j)
        (fun a => match a with | ⟨0, _⟩ => rfl),
      broadcastInDim_scalar_apply, constantI_apply, shifts_apply]
  unfold nib IntOp.shrsi IntOp.andi
  rw [if_pos (shiftOf_lt j)]

/-- Column `n` of the unpacked array is field `n % 8` of packed column `n / 8`. -/
theorem fieldsZ_apply (qz : (⟨S32x1376, .i32⟩ : BufTy).Contents (Elt Ideal)) (k : Fin 32) (n : Fin 11008) :
    fieldsZ (F := Ideal) qz (ix2 k n) = nib (qz (ix2 k (packedCol n))) (fieldOf n) := by
  unfold fieldsZ
  rw [shapeCast_apply _ shapeCasts_S32x1376x8_S32x11008 (ix2 k n) (ix3 k (packedCol n) (fieldOf n)) (by
        rw [Shape.rowMajor_val_three, Shape.rowMajor_val_two]
        show (k.val * 1376 + n.val / 8) * 8 + n.val % 8 = k.val * 11008 + n.val
        omega)]
  exact fieldsZ_pre qz k (packedCol n) (fieldOf n)

/-! ## The dequantised weights -/

/-- Row `k` inside its group. -/
def rowIn (k : Fin 4096) : Fin 128 := ⟨k.val % 128, Nat.mod_lt _ (by decide)⟩

/-- A `[32, 11008]` array broadcast along the 128 rows of each group reads the group's row. -/
theorem groupBroadcast_apply {α : Type} (z : S32x11008.Idx → α) (g : Fin 32) (r : Fin 128) (n : Fin 11008) :
    broadcastInDim S32x128x11008 ![0, 1, 2] bcast_S32x1x11008_S32x128x11008_0_1_2
      (broadcastInDim S32x1x11008 ![0, 2] bcast_S32x11008_S32x1x11008_0_2 z) (ix3 g r n) = z (ix2 g n) := by
  rw [broadcastInDim_apply _ bcast_S32x1x11008_S32x128x11008_0_1_2 _ (ix3 g r n) (ix3 g (0 : Fin 1) n)
        (fun a => match a with | ⟨0, _⟩ => rfl | ⟨1, _⟩ => rfl | ⟨2, _⟩ => rfl),
      broadcastInDim_apply _ bcast_S32x11008_S32x1x11008_0_2 z (ix3 g (0 : Fin 1) n) (ix2 g n)
        (fun a => match a with | ⟨0, _⟩ => rfl | ⟨1, _⟩ => rfl)]

/-- The weight matrix at row `k`, column `n`: row `k` is row `k % 128` of group `k / 128`, in both regroupings. -/
theorem weights_apply (qw : (⟨S4096x1376, .i32⟩ : BufTy).Contents (Elt Ideal)) (qz : (⟨S32x1376, .i32⟩ : BufTy).Contents (Elt Ideal))
    (sc : (⟨S32x11008, .f32⟩ : BufTy).Contents (Elt Ideal)) (k : Fin 4096) (n : Fin 11008) :
    weights (F := Ideal) qw qz sc (ix2 k n) = weight qw qz sc k n := by
  unfold weights
  rw [shapeCast_apply _ shapeCasts_S32x128x11008_S4096x11008 (ix2 k n) (ix3 (groupOf k) (rowIn k) n) (by
        rw [Shape.rowMajor_val_three, Shape.rowMajor_val_two]
        show (k.val / 128 * 128 + k.val % 128) * 11008 + n.val = k.val * 11008 + n.val
        omega)]
  rw [mulf_apply, subf_apply, groupBroadcast_apply, groupBroadcast_apply,
      shapeCast_apply _ shapeCasts_S4096x11008_S32x128x11008 (ix3 (groupOf k) (rowIn k) n) (ix2 k n) (by
        rw [Shape.rowMajor_val_three, Shape.rowMajor_val_two]
        show k.val * 11008 + n.val = (k.val / 128 * 128 + k.val % 128) * 11008 + n.val
        omega),
      sitofp_apply, sitofp_apply, fieldsW_apply, fieldsZ_apply]
  rfl

/-! ## The product and the bias -/

theorem lhs_0 (i : S2048x11008.Idx) (q : dot_S2048x4096_S4096x11008_S2048x11008_1_0_0_1_n_n.contr.Idx) :
    (dot_S2048x4096_S4096x11008_S2048x11008_1_0_0_1_n_n.lhsIdx i q 0).val = (i 0).val := by
  unfold DotDims.lhsIdx
  rw [dif_neg (show ¬(0 : Fin S2048x4096.rank) ∈ dot_S2048x4096_S4096x11008_S2048x11008_1_0_0_1_n_n.lhsBatch by decide),
    dif_pos (show (0 : Fin S2048x4096.rank) ∈ dot_S2048x4096_S4096x11008_S2048x11008_1_0_0_1_n_n.lhsNonContracting by decide)]
  rfl
theorem lhs_1 (i : S2048x11008.Idx) (q : dot_S2048x4096_S4096x11008_S2048x11008_1_0_0_1_n_n.contr.Idx) :
    (dot_S2048x4096_S4096x11008_S2048x11008_1_0_0_1_n_n.lhsIdx i q 1).val = (q ⟨0, by decide⟩).val :=
  dot_S2048x4096_S4096x11008_S2048x11008_1_0_0_1_n_n.lhsIdx_val_of_single rfl i q
theorem rhs_0 (i : S2048x11008.Idx) (q : dot_S2048x4096_S4096x11008_S2048x11008_1_0_0_1_n_n.contr.Idx) :
    (dot_S2048x4096_S4096x11008_S2048x11008_1_0_0_1_n_n.rhsIdx i q 0).val = (q ⟨0, by decide⟩).val :=
  dot_S2048x4096_S4096x11008_S2048x11008_1_0_0_1_n_n.rhsIdx_val_of_single rfl i q
theorem rhs_1 (i : S2048x11008.Idx) (q : dot_S2048x4096_S4096x11008_S2048x11008_1_0_0_1_n_n.contr.Idx) :
    (dot_S2048x4096_S4096x11008_S2048x11008_1_0_0_1_n_n.rhsIdx i q 1).val = (i 1).val := by
  unfold DotDims.rhsIdx
  rw [dif_neg (show ¬(1 : Fin S4096x11008.rank) ∈ dot_S2048x4096_S4096x11008_S2048x11008_1_0_0_1_n_n.rhsBatch by decide),
    dif_pos (show (1 : Fin S4096x11008.rank) ∈ dot_S2048x4096_S4096x11008_S2048x11008_1_0_0_1_n_n.rhsNonContracting by decide)]
  rfl

/-- The host product with one contracted axis, at `(r, n)`: the sum over `k` of `x[r, k] · w[k, n]`. -/
theorem dot_apply (x : (⟨S2048x4096, .f32⟩ : BufTy).Contents (Elt Ideal)) (w : (⟨S4096x11008, .f32⟩ : BufTy).Contents (Elt Ideal))
    (i : S2048x11008.Idx) :
    Host.dotGeneral (F := Ideal) (φ₁ := .f32) (φ₂ := .f32) dot_S2048x4096_S4096x11008_S2048x11008_1_0_0_1_n_n none x w i
      = ∑ k : Fin 4096, x (ix2 (i 0) k) * w (ix2 k (i 1)) := by
  simp only [Host.dotGeneral]
  rw [Ideal.dotGeneral_apply, ← Equiv.sum_comp (ValueIdx.contrEquiv1 dot_S2048x4096_S4096x11008_S2048x11008_1_0_0_1_n_n 4096 rfl rfl).symm]
  refine Finset.sum_congr rfl fun k _ => ?_
  have hk := ValueIdx.contrEquiv1_symm_val dot_S2048x4096_S4096x11008_S2048x11008_1_0_0_1_n_n 4096 rfl rfl k
  have el : dot_S2048x4096_S4096x11008_S2048x11008_1_0_0_1_n_n.lhsIdx i ((ValueIdx.contrEquiv1 dot_S2048x4096_S4096x11008_S2048x11008_1_0_0_1_n_n 4096 rfl rfl).symm k) = ix2 (i 0) k := funext fun a => Fin.ext (by
    match a with
    | ⟨0, _⟩ => exact lhs_0 _ _
    | ⟨1, _⟩ => exact (lhs_1 _ _).trans hk)
  have er : dot_S2048x4096_S4096x11008_S2048x11008_1_0_0_1_n_n.rhsIdx i ((ValueIdx.contrEquiv1 dot_S2048x4096_S4096x11008_S2048x11008_1_0_0_1_n_n 4096 rfl rfl).symm k) = ix2 k (i 1) := funext fun a => Fin.ext (by
    match a with
    | ⟨0, _⟩ => exact (rhs_0 _ _).trans hk
    | ⟨1, _⟩ => exact rhs_1 _ _)
  rw [el, er]
  rfl

/-- The bias broadcast along the rows reads its column. -/
theorem bias_apply (b : (⟨S11008, .f32⟩ : BufTy).Contents (Elt Ideal)) (r : Fin 2048) (n : Fin 11008) :
    broadcastInDim S2048x11008 ![0, 1] bcast_S1x11008_S2048x11008_0_1
      (broadcastInDim S1x11008 ![1] bcast_S11008_S1x11008_1 b) (ix2 r n) = b (ix1 n) := by
  rw [broadcastInDim_apply _ bcast_S1x11008_S2048x11008_0_1 _ (ix2 r n) (ix2 (0 : Fin 1) n)
        (fun a => match a with | ⟨0, _⟩ => rfl | ⟨1, _⟩ => rfl),
      broadcastInDim_apply _ bcast_S11008_S1x11008_1 b (ix2 (0 : Fin 1) n) (ix1 n)
        (fun a => match a with | ⟨0, _⟩ => rfl)]

/-- At the ideal values the reference's term is the layer `x · weight + bias`. -/
theorem result_eq_linear (x : (⟨S2048x4096, .f32⟩ : BufTy).Contents (Elt Ideal)) (qw : (⟨S4096x1376, .i32⟩ : BufTy).Contents (Elt Ideal))
    (qz : (⟨S32x1376, .i32⟩ : BufTy).Contents (Elt Ideal)) (sc : (⟨S32x11008, .f32⟩ : BufTy).Contents (Elt Ideal))
    (b : (⟨S11008, .f32⟩ : BufTy).Contents (Elt Ideal)) :
    Cert.ReferenceIdeal.RefRun.result (F := Ideal) x qw qz sc b = Cert.Dequant.linear x qw qz sc b := by
  funext j
  obtain ⟨r, n, rfl⟩ : ∃ (r : Fin 2048) (n : Fin 11008), j = ix2 r n := ⟨j 0, j 1, eq_ix2 j⟩
  unfold result Cert.Dequant.linear
  rw [addf_apply, dot_apply, bias_apply]
  refine congrArg (· + b (ix1 n)) (Finset.sum_congr rfl fun k _ => ?_)
  rw [weights_apply]

end Cert.ReferenceIdeal.RefValue

end
-- ==== Proof.lean ====
/-
  The certificate of the 4-bit dequantising linear layer kernel against its reference.

  Both programs compute `x · w + bias` with `w[k, n] = (field of the packed weight − field of the group's packed zero) ·
  the group's scale` (Proof/Dequant.lean). The reference does it in one piece on the host (Proof/RefRun.lean reads its
  run back, Proof/RefValue.lean reads the result entry by entry). The kernel tiles the product over a 4 × 11 × 4 grid,
  dequantises each K tile of the weights into a scratch in a loop over its eight groups, accumulates the four K steps
  of an output block in a second scratch and adds the bias at the last step, works on the columns in a per-tile blocked
  order, and host lines around the region pad and re-arrange the arguments and put the result's columns back. At the ideal
  instance the only law between the two is that a sum over 4096 rows may be taken in four runs of 1024 — associativity
  and commutativity of the extended reals' addition; no finiteness is used.

  The frames of the two kernel programs are proved over a body run whose results are stated as functions of what the
  body finds (Proof/KITrip.lean … Proof/KIFrame.lean, and their word-level counterparts Proof/KTrip.lean … Proof/KFrame.lean);
  the idealized kernel's value is read off that run (Proof/KIStep.lean, KIWeights.lean, KIBlocks.lean, KIAccum.lean,
  KIArray.lean, KIHostIn.lean, KITail.lean, KIValue.lean).
-/
import proofs.«415671_j19009525252581_4_alg».proof.Defs
import proofs.«415671_j19009525252581_4_alg».proof.Proof.Gen.Kernel
import proofs.«415671_j19009525252581_4_alg».proof.Proof.Gen.KernelIdeal
import proofs.«415671_j19009525252581_4_alg».proof.Proof.Gen.ReferenceIdeal
import proofs.«415671_j19009525252581_4_alg».proof.Proof.Gen.Pre_finite_inputs
import proofs.«415671_j19009525252581_4_alg».proof.Proof.KFrame
import proofs.«415671_j19009525252581_4_alg».proof.Proof.KIFrame
import proofs.«415671_j19009525252581_4_alg».proof.Proof.KIValue
import proofs.«415671_j19009525252581_4_alg».proof.Proof.RefRun
import proofs.«415671_j19009525252581_4_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- The reference is host operations only: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- From memories agreeing on the arguments both programs end with the layer of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq_linear, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
